-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S640000x16 : Shape := ⟨2, ![640000, 16]⟩
abbrev S20000x128 : Shape := ⟨2, ![20000, 128]⟩
abbrev S640000x64 : Shape := ⟨2, ![640000, 64]⟩
abbrev S640000 : Shape := ⟨1, ![640000]⟩
abbrev S64x128 : Shape := ⟨2, ![64, 128]⟩
abbrev S128 : Shape := ⟨1, ![128]⟩
abbrev S128x128 : Shape := ⟨2, ![128, 128]⟩
abbrev S_ : Shape := ⟨0, ![]⟩

class Facts : Prop where
  bcast_S_S640000x16 : S_.BroadcastsInDim S640000x16 (![] : Fin 0 → Fin S640000x16.rank)
  reducesTo_S640000x16_S_d0_1 : S640000x16.ReducesTo [0, 1] S_
  h_S_ : 0 < S_.numel
  bcast_S_S20000x128 : S_.BroadcastsInDim S20000x128 (![] : Fin 0 → Fin S20000x128.rank)
  reducesTo_S20000x128_S_d0_1 : S20000x128.ReducesTo [0, 1] S_
  bcast_S_S640000x64 : S_.BroadcastsInDim S640000x64 (![] : Fin 0 → Fin S640000x64.rank)
  reducesTo_S640000x64_S_d0_1 : S640000x64.ReducesTo [0, 1] S_
  bcast_S_S640000 : S_.BroadcastsInDim S640000 (![] : Fin 0 → Fin S640000.rank)
  reducesTo_S640000_S_d0 : S640000.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part4 {F : FTy → Type} [FloatOps F] (main_arg16 : FVec F S128x128 .f32) (main_v63 : IVec S_ 1) (main_v67 : IVec S_ 1) : IVec S_ 1 :=
  let main_v68 : IVec S_ 1 := andi main_v63 main_v67
  let main_v69 : FVec F S128x128 .f32 := Host.absf main_arg16
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  main_v73

def fn_part3 {F : FTy → Type} [FloatOps F] (main_arg13 : FVec F S128x128 .f32) (main_arg14 : FVec F S128 .f32) (main_arg15 : FVec F S128x128 .f32) (main_arg16 : FVec F S128x128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg15
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg16 main_v63 main_v67

def fn_part2 {F : FTy → Type} [FloatOps F] (main_arg9 : FVec F S128x128 .f32) (main_arg10 : FVec F S128 .f32) (main_arg11 : FVec F S64x128 .f32) (main_arg12 : FVec F S128 .f32) (main_arg13 : FVec F S128x128 .f32) (main_arg14 : FVec F S128 .f32) (main_arg15 : FVec F S128x128 .f32) (main_arg16 : FVec F S128x128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S64x128 .f32 := Host.absf main_arg11
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_v48 main_v49 main_v50

def fn_part1 {F : FTy → Type} [FloatOps F] (main_arg4 : FVec F S640000 .f32) (main_arg7 : FVec F S64x128 .f32) (main_arg8 : FVec F S128 .f32) (main_arg9 : FVec F S128x128 .f32) (main_arg10 : FVec F S128 .f32) (main_arg11 : FVec F S64x128 .f32) (main_arg12 : FVec F S128 .f32) (main_arg13 : FVec F S128x128 .f32) (main_arg14 : FVec F S128 .f32) (main_arg15 : FVec F S128x128 .f32) (main_arg16 : FVec F S128x128 .f32) (main_v13 : IVec S_ 1) (main_v16 : IVec S640000x64 1) : IVec S_ 1 :=
  let main_c_5 : IVec S_ 1 := constantI S_ 1 1#1
  let main_v17 : IVec S_ 1 := (fun x v => Host.reduce IntOp.andi x v reducesTo_S640000x64_S_d0_1 h_S_) main_v16 main_c_5
  let main_v18 : IVec S_ 1 := andi main_v13 main_v17
  let main_v19 : FVec F S640000 .f32 := Host.absf main_arg4
  let main_cst_6 : FVec F S_ .f32 := constant S_ .f32 0x7F800000#32
  let main_v20 : FVec F S640000 .f32 := broadcastInDim S640000 ![] bcast_S_S640000 main_cst_6
  let main_v21 : IVec S640000 1 := cmpf .olt main_v19 main_v20
  let main_c_7 : IVec S_ 1 := constantI S_ 1 1#1
  let main_v22 : IVec S_ 1 := (fun x v => Host.reduce IntOp.andi x v reducesTo_S640000_S_d0 h_S_) main_v21 main_c_7
  let main_v23 : IVec S_ 1 := andi main_v18 main_v22
  let main_v24 : FVec F S64x128 .f32 := Host.absf main_arg7
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S640000x16 .f32) (main_arg1 : FVec F S20000x128 .f32) (main_arg2 : FVec F S640000x64 .f32) (main_arg3 : FVec F S640000x64 .f32) (main_arg4 : FVec F S640000 .f32) (main_arg5 : IVec S640000 32) (main_arg6 : IVec S640000 32) (main_arg7 : FVec F S64x128 .f32) (main_arg8 : FVec F S128 .f32) (main_arg9 : FVec F S128x128 .f32) (main_arg10 : FVec F S128 .f32) (main_arg11 : FVec F S64x128 .f32) (main_arg12 : FVec F S128 .f32) (main_arg13 : FVec F S128x128 .f32) (main_arg14 : FVec F S128 .f32) (main_arg15 : FVec F S128x128 .f32) (main_arg16 : FVec F S128x128 .f32) : IVec S_ 1 :=
  let main_v0 : FVec F S640000x16 .f32 := Host.absf main_arg0
  let main_cst : FVec F S_ .f32 := constant S_ .f32 0x7F800000#32
  let main_v1 : FVec F S640000x16 .f32 := broadcastInDim S640000x16 ![] bcast_S_S640000x16 main_cst
  let main_v2 : IVec S640000x16 1 := cmpf .olt main_v0 main_v1
  let main_c : IVec S_ 1 := constantI S_ 1 1#1
  let main_v3 : IVec S_ 1 := (fun x v => Host.reduce IntOp.andi x v reducesTo_S640000x16_S_d0_1 h_S_) main_v2 main_c
  let main_v4 : FVec F S20000x128 .f32 := Host.absf main_arg1
  let main_cst_0 : FVec F S_ .f32 := constant S_ .f32 0x7F800000#32
  let main_v5 : FVec F S20000x128 .f32 := broadcastInDim S20000x128 ![] bcast_S_S20000x128 main_cst_0
  let main_v6 : IVec S20000x128 1 := cmpf .olt main_v4 main_v5
  let main_c_1 : IVec S_ 1 := constantI S_ 1 1#1
  let main_v7 : IVec S_ 1 := (fun x v => Host.reduce IntOp.andi x v reducesTo_S20000x128_S_d0_1 h_S_) main_v6 main_c_1
  let main_v8 : IVec S_ 1 := andi main_v3 main_v7
  let main_v9 : FVec F S640000x64 .f32 := Host.absf main_arg2
  let main_cst_2 : FVec F S_ .f32 := constant S_ .f32 0x7F800000#32
  let main_v10 : FVec F S640000x64 .f32 := broadcastInDim S640000x64 ![] bcast_S_S640000x64 main_cst_2
  let main_v11 : IVec S640000x64 1 := cmpf .olt main_v9 main_v10
  let main_c_3 : IVec S_ 1 := constantI S_ 1 1#1
  let main_v12 : IVec S_ 1 := (fun x v => Host.reduce IntOp.andi x v reducesTo_S640000x64_S_d0_1 h_S_) main_v11 main_c_3
  let main_v13 : IVec S_ 1 := andi main_v8 main_v12
  let main_v14 : FVec F S640000x64 .f32 := Host.absf main_arg3
  let main_cst_4 : FVec F S_ .f32 := constant S_ .f32 0x7F800000#32
  let main_v15 : FVec F S640000x64 .f32 := broadcastInDim S640000x64 ![] bcast_S_S640000x64 main_cst_4
  let main_v16 : IVec S640000x64 1 := cmpf .olt main_v14 main_v15
  fn_part1 (F := F) main_arg4 main_arg7 main_arg8 main_arg9 main_arg10 main_arg11 main_arg12 main_arg13 main_arg14 main_arg15 main_arg16 main_v13 main_v16
-- ==== Kernel.lean ====
abbrev S640000x16 : Shape := ⟨2, ![640000, 16]⟩
abbrev S20000x128 : Shape := ⟨2, ![20000, 128]⟩
abbrev S640000x64 : Shape := ⟨2, ![640000, 64]⟩
abbrev S640000 : Shape := ⟨1, ![640000]⟩
abbrev S64x128 : Shape := ⟨2, ![64, 128]⟩
abbrev S128 : Shape := ⟨1, ![128]⟩
abbrev S128x128 : Shape := ⟨2, ![128, 128]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩
abbrev S5000x64 : Shape := ⟨2, ![5000, 64]⟩
abbrev S5000x16 : Shape := ⟨2, ![5000, 16]⟩
abbrev S5000x1 : Shape := ⟨2, ![5000, 1]⟩
abbrev S5000x128 : Shape := ⟨2, ![5000, 128]⟩
abbrev S5000x32 : Shape := ⟨2, ![5000, 32]⟩
abbrev S5000 : Shape := ⟨1, ![5000]⟩
abbrev S5000x3 : Shape := ⟨2, ![5000, 3]⟩
abbrev S5000x5 : Shape := ⟨2, ![5000, 5]⟩
abbrev S5000x7 : Shape := ⟨2, ![5000, 7]⟩
abbrev S20000x16 : Shape := ⟨2, ![20000, 16]⟩

abbrev nBuf : Space → Nat
  | .hbm => 54
  | .vmem => 22
  | .smem => 0
  | _ => 0

abbrev bufTy : (tb : Table) → Fin (tcTables nBuf tb) → BufTy
  | .hbm, ⟨0, _⟩ => ⟨S640000x16, .f32⟩
  | .hbm, ⟨1, _⟩ => ⟨S20000x128, .f32⟩
  | .hbm, ⟨2, _⟩ => ⟨S640000x64, .f32⟩
  | .hbm, ⟨3, _⟩ => ⟨S640000x64, .f32⟩
  | .hbm, ⟨4, _⟩ => ⟨S640000, .f32⟩
  | .hbm, ⟨5, _⟩ => ⟨S640000, .i32⟩
  | .hbm, ⟨6, _⟩ => ⟨S640000, .i32⟩
  | .hbm, ⟨7, _⟩ => ⟨S64x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S64x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128x128, .f32⟩
  | .hbm, ⟨17, _⟩ => ⟨S20000x128, .f32⟩
  | .hbm, ⟨18, _⟩ => ⟨S20000x128, .f32⟩
  | .hbm, ⟨19, _⟩ => ⟨S_, .i32⟩
  | .hbm, ⟨20, _⟩ => ⟨S640000, .i32⟩
  | .hbm, ⟨21, _⟩ => ⟨S640000, .i1⟩
  | .hbm, ⟨22, _⟩ => ⟨S_, .i32⟩
  | .hbm, ⟨23, _⟩ => ⟨S640000, .i32⟩
  | .hbm, ⟨24, _⟩ => ⟨S640000, .i32⟩
  | .hbm, ⟨25, _⟩ => ⟨S640000, .i32⟩
  | .hbm, ⟨26, _⟩ => ⟨S640000x1, .i32⟩
  | .hbm, ⟨27, _⟩ => ⟨S640000x128, .f32⟩
  | .hbm, ⟨28, _⟩ => ⟨S_, .i32⟩
  | .hbm, ⟨29, _⟩ => ⟨S640000, .i32⟩
  | .hbm, ⟨30, _⟩ => ⟨S640000, .i1⟩
  | .hbm, ⟨31, _⟩ => ⟨S_, .i32⟩
  | .hbm, ⟨32, _⟩ => ⟨S640000, .i32⟩
  | .hbm, ⟨33, _⟩ => ⟨S640000, .i32⟩
  | .hbm, ⟨34, _⟩ => ⟨S640000, .i32⟩
  | .hbm, ⟨35, _⟩ => ⟨S640000x1, .i32⟩
  | .hbm, ⟨36, _⟩ => ⟨S640000x128, .f32⟩
  | .hbm, ⟨37, _⟩ => ⟨S640000x1, .f32⟩
  | .hbm, ⟨38, _⟩ => ⟨S64x128, .bf16⟩
  | .hbm, ⟨39, _⟩ => ⟨S128x128, .bf16⟩
  | .hbm, ⟨40, _⟩ => ⟨S64x128, .bf16⟩
  | .hbm, ⟨41, _⟩ => ⟨S128x128, .bf16⟩
  | .hbm, ⟨42, _⟩ => ⟨S1x128, .f32⟩
  | .hbm, ⟨43, _⟩ => ⟨S1x128, .f32⟩
  | .hbm, ⟨44, _⟩ => ⟨S1x128, .f32⟩
  | .hbm, ⟨45, _⟩ => ⟨S1x128, .f32⟩
  | .hbm, ⟨46, _⟩ => ⟨S640000x16, .f32⟩
  | .hbm, ⟨47, _⟩ => ⟨S_, .f32⟩
  | .hbm, ⟨48, _⟩ => ⟨S20000x16, .f32⟩
  | .hbm, ⟨49, _⟩ => ⟨S640000x1, .i32⟩
  | .hbm, ⟨50, _⟩ => ⟨S20000x16, .f32⟩
  | .hbm, ⟨51, _⟩ => ⟨S_, .f32⟩
  | .hbm, ⟨52, _⟩ => ⟨S20000x16, .f32⟩
  | .hbm, ⟨53, _⟩ => ⟨S20000x16, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x16, .f32⟩
  | .local _ .vmem, ⟨5, _⟩ => ⟨S5000x16, .f32⟩
  | .local _ .vmem, ⟨6, _⟩ => ⟨S5000x1, .f32⟩
  | .local _ .vmem, ⟨7, _⟩ => ⟨S5000x1, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S64x128, .bf16⟩
  | .local _ .vmem, ⟨13, _⟩ => ⟨S1x128, .f32⟩
  | .local _ .vmem, ⟨14, _⟩ => ⟨S128x128, .bf16⟩
  | .local _ .vmem, ⟨15, _⟩ => ⟨S1x128, .f32⟩
  | .local _ .vmem, ⟨16, _⟩ => ⟨S64x128, .bf16⟩
  | .local _ .vmem, ⟨17, _⟩ => ⟨S1x128, .f32⟩
  | .local _ .vmem, ⟨18, _⟩ => ⟨S128x128, .bf16⟩
  | .local _ .vmem, ⟨19, _⟩ => ⟨S1x128, .f32⟩
  | .local _ .vmem, ⟨20, _⟩ => ⟨S5000x16, .f32⟩
  | .local _ .vmem, ⟨21, _⟩ => ⟨S5000x16, .f32⟩
  | _, _ => ⟨S640000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_c_1 : Ref sig .tc := ⟨.hbm, 28, rfl⟩
abbrev main_v9 : Ref sig .tc := ⟨.hbm, 29, rfl⟩
abbrev main_v10 : Ref sig .tc := ⟨.hbm, 30, rfl⟩
abbrev main_c_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_3 : Ref sig .tc := ⟨.hbm, 51, rfl⟩
abbrev main_v29 : Ref sig .tc := ⟨.hbm, 52, rfl⟩
abbrev main_v30 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S64x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S5000x16 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bitsLt_bf16_f32 : FTy.bits .bf16 < FTy.bits .f32
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  slices_S5000x128_o0_0_S5000x32 : S5000x128.Slices ![0, 0] S5000x32
  reduces_S5000x32_S5000 : S5000x32.Reduces [1] S5000
  shapeCasts_S5000_S5000x1 : S5000.ShapeCasts S5000x1
  slices_S5000x128_o0_32_S5000x32 : S5000x128.Slices ![0, 32] S5000x32
  broadcasts_S5000x1_S5000x3 : S5000x1.Broadcasts S5000x3
  slices_S5000x128_o0_64_S5000x32 : S5000x128.Slices ![0, 64] S5000x32
  broadcasts_S5000x1_S5000x5 : S5000x1.Broadcasts S5000x5
  slices_S5000x128_o0_96_S5000x32 : S5000x128.Slices ![0, 96] S5000x32
  broadcasts_S5000x1_S5000x7 : S5000x1.Broadcasts S5000x7
  concatenates_S5000x1_S5000x3_S5000x5_S5000x7_S5000x16_d1 : Shape.Concatenates [S5000x1, S5000x3, S5000x5, S5000x7] S5000x16 1
  inb_S5000x16_S5000x16_0_0 : ∀ a, (![0, 0] : Fin 2 → Nat) a + S5000x16.size a ≤ S5000x16.size a
  h_S5000x16 : 0 < S5000x16.numel
  bcast_S_S20000x16 : S_.BroadcastsInDim S20000x16 (![] : Fin 0 → Fin S20000x16.rank)
  dot_S20000x128_S128x128_S20000x128_1_0_0_1_n_n_wf : DotDims.WF S20000x128 S128x128 S20000x128 [1] [0] [0] [1] [] []
  gather_S20000x128_S640000x1_S640000x128_1_0_n_n_0_1_1128_wf : GatherDims.WF S20000x128 S640000x1 S640000x128 [1] [0] [] [0] [] 1 ![1, 128]
  dot_S5000x64_S64x128_S5000x128_1_0_0_1_n_n_wf : DotDims.WF S5000x64 S64x128 S5000x128 [1] [0] [0] [1] [] []
  dot_S5000x128_S128x128_S5000x128_1_0_0_1_n_n_wf : DotDims.WF S5000x128 S128x128 S5000x128 [1] [0] [0] [1] [] []
  scatter_S20000x16_S640000x1_S640000x16_1_0_0_1_wf : ScatterDims.WF S20000x16 S640000x1 S640000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S640000x64.size a
  hwx0_0 : ∀ i : grid0.Coords, EltTy.bits .f32 = 32 ∨ (Rect.block (s := S640000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S640000x64.size a
  hwx0_1 : ∀ i : grid0.Coords, EltTy.bits .f32 = 32 ∨ (Rect.block (s := S640000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S640000x16.size a
  hwx0_2 : ∀ i : grid0.Coords, EltTy.bits .f32 = 32 ∨ (Rect.block (s := S640000x16) S5000x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S640000x1.size a
  hwx0_3 : ∀ i : grid0.Coords, EltTy.bits .f32 = 32 ∨ (Rect.block (s := S640000x1) S5000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S640000x128.size a
  hwx0_4 : ∀ i : grid0.Coords, EltTy.bits .f32 = 32 ∨ (Rect.block (s := S640000x128) S5000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S640000x128.size a
  hwx0_5 : ∀ i : grid0.Coords, EltTy.bits .f32 = 32 ∨ (Rect.block (s := S640000x128) S5000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x128.size a ≤ S64x128.size a
  hwx0_6 : ∀ i : grid0.Coords, EltTy.bits .bf16 = 32 ∨ (Rect.block (s := S64x128) S64x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .bf16 = 32 ∨ (Rect.block (s := S128x128) S128x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x128.size a ≤ S64x128.size a
  hwx0_10 : ∀ i : grid0.Coords, EltTy.bits .bf16 = 32 ∨ (Rect.block (s := S64x128) S64x128.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x128.size a ≤ S128x128.size a
  hwx0_12 : ∀ i : grid0.Coords, EltTy.bits .bf16 = 32 ∨ (Rect.block (s := S128x128) S128x128.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S5000x16.size a ≤ S640000x16.size a
  hwx0_14 : ∀ i : grid0.Coords, EltTy.bits .f32 = 32 ∨ (Rect.block (s := S640000x16) S5000x16.size (cc0_transform_14 i) (hinb0_14 i)).WholeWords (EltTy.packing .f32)

variable [Facts₀]

def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S20000x16_S640000x1_S640000x16_1_0_0_1 : ScatterDims S20000x16 S640000x1 S640000x16 where
  updateWindowDims := [1]
  insertedWindowDims := [0]
  scatterDimsToOperandDims := [0]
  indexVectorDim := 1
  wf := scatter_S20000x16_S640000x1_S640000x16_1_0_0_1_wf

abbrev win0_0 : Pipeline.Window sig grid0 :=
  Pipeline.Window.ofSpec (Memref.whole main_arg2) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S5000x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v15) S5000x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v17) S64x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v22) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v19) S64x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v23) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v20) S128x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v24) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v25) S5000x16.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S640000x16 : Shape := ⟨2, ![640000, 16]⟩
abbrev S20000x128 : Shape := ⟨2, ![20000, 128]⟩
abbrev S640000x64 : Shape := ⟨2, ![640000, 64]⟩
abbrev S640000 : Shape := ⟨1, ![640000]⟩
abbrev S64x128 : Shape := ⟨2, ![64, 128]⟩
abbrev S128 : Shape := ⟨1, ![128]⟩
abbrev S128x128 : Shape := ⟨2, ![128, 128]⟩
abbrev S4 : Shape := ⟨1, ![4]⟩
abbrev S640000x128 : Shape := ⟨2, ![640000, 128]⟩
abbrev S1x128 : Shape := ⟨2, ![1, 128]⟩
abbrev S_ : Shape := ⟨0, ![]⟩
abbrev S640000x4x32 : Shape := ⟨3, ![640000, 4, 32]⟩
abbrev S20000x4x32 : Shape := ⟨3, ![20000, 4, 32]⟩
abbrev S640000x1 : Shape := ⟨2, ![640000, 1]⟩
abbrev S640000x4 : Shape := ⟨2, ![640000, 4]⟩
abbrev S1 : Shape := ⟨1, ![1]⟩
abbrev S3 : Shape := ⟨1, ![3]⟩
abbrev S16 : Shape := ⟨1, ![16]⟩
abbrev S4x1 : Shape := ⟨2, ![4, 1]⟩
abbrev S16x1 : Shape := ⟨2, ![16, 1]⟩
abbrev S1x1 : Shape := ⟨2, ![1, 1]⟩
abbrev S20000x16 : Shape := ⟨2, ![20000, 16]⟩

abbrev nBuf : Space → Nat
  | .hbm => 146
  | .vmem => 0
  | .smem => 0
  | _ => 0

abbrev hbmTy0_0 (i : Nat) : BufTy := match i % 128 with
  | 0 => ⟨S640000x16, .f32⟩
  | 1 => ⟨S20000x128, .f32⟩
  | 2 => ⟨S640000x64, .f32⟩
  | 3 => ⟨S640000x64, .f32⟩
  | 4 => ⟨S640000, .f32⟩
  | 5 => ⟨S640000, .i32⟩
  | 6 => ⟨S640000, .i32⟩
  | 7 => ⟨S64x128, .f32⟩
  | 8 => ⟨S128, .f32⟩
  | 9 => ⟨S128x128, .f32⟩
  | 10 => ⟨S128, .f32⟩
  | 11 => ⟨S64x128, .f32⟩
  | 12 => ⟨S128, .f32⟩
  | 13 => ⟨S128x128, .f32⟩
  | 14 => ⟨S128, .f32⟩
  | 15 => ⟨S128x128, .f32⟩
  | 16 => ⟨S128x128, .f32⟩
  | 17 => ⟨S4, .i32⟩
  | 18 => ⟨S640000x128, .f32⟩
  | 19 => ⟨S1x128, .f32⟩
  | 20 => ⟨S640000x128, .f32⟩
  | 21 => ⟨S640000x128, .f32⟩
  | 22 => ⟨S640000x128, .f32⟩
  | 23 => ⟨S640000x128, .f32⟩
  | 24 => ⟨S_, .f32⟩
  | 25 => ⟨S640000x128, .f32⟩
  | 26 => ⟨S640000x128, .f32⟩
  | 27 => ⟨S_, .f32⟩
  | 28 => ⟨S640000x128, .f32⟩
  | 29 => ⟨S640000x128, .f32⟩
  | 30 => ⟨S640000x128, .f32⟩
  | 31 => ⟨S640000x128, .f32⟩
  | 32 => ⟨S1x128, .f32⟩
  | 33 => ⟨S640000x128, .f32⟩
  | 34 => ⟨S640000x128, .f32⟩
  | 35 => ⟨S640000x128, .f32⟩
  | 36 => ⟨S1x128, .f32⟩
  | 37 => ⟨S640000x128, .f32⟩
  | 38 => ⟨S640000x128, .f32⟩
  | 39 => ⟨S640000x128, .f32⟩
  | 40 => ⟨S640000x128, .f32⟩
  | 41 => ⟨S_, .f32⟩
  | 42 => ⟨S640000x128, .f32⟩
  | 43 => ⟨S640000x128, .f32⟩
  | 44 => ⟨S_, .f32⟩
  | 45 => ⟨S640000x128, .f32⟩
  | 46 => ⟨S640000x128, .f32⟩
  | 47 => ⟨S640000x128, .f32⟩
  | 48 => ⟨S640000x128, .f32⟩
  | 49 => ⟨S1x128, .f32⟩
  | 50 => ⟨S640000x128, .f32⟩
  | 51 => ⟨S640000x128, .f32⟩
  | 52 => ⟨S640000x128, .f32⟩
  | 53 => ⟨S640000x4x32, .f32⟩
  | 54 => ⟨S20000x128, .f32⟩
  | 55 => ⟨S20000x4x32, .f32⟩
  | 56 => ⟨S_, .i32⟩
  | 57 => ⟨S640000, .i32⟩
  | 58 => ⟨S640000, .i1⟩
  | 59 => ⟨S_, .i32⟩
  | 60 => ⟨S640000, .i32⟩
  | 61 => ⟨S640000, .i32⟩
  | 62 => ⟨S640000, .i32⟩
  | 63 => ⟨S640000x1, .i32⟩
  | 64 => ⟨S640000x4x32, .f32⟩
  | 65 => ⟨S20000x128, .f32⟩
  | 66 => ⟨S20000x4x32, .f32⟩
  | 67 => ⟨S_, .i32⟩
  | 68 => ⟨S640000, .i32⟩
  | 69 => ⟨S640000, .i1⟩
  | 70 => ⟨S_, .i32⟩
  | 71 => ⟨S640000, .i32⟩
  | 72 => ⟨S640000, .i32⟩
  | 73 => ⟨S640000, .i32⟩
  | 74 => ⟨S640000x1, .i32⟩
  | 75 => ⟨S640000x4x32, .f32⟩
  | 76 => ⟨S640000x4x32, .f32⟩
  | 77 => ⟨S640000x4x32, .f32⟩
  | 78 => ⟨S_, .f32⟩
  | 79 => ⟨S640000x4, .f32⟩
  | 80 => ⟨S_, .f32⟩
  | 81 => ⟨S640000x4, .f32⟩
  | 82 => ⟨S640000x4, .f32⟩
  | 83 => ⟨S640000x1, .f32⟩
  | 84 => ⟨S640000x4, .f32⟩
  | 85 => ⟨S640000x4, .f32⟩
  | 86 => ⟨S1, .i32⟩
  | 87 => ⟨S3, .i32⟩
  | 88 => ⟨S4, .i32⟩
  | 89 => ⟨S_, .i32⟩
  | 90 => ⟨S1, .i32⟩
  | 91 => ⟨S_, .i32⟩
  | 92 => ⟨S4, .i32⟩
  | 93 => ⟨S_, .i32⟩
  | 94 => ⟨S_, .i32⟩
  | 95 => ⟨S4, .i32⟩
  | 96 => ⟨S_, .i32⟩
  | 97 => ⟨S16, .i32⟩
  | 98 => ⟨S_, .i32⟩
  | 99 => ⟨S4, .i32⟩
  | 100 => ⟨S4, .i1⟩
  | 101 => ⟨S_, .i32⟩
  | 102 => ⟨S4, .i32⟩
  | 103 => ⟨S4, .i32⟩
  | 104 => ⟨S4, .i32⟩
  | 105 => ⟨S4x1, .i32⟩
  | 106 => ⟨S_, .i32⟩
  | 107 => ⟨S4, .i32⟩
  | 108 => ⟨S16, .i32⟩
  | 109 => ⟨S_, .i32⟩
  | 110 => ⟨S_, .i32⟩
  | 111 => ⟨S16, .i32⟩
  | 112 => ⟨S_, .i32⟩
  | 113 => ⟨S16, .i32⟩
  | 114 => ⟨S16, .i32⟩
  | 115 => ⟨S_, .i32⟩
  | 116 => ⟨S16, .i32⟩
  | 117 => ⟨S16, .i1⟩
  | 118 => ⟨S_, .i32⟩
  | 119 => ⟨S16, .i32⟩
  | 120 => ⟨S16, .i32⟩
  | 121 => ⟨S16, .i32⟩
  | 122 => ⟨S16x1, .i32⟩
  | 123 => ⟨S1, .i32⟩
  | 124 => ⟨S_, .i32⟩
  | 125 => ⟨S16x1, .i32⟩
  | 126 => ⟨S16x1, .i1⟩
  | 127 => ⟨S1x1, .i32⟩
  | _ => ⟨S640000x16, .f32⟩

abbrev hbmTy0_1 (i : Nat) : BufTy := match i % 128 with
  | 0 => ⟨S16x1, .i32⟩
  | 1 => ⟨S16x1, .i1⟩
  | 2 => ⟨S16x1, .i1⟩
  | 3 => ⟨S_, .i1⟩
  | 4 => ⟨S16, .i1⟩
  | 5 => ⟨S640000x16, .f32⟩
  | 6 => ⟨S640000x16, .i1⟩
  | 7 => ⟨S_, .f32⟩
  | 8 => ⟨S640000x16, .f32⟩
  | 9 => ⟨S640000x16, .f32⟩
  | 10 => ⟨S640000x16, .f32⟩
  | 11 => ⟨S_, .f32⟩
  | 12 => ⟨S20000x16, .f32⟩
  | 13 => ⟨S640000x1, .i32⟩
  | 14 => ⟨S20000x16, .f32⟩
  | 15 => ⟨S_, .f32⟩
  | 16 => ⟨S20000x16, .f32⟩
  | 17 => ⟨S20000x16, .f32⟩
  | _ => ⟨S640000x16, .f32⟩

abbrev hbmTy (i : Nat) : BufTy := match i / 128 with
  | 0 => hbmTy0_0 i
  | 1 => hbmTy0_1 i
  | _ => ⟨S640000x16, .f32⟩

abbrev bufTy : (tb : Table) → Fin (tcTables nBuf tb) → BufTy
  | .hbm, ⟨i, _⟩ => hbmTy i
  | _, _ => ⟨S640000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_call1_v0 : Ref sig .tc := ⟨.hbm, 39, rfl⟩
abbrev main_call1_v1 : Ref sig .tc := ⟨.hbm, 40, rfl⟩
abbrev main_call1_cst : Ref sig .tc := ⟨.hbm, 41, rfl⟩
abbrev main_call1_v2 : Ref sig .tc := ⟨.hbm, 42, rfl⟩
abbrev main_call1_v3 : Ref sig .tc := ⟨.hbm, 43, rfl⟩
abbrev main_call1_cst_0 : Ref sig .tc := ⟨.hbm, 44, rfl⟩
abbrev main_call1_v4 : Ref sig .tc := ⟨.hbm, 45, rfl⟩
abbrev main_call1_v5 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_c_0 : Ref sig .tc := ⟨.hbm, 56, rfl⟩
abbrev main_v22 : Ref sig .tc := ⟨.hbm, 57, rfl⟩
abbrev main_v23 : Ref sig .tc := ⟨.hbm, 58, rfl⟩
abbrev main_c_1 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_c_2 : Ref sig .tc := ⟨.hbm, 67, rfl⟩
abbrev main_v31 : Ref sig .tc := ⟨.hbm, 68, rfl⟩
abbrev main_v32 : Ref sig .tc := ⟨.hbm, 69, rfl⟩
abbrev main_c_3 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_cst : Ref sig .tc := ⟨.hbm, 78, rfl⟩
abbrev main_v40 : Ref sig .tc := ⟨.hbm, 79, rfl⟩
abbrev main_cst_4 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_call2_v0 : Ref sig .tc := ⟨.hbm, 86, rfl⟩
abbrev main_call2_v1 : Ref sig .tc := ⟨.hbm, 87, rfl⟩
abbrev main_v46 : Ref sig .tc := ⟨.hbm, 88, rfl⟩
abbrev main_c_5 : Ref sig .tc := ⟨.hbm, 89, rfl⟩
abbrev main_v47 : Ref sig .tc := ⟨.hbm, 90, rfl⟩
abbrev main_c_6 : Ref sig .tc := ⟨.hbm, 91, rfl⟩
abbrev main_v48 : Ref sig .tc := ⟨.hbm, 92, rfl⟩
abbrev main_call3_call0_c : Ref sig .tc := ⟨.hbm, 93, rfl⟩
abbrev main_call3_call0_v0 : Ref sig .tc := ⟨.hbm, 94, rfl⟩
abbrev main_v49 : Ref sig .tc := ⟨.hbm, 95, rfl⟩
abbrev main_c_7 : Ref sig .tc := ⟨.hbm, 96, rfl⟩
abbrev main_v50 : Ref sig .tc := ⟨.hbm, 97, rfl⟩
abbrev main_c_8 : Ref sig .tc := ⟨.hbm, 98, rfl⟩
abbrev main_v51 : Ref sig .tc := ⟨.hbm, 99, rfl⟩
abbrev main_v52 : Ref sig .tc := ⟨.hbm, 100, rfl⟩
abbrev main_c_9 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_c_10 : Ref sig .tc := ⟨.hbm, 106, rfl⟩
abbrev main_v57 : Ref sig .tc := ⟨.hbm, 107, rfl⟩
abbrev main_v58 : Ref sig .tc := ⟨.hbm, 108, rfl⟩
abbrev main_call4_call0_c : Ref sig .tc := ⟨.hbm, 109, rfl⟩
abbrev main_call4_call0_v0 : Ref sig .tc := ⟨.hbm, 110, rfl⟩
abbrev main_v59 : Ref sig .tc := ⟨.hbm, 111, rfl⟩
abbrev main_c_11 : Ref sig .tc := ⟨.hbm, 112, rfl⟩
abbrev main_v60 : Ref sig .tc := ⟨.hbm, 113, rfl⟩
abbrev main_v61 : Ref sig .tc := ⟨.hbm, 114, rfl⟩
abbrev main_call5_c : Ref sig .tc := ⟨.hbm, 115, rfl⟩
abbrev main_call5_v0 : Ref sig .tc := ⟨.hbm, 116, rfl⟩
abbrev main_call5_v1 : Ref sig .tc := ⟨.hbm, 117, rfl⟩
abbrev main_call5_c_0 : Ref sig .tc := ⟨.hbm, 118, rfl⟩
abbrev main_call5_v2 : Ref sig .tc := ⟨.hbm, 119, rfl⟩
abbrev main_call5_v3 : Ref sig .tc := ⟨.hbm, 120, rfl⟩
abbrev main_call5_v4 : Ref sig .tc := ⟨.hbm, 121, rfl⟩
abbrev main_call5_v5 : Ref sig .tc := ⟨.hbm, 122, rfl⟩
abbrev main_call5_c_1 : Ref sig .tc := ⟨.hbm, 123, rfl⟩
abbrev main_call5_c_2 : Ref sig .tc := ⟨.hbm, 124, rfl⟩
abbrev main_call5_v6 : Ref sig .tc := ⟨.hbm, 125, rfl⟩
abbrev main_call5_v7 : Ref sig .tc := ⟨.hbm, 126, rfl⟩
abbrev main_call5_v8 : Ref sig .tc := ⟨.hbm, 127, rfl⟩
abbrev main_call5_v9 : Ref sig .tc := ⟨.hbm, 128, rfl⟩
abbrev main_call5_v10 : Ref sig .tc := ⟨.hbm, 129, rfl⟩
abbrev main_call5_v11 : Ref sig .tc := ⟨.hbm, 130, rfl⟩
abbrev main_call5_c_3 : Ref sig .tc := ⟨.hbm, 131, rfl⟩
abbrev main_call5_v12 : Ref sig .tc := ⟨.hbm, 132, rfl⟩
abbrev main_call5_v13 : Ref sig .tc := ⟨.hbm, 133, rfl⟩
abbrev main_call5_v14 : Ref sig .tc := ⟨.hbm, 134, rfl⟩
abbrev main_call5_cst : Ref sig .tc := ⟨.hbm, 135, rfl⟩
abbrev main_call5_v15 : Ref sig .tc := ⟨.hbm, 136, rfl⟩
abbrev main_v62 : Ref sig .tc := ⟨.hbm, 137, rfl⟩
abbrev main_v63 : Ref sig .tc := ⟨.hbm, 138, rfl⟩
abbrev main_cst_12 : Ref sig .tc := ⟨.hbm, 139, rfl⟩
abbrev main_v64 : Ref sig .tc := ⟨.hbm, 140, rfl⟩
abbrev main_v65 : Ref sig .tc := ⟨.hbm, 141, rfl⟩
abbrev main_v66 : Ref sig .tc := ⟨.hbm, 142, rfl⟩
abbrev main_cst_13 : Ref sig .tc := ⟨.hbm, 143, rfl⟩
abbrev main_v67 : Ref sig .tc := ⟨.hbm, 144, rfl⟩
abbrev main_v68 : Ref sig .tc := ⟨.hbm, 145, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  shapeCasts_S640000x128_S640000x4x32 : S640000x128.ShapeCasts S640000x4x32
  shapeCasts_S20000x128_S20000x4x32 : S20000x128.ShapeCasts S20000x4x32
  bcast_S_S640000 : S_.BroadcastsInDim S640000 (![] : Fin 0 → Fin S640000.rank)
  bcast_S640000_S640000x1_0 : S640000.BroadcastsInDim S640000x1 (![0] : Fin 1 → Fin S640000x1.rank)
  reducesTo_S640000x4x32_S640000x4_d2 : S640000x4x32.ReducesTo [2] S640000x4
  h_S_ : 0 < S_.numel
  bcast_S_S640000x4 : S_.BroadcastsInDim S640000x4 (![] : Fin 0 → Fin S640000x4.rank)
  bcast_S640000x1_S640000x4_0_1 : S640000x1.BroadcastsInDim S640000x4 (![0, 1] : Fin 2 → Fin S640000x4.rank)
  slices_S4_S1_3 : S4.Slices ![3] S1
  slices_S4_S3_0 : S4.Slices ![0] S3
  concatenates_S1_S3_S4_d0 : Shape.Concatenates [S1, S3] S4 0
  bcast_S_S1 : S_.BroadcastsInDim S1 (![] : Fin 0 → Fin S1.rank)
  bcast_S_S_ : S_.BroadcastsInDim S_ (![] : Fin 0 → Fin S_.rank)
  reduceWindows_S4_S4_w4s1p3_0 : S4.ReduceWindows (![4] : Fin 1 → Nat) ![1] ![3] ![0] S4
  bcast_S_S16 : S_.BroadcastsInDim S16 (![] : Fin 0 → Fin S16.rank)
  bcast_S_S4 : S_.BroadcastsInDim S4 (![] : Fin 0 → Fin S4.rank)
  bcast_S4_S4x1_0 : S4.BroadcastsInDim S4x1 (![0] : Fin 1 → Fin S4x1.rank)
  reduceWindows_S16_S16_w16s1p15_0 : S16.ReduceWindows (![16] : Fin 1 → Nat) ![1] ![15] ![0] S16
  bcast_S16_S16x1_0 : S16.BroadcastsInDim S16x1 (![0] : Fin 1 → Fin S16x1.rank)
  bcast_S_S16x1 : S_.BroadcastsInDim S16x1 (![] : Fin 0 → Fin S16x1.rank)
  bcast_S1_S1x1_1 : S1.BroadcastsInDim S1x1 (![1] : Fin 1 → Fin S1x1.rank)
  bcast_S1x1_S16x1_0_1 : S1x1.BroadcastsInDim S16x1 (![0, 1] : Fin 2 → Fin S16x1.rank)
  reducesTo_S16x1_S16_d1 : S16x1.ReducesTo [1] S16
  bcast_S16_S640000x16_1 : S16.BroadcastsInDim S640000x16 (![1] : Fin 1 → Fin S640000x16.rank)
  bcast_S_S640000x16 : S_.BroadcastsInDim S640000x16 (![] : Fin 0 → Fin S640000x16.rank)
  bcast_S_S20000x16 : S_.BroadcastsInDim S20000x16 (![] : Fin 0 → Fin S20000x16.rank)
  dot_S640000x64_S64x128_S640000x128_1_0_0_1_n_n_wf : DotDims.WF S640000x64 S64x128 S640000x128 [1] [0] [0] [1] [] []
  dot_S640000x128_S128x128_S640000x128_1_0_0_1_n_n_wf : DotDims.WF S640000x128 S128x128 S640000x128 [1] [0] [0] [1] [] []
  dot_S20000x128_S128x128_S20000x128_1_0_0_1_n_n_wf : DotDims.WF S20000x128 S128x128 S20000x128 [1] [0] [0] [1] [] []
  gather_S20000x4x32_S640000x1_S640000x4x32_12_0_n_n_0_1_1432_wf : GatherDims.WF S20000x4x32 S640000x1 S640000x4x32 [1, 2] [0] [] [0] [] 1 ![1, 4, 32]
  scatter_S4_S1_S__n_0_0_0_wf : ScatterDims.WF S4 S1 S_ [] [0] [0] 0
  scatter_S16_S4x1_S4_n_0_0_1_wf : ScatterDims.WF S16 S4x1 S4 [] [0] [0] 1
  gather_S640000x4_S16x1_S640000x16_0_1_n_n_1_1_6400001_wf : GatherDims.WF S640000x4 S16x1 S640000x16 [0] [1] [] [1] [] 1 ![640000, 1]
  scatter_S20000x16_S640000x1_S640000x16_1_0_0_1_wf : ScatterDims.WF S20000x16 S640000x1 S640000x16 [1] [0] [0] 1

variable [Facts₀]

def dot_S640000x64_S64x128_S640000x128_1_0_0_1_n_n : DotDims S640000x64 S64x128 S640000x128 where
  lhsContracting := [1]
  rhsContracting := [0]
  lhsNonContracting := [0]
  rhsNonContracting := [1]
  lhsBatch := []
  rhsBatch := []
  wf := dot_S640000x64_S64x128_S640000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def gather_S20000x4x32_S640000x1_S640000x4x32_12_0_n_n_0_1_1432 : GatherDims S20000x4x32 S640000x1 S640000x4x32 where
  offsetDims := [1, 2]
  collapsedSliceDims := [0]
  operandBatchingDims := []
  startIndicesBatchingDims := []
  startIndexMap := [0]
  indexVectorDim := 1
  sliceSizes := ![1, 4, 32]
  wf := gather_S20000x4x32_S640000x1_S640000x4x32_12_0_n_n_0_1_1432_wf
def scatter_S4_S1_S__n_0_0_0 : ScatterDims S4 S1 S_ where
  updateWindowDims := []
  insertedWindowDims := [0]
  scatterDimsToOperandDims := [0]
  indexVectorDim := 0
  wf := scatter_S4_S1_S__n_0_0_0_wf
def scatter_S16_S4x1_S4_n_0_0_1 : ScatterDims S16 S4x1 S4 where
  updateWindowDims := []
  insertedWindowDims := [0]
  scatterDimsToOperandDims := [0]
  indexVectorDim := 1
  wf := scatter_S16_S4x1_S4_n_0_0_1_wf
def gather_S640000x4_S16x1_S640000x16_0_1_n_n_1_1_6400001 : GatherDims S640000x4 S16x1 S640000x16 where
  offsetDims := [0]
  collapsedSliceDims := [1]
  operandBatchingDims := []
  startIndicesBatchingDims := []
  startIndexMap := [1]
  indexVectorDim := 1
  sliceSizes := ![640000, 1]
  wf := gather_S640000x4_S16x1_S640000x16_0_1_n_n_1_1_6400001_wf
def scatter_S20000x16_S640000x1_S640000x16_1_0_0_1 : ScatterDims S20000x16 S640000x1 S640000x16 where
  updateWindowDims := [1]
  insertedWindowDims := [0]
  scatterDimsToOperandDims := [0]
  indexVectorDim := 1
  wf := scatter_S20000x16_S640000x1_S640000x16_1_0_0_1_wf

class Facts : Prop extends Facts₀ where

variable [Facts]
-- ==== Proof.KerRun.lean ====
/-
  The kernel program run, with its result named: after the region the output array holds what the 128 grid points
  wrote back, and the host lines after the region sum that array into the receiving nodes (rows added at the node the
  edge's index names) and divide by 32. The argument arrays are written by nothing.
-/
import proofs.«169250_j73469710566102_1_alg».proof.Proof.Gen.KernelIdeal.Frame
import Idealize.ShloMosaic.Lib.StableHlo.Run

noncomputable section

namespace Cert.KernelIdeal.EdgeValue

open Idealize.ShloMosaic Idealize.ShloMosaic.TcCoe Idealize.SL.Sem Cert.KernelIdeal Cert.KernelIdeal.Gen

variable {F : FTy → Type} [FloatOps F]

/-- A message array summed into the receiving nodes and divided by 32. -/
abbrev tailK (msg : FVec F S640000x16 .f32) (rcv : IVec S640000 32) : FVec F S20000x16 .f32 :=
  Host.divf
    (Host.scatterAdd scatter_S20000x16_S640000x1_S640000x16_1_0_0_1
      (broadcastInDim S20000x16 ![] bcast_S_S20000x16 (constant S_ .f32 0x00000000#32))
      (broadcastInDim S640000x1 ![0] bcast_S640000_S640000x1_0 rcv) msg)
    (broadcastInDim S20000x16 ![] bcast_S_S20000x16 (constant S_ .f32 0x42000000#32))

variable (m : (ℓ : Loc nD τ sig) → Buf (Elt F) ℓ) (ρ : Dev nD → PrngReg)

/-- The result buffer after the host lines that follow the region. -/
theorem tail_eq (c : Dev nD) :
    Pipeline.afterTail₀ cfgs (dats m) 0 (V0 m) [hostOps1] c main_v30
      = tailK ((dats m 0 c).arrAt 14 cfg0.N) (m ((c.tc : Thread nD τ).loc main_arg6)) := by
  unfold Pipeline.afterTail₀
  show StableHlo.after hostOps1 _ (Proc.devRef .tc main_v30) = _
  after_results
  have h25 : Pipeline.withArrays (cfgs 0).spec c (V0 m c) (fun w => (dats m 0 c).arrAt w (cfgs 0).N) (Proc.devRef .tc main_v25)
      = (dats m 0 c).arrAt 14 cfg0.N := Pipeline.withArrays_arr spec0 launch0.win.arr_inj c _ _ 14
  have h6 : Pipeline.withArrays (cfgs 0).spec c (V0 m c) (fun w => (dats m 0 c).arrAt w (cfgs 0).N) (Proc.devRef .tc main_arg6)
      = m ((c.tc : Thread nD τ).loc main_arg6) :=
    (Pipeline.withArrays_of_ne _ c (V0 m c) _ main_arg6 (by exact (by decide : ∀ w, Pipeline.arrRef spec0 w ≠ main_arg6))).trans
      (V_main_arg6 m c)
  rw [h25, h6]

set_option maxHeartbeats 1020000 in
/-- Every weakly fair execution of the kernel program terminates with the result at the output array summed into the
    receiving nodes and divided by 32, and the arguments unchanged. -/
theorem run : θ_run defs (onTc (τ := τ) (main (F := F))) ⟨m, fun _ => 0, ρ⟩ (fun r => ∀ c : Dev nD,
      r.2.mem ((c.tc : Thread nD τ).loc main_v30)
        = tailK ((dats m 0 c).arrAt 14 cfg0.N) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨
      ((h c).2 main_v30 (Pipeline.mem_restRefs_of main_v30 (by decide) (by decide))).trans (tail_eq m c),
      ((h c).1 2).trans ((((dats m) 0 c).arrAt_in 2 rfl _).trans ((A_eq m c 2).trans (V_main_arg0 m c))),
      (((h c).2 main_arg1 (Pipeline.mem_restRefs_of main_arg1 (by decide) (by decide))).trans (W_main_arg1 m (dats m) c)),
      ((h c).1 0).trans ((((dats m) 0 c).arrAt_in 0 rfl _).trans ((A_eq m c 0).trans (V_main_arg2 m c))),
      ((h c).1 1).trans ((((dats m) 0 c).arrAt_in 1 rfl _).trans ((A_eq m c 1).trans (V_main_arg3 m c))),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c)),
      (((h c).2 main_arg14 (Pipeline.mem_restRefs_of main_arg14 (by decide) (by decide))).trans (W_main_arg14 m (dats m) c)),
      (((h c).2 main_arg15 (Pipeline.mem_restRefs_of main_arg15 (by decide) (by decide))).trans (W_main_arg15 m (dats m) c)),
      (((h c).2 main_arg16 (Pipeline.mem_restRefs_of main_arg16 (by decide) (by decide))).trans (W_main_arg16 m (dats m) c))⟩) (run_main m ρ)

end Cert.KernelIdeal.EdgeValue

end
-- ==== Proof.LibDot.lean ====
/-
  Matrix products with ONE contracted axis and no batch axis, read at an entry at the ideal values, for any dimension
  numbers record whose axis lists are the stated ones (a printed record satisfies each hypothesis by `rfl`).

  With the accumulator the zero constant, the product at entry (a, b) is the sum over the contracted coordinate `c` of
  the left operand's entry times the right operand's entry; which coordinate of each operand `c` runs over is what the
  three forms below differ in: rows by columns (`_10`), the left operand transposed against a right operand contracted
  on its last axis (`_01`), and both operands contracted on their first axis (`_00`).
  Also: a non-contracting axis of either operand reads the output index, and the bf16 zero pattern is the real zero.
-/
import Idealize.ShloMosaic.Lib.ValueIdx
import Idealize.ShloMosaic.PureOps.Ideal.Laws

noncomputable section

open scoped BigOperators

namespace Cert.LibDot

open Idealize.ShloMosaic Idealize.ShloMosaic.ValueIdx

/-- The bf16 pattern of all zero bits is the number zero. -/
theorem ofBits_zero_bf16 : Ideal.ofBits .bf16 0x0000#16 = 0 := by simp [Ideal.ofBits, Ideal.ieee]

section Axes
variable {sl sr so : Shape} (d : DotDims sl sr so)

/-- With no batch axis and one non-contracting axis on the left, that axis of the left operand reads the output's
    first coordinate. -/
theorem lhsIdx_val_non {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one non-contracting axis on each side, the right operand's non-contracting axis reads the
    output's second coordinate. -/
theorem rhsIdx_val_non {nl : Fin sl.rank} {nr : Fin sr.rank} (hlb : d.lhsBatch = []) (hrb : d.rhsBatch = [])
    (hln : d.lhsNonContracting = [nl]) (hn : d.rhsNonContracting = [nr]) (j : so.Idx)
    (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Axes

/-- Rows by columns: an `M × K` by a `K × N` operand, the left contracted on its last axis and the right on its
    first. -/
theorem matmul_10_zero_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

/-- A `K × M` left operand contracted on its first axis against an `N × K` right operand contracted on its last. -/
theorem matmul_01_zero_apply {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (prec : Option ContractPrecision) (A : FVec Ideal ⟨2, ![K, M]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 c a) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

/-- Both operands contracted on their first axis: a `K × M` by a `K × N` operand. -/
theorem matmul_00_zero_apply {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (A : FVec Ideal ⟨2, ![K, M]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 c a) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibDot

end
-- ==== Proof.EdgeSpec.lean ====
/-
  The message one edge sends, as a function of that edge's own data.

  An edge carries two 64-vectors (its radial features and its spherical scalars), a 16-vector of spherical-harmonic
  components, a cutoff, and the projected features q, k of its two end nodes (128 numbers each, four heads of 32
  lanes). Each 64-vector goes through a two-layer network (64 → 128, x·σ(x), 128 → 128) and the two outputs are added:
  the edge's filter w. For head h the weight is ((Σ over the head's 32 lanes of q·w·k) · s) · cutoff with s one fixed
  number, and component c of the message is the edge's c-th spherical-harmonic component times the weight of the head
  that owns column c (the heads own 1, 3, 5 and 7 consecutive columns).

  Everything here is on the extended reals; only + and · and the logistic function occur, in one fixed order, so both
  programs can be compared with this term without any algebra.
-/
import Idealize.ShloMosaic.Lib.ValueIdx
import Idealize.ShloMosaic.PureOps.Ideal.Laws

noncomputable section

open scoped BigOperators

namespace Cert.EdgeSpec

open Idealize.ShloMosaic Idealize.ShloMosaic.ValueIdx

/-- x · σ(x), σ the logistic function 1 / (1 + e^(-x)). -/
def silu (x : EReal) : EReal := x * Ideal.logistic x

/-- One affine layer at output feature k: the input vector against column k of the weights, plus the bias. -/
def lin {K N : Nat} (x : Fin K → EReal) (W : Fin K → Fin N → EReal) (b : Fin N → EReal) (k : Fin N) : EReal :=
  (∑ c : Fin K, x c * W c k) + b k

/-- The two-layer network 64 → 128 → 128 with x·σ(x) between the layers. -/
def mlp (x : Fin 64 → EReal) (W1 : Fin 64 → Fin 128 → EReal) (b1 : Fin 128 → EReal) (W2 : Fin 128 → Fin 128 → EReal)
    (b2 : Fin 128 → EReal) (d : Fin 128) : EReal :=
  lin (fun k => silu (lin x W1 b1 k)) W2 b2 d

/-- Lane j of head h among the 128 features: 32·h + j. -/
def lane (h : Fin 4) (j : Fin 32) : Fin 128 := ⟨32 * h.val + j.val, by omega⟩

/-- The head that owns column c of the 16 components: the heads own 1, 3, 5, 7 consecutive columns. -/
def headOf (c : Fin 16) : Fin 4 :=
  if c.val < 1 then 0 else if c.val < 4 then 1 else if c.val < 9 then 2 else 3

/-- The fixed factor, the single-precision number nearest 1/√32, as both programs spell it. -/
def scale : EReal := Ideal.ofBits .f32 0x3E3504F3#32

/-- Head h's weight: ((Σ_j q·w·k over the head's lanes) · scale) · cutoff. -/
def att (q k w : Fin 128 → EReal) (cut : EReal) (h : Fin 4) : EReal :=
  ((∑ j : Fin 32, q (lane h j) * w (lane h j) * k (lane h j)) * scale) * cut

/-- Component c of one edge's message. -/
def edgeMsg (ef cs : Fin 64 → EReal) (esh : Fin 16 → EReal) (cut : EReal) (q k : Fin 128 → EReal)
    (Wr1 : Fin 64 → Fin 128 → EReal) (br1 : Fin 128 → EReal) (Wr2 : Fin 128 → Fin 128 → EReal) (br2 : Fin 128 → EReal)
    (Ws1 : Fin 64 → Fin 128 → EReal) (bs1 : Fin 128 → EReal) (Ws2 : Fin 128 → Fin 128 → EReal) (bs2 : Fin 128 → EReal)
    (c : Fin 16) : EReal :=
  esh c * att q k (fun d => mlp ef Wr1 br1 Wr2 br2 d + mlp cs Ws1 bs1 Ws2 bs2 d) cut (headOf c)

/-- The node a (possibly negative) index word names among 20000 nodes: a negative word counts from the end, and the
    result is clamped into the table, as a row gather reads it. -/
def rowOf (w : BitVec 32) : Fin 20000 :=
  ⟨min (Scalar.select (IntOp.cmpi .slt w 0#32) (IntOp.addi w 20000#32) w).toInt.toNat 19999, by omega⟩

/-- Row ρ of the projected node features: node ρ's 128 features against column d of the projection. -/
def proj (nf : (⟨2, ![20000, 128]⟩ : Shape).Idx → EReal) (W : (⟨2, ![128, 128]⟩ : Shape).Idx → EReal) (ρ : Fin 20000)
    (d : Fin 128) : EReal :=
  ∑ k : Fin 128, nf (ix2 ρ k) * W (ix2 k d)

/-- The whole message array [640000, 16] from the seventeen argument arrays, at row e and column c. -/
def msgAt (esh : (⟨2, ![640000, 16]⟩ : Shape).Idx → EReal) (nf : (⟨2, ![20000, 128]⟩ : Shape).Idx → EReal)
    (ef cs : (⟨2, ![640000, 64]⟩ : Shape).Idx → EReal) (cut : (⟨1, ![640000]⟩ : Shape).Idx → EReal)
    (snd rcv : (⟨1, ![640000]⟩ : Shape).Idx → BitVec 32)
    (Wr1 : (⟨2, ![64, 128]⟩ : Shape).Idx → EReal) (br1 : (⟨1, ![128]⟩ : Shape).Idx → EReal)
    (Wr2 : (⟨2, ![128, 128]⟩ : Shape).Idx → EReal) (br2 : (⟨1, ![128]⟩ : Shape).Idx → EReal)
    (Ws1 : (⟨2, ![64, 128]⟩ : Shape).Idx → EReal) (bs1 : (⟨1, ![128]⟩ : Shape).Idx → EReal)
    (Ws2 : (⟨2, ![128, 128]⟩ : Shape).Idx → EReal) (bs2 : (⟨1, ![128]⟩ : Shape).Idx → EReal)
    (Wq Wk : (⟨2, ![128, 128]⟩ : Shape).Idx → EReal) (e : Fin 640000) (c : Fin 16) : EReal :=
  edgeMsg (fun k => ef (ix2 e k)) (fun k => cs (ix2 e k)) (fun c' => esh (ix2 e c')) (cut (ix1 e))
    (proj nf Wq (rowOf (rcv (ix1 e)))) (proj nf Wk (rowOf (snd (ix1 e))))
    (fun a b => Wr1 (ix2 a b)) (fun d => br1 (ix1 d)) (fun a b => Wr2 (ix2 a b)) (fun d => br2 (ix1 d))
    (fun a b => Ws1 (ix2 a b)) (fun d => bs1 (ix1 d)) (fun a b => Ws2 (ix2 a b)) (fun d => bs2 (ix1 d)) c

end Cert.EdgeSpec

end
-- ==== Proof.KerFilt.lean ====
/-
  The edge filter the kernel body forms on one block, read at row r and feature d: the two networks on row r's two
  64-vectors, added. A matrix product into the zero accumulator read at an entry is the sum over the contracted
  coordinate, a format change is the identity on extended reals, the one-row bias is laid along the rows, and the
  logistic function is the specification's.
-/
import proofs.«169250_j73469710566102_1_alg».proof.Proof.Gen.KernelIdeal.Skeleton
import proofs.«169250_j73469710566102_1_alg».proof.Proof.LibDot
import proofs.«169250_j73469710566102_1_alg».proof.Proof.EdgeSpec
import Idealize.ShloMosaic.Lib.Pipeline.Value
import Idealize.ShloMosaic.Lib.ValueLayout

noncomputable section

open scoped BigOperators

namespace Cert.KernelIdeal.EdgeValue

open Idealize.ShloMosaic Idealize.ShloMosaic.ValueIdx Cert.KernelIdeal Cert.KernelIdeal.Gen Cert.EdgeSpec

/-- A one-row bias laid along 5000 rows, after a same-shape cast, reads the row at the column. -/
theorem filt_bias_apply (v : Vec Ideal S1x128 .f32) (hc : S1x128.ShapeCasts S1x128) (hb : S1x128.Broadcasts S5000x128)
    (r : Fin 5000) (k : Fin 128) :
    broadcastTo S5000x128 (shapeCast S1x128 v hc) hb (ix2 r k) = v (ix2 0 k) := by
  rw [shapeCast_self]
  exact broadcastTo_1b_ab_apply v hb r k

/-- The first layer's product into the zero accumulator at (r, k): the sum over the 64 inputs. -/
theorem filt_mm1_apply (A : FVec Ideal S5000x64 .bf16) (B : Vec Ideal S64x128 .bf16) (hc : S64x128.ShapeCasts S64x128)
    (r : Fin 5000) (k : Fin 128) :
    matmul (F := Ideal) (φ₂ := .bf16) dot_S5000x64_S64x128_S5000x128_1_0_0_1_n_n none A (shapeCast S64x128 B hc)
        (constant S5000x128 .f32 0x00000000#32) (ix2 r k)
      = ∑ c : Fin 64, A (ix2 r c) * B (ix2 c k) := by
  rw [shapeCast_self]
  exact Cert.LibDot.matmul_10_zero_apply dot_S5000x64_S64x128_S5000x128_1_0_0_1_n_n rfl rfl rfl rfl rfl rfl none A B r k

/-- The second layer's product into the zero accumulator at (r, d): the sum over the 128 hidden features. -/
theorem filt_mm2_apply (A : FVec Ideal S5000x128 .bf16) (B : Vec Ideal S128x128 .bf16) (hc : S128x128.ShapeCasts S128x128)
    (r : Fin 5000) (d : Fin 128) :
    matmul (F := Ideal) (φ₂ := .bf16) dot_S5000x128_S128x128_S5000x128_1_0_0_1_n_n none A (shapeCast S128x128 B hc)
        (constant S5000x128 .f32 0x00000000#32) (ix2 r d)
      = ∑ c : Fin 128, A (ix2 r c) * B (ix2 c d) := by
  rw [shapeCast_self]
  exact Cert.LibDot.matmul_10_zero_apply dot_S5000x128_S128x128_S5000x128_1_0_0_1_n_n rfl rfl rfl rfl rfl rfl none A B r d

/-- The first layer before its activation, at (r, k): the affine layer of row r. -/
theorem filt_pre_apply (v0 : Vec Ideal S5000x64 .f32) (v4 : Vec Ideal S64x128 .bf16) (v13 : Vec Ideal S1x128 .f32)
    (hlt : FTy.bits .bf16 < FTy.bits .f32) (hc4 : S64x128.ShapeCasts S64x128) (hc1 : S1x128.ShapeCasts S1x128)
    (hb : S1x128.Broadcasts S5000x128) (r : Fin 5000) (k : Fin 128) :
    addf (matmul (F := Ideal) (φ₂ := .bf16) dot_S5000x64_S64x128_S5000x128_1_0_0_1_n_n none (truncf .bf16 v0 hlt) (shapeCast S64x128 v4 hc4)
        (constant S5000x128 .f32 0x00000000#32)) (broadcastTo S5000x128 (shapeCast S1x128 v13 hc1) hb) (ix2 r k)
      = lin (fun c => v0 (ix2 r c)) (fun a b => v4 (ix2 a b)) (fun d' => v13 (ix2 0 d')) k := by
  rw [addf_apply, filt_mm1_apply, filt_bias_apply]
  rfl

/-- x·σ(x) of a vector at an index, after the format change: the specification's function of the element. -/
theorem filt_act_apply (v : FVec Ideal S5000x128 .f32) (hlt : FTy.bits .bf16 < FTy.bits .f32) (r : Fin 5000) (k : Fin 128) :
    truncf .bf16 (mulf v (logistic v)) hlt (ix2 r k) = silu (v (ix2 r k)) := rfl

/-- The filter block at (r, d). -/
theorem filt_block_apply (x0 x1 : Vec Ideal S5000x64 .f32) (x6 : Vec Ideal S64x128 .bf16) (x7 : Vec Ideal S1x128 .f32)
    (x8 : Vec Ideal S128x128 .bf16) (x9 : Vec Ideal S1x128 .f32) (x10 : Vec Ideal S64x128 .bf16) (x11 : Vec Ideal S1x128 .f32)
    (x12 : Vec Ideal S128x128 .bf16) (x13 : Vec Ideal S1x128 .f32) (r : Fin 5000) (d : Fin 128) :
    k0_pay4 (F := Ideal) (k0_pay2 x0 x6 x8 x7 x9) (k0_pay3 x1 x10 x12 x11) x13 (ix2 r d)
      = mlp (fun k => x0 (ix2 r k)) (fun a b => x6 (ix2 a b)) (fun d' => x7 (ix2 0 d')) (fun a b => x8 (ix2 a b)) (fun d' => x9 (ix2 0 d')) d
        + mlp (fun k => x1 (ix2 r k)) (fun a b => x10 (ix2 a b)) (fun d' => x11 (ix2 0 d')) (fun a b => x12 (ix2 a b)) (fun d' => x13 (ix2 0 d')) d := by
  simp only [k0_pay4, k0_pay2, k0_pay3]
  rw [addf_apply, addf_apply, addf_apply, filt_bias_apply, filt_bias_apply, filt_mm2_apply, filt_mm2_apply]
  simp only [filt_act_apply, filt_pre_apply]
  rfl

end Cert.KernelIdeal.EdgeValue

end
-- ==== Proof.KerBlock.lean ====
/-
  What one grid point writes: the kernel body's one store, read at row r and column c of the [5000, 16] block, is the
  specification's edge message of row r of the point's input blocks.

  The body forms both networks on the block's 5000 edges at once (a matrix product into the zero accumulator read at an
  entry is the sum over the contracted coordinate; a format change is the identity on extended reals; the bias row is
  laid along the rows), adds them, and for each head multiplies q, the filter and k on the head's 32 lanes, sums the
  lanes, scales and applies the cutoff; the four head weights are laid side by side over 1, 3, 5 and 7 columns and
  multiplied into the spherical-harmonic block.
-/
import proofs.«169250_j73469710566102_1_alg».proof.Proof.Gen.KernelIdeal.Frame
import proofs.«169250_j73469710566102_1_alg».proof.Proof.KerFilt
import proofs.«169250_j73469710566102_1_alg».proof.Proof.LibDot
import proofs.«169250_j73469710566102_1_alg».proof.Proof.EdgeSpec
import Idealize.ShloMosaic.Lib.Pipeline.Value
import Idealize.ShloMosaic.Lib.ValueLayout

noncomputable section

open scoped BigOperators

namespace Cert.KernelIdeal.EdgeValue

open Idealize.ShloMosaic Idealize.ShloMosaic.ValueIdx Cert.KernelIdeal Cert.KernelIdeal.Gen Cert.EdgeSpec

section Layout
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The source index over row `r` with lane `k` inserted on the summed axis is `(r, k)`. -/
theorem lift_row (r : Fin 5000) (k : Fin 32) : reduces_S5000x32_S5000.lift (ix1 r) k = ix2 r k := by
  funext c; apply Fin.ext
  match c with
  | ⟨0, _⟩ => rfl
  | ⟨1, _⟩ => rfl

/-- One head on a block: the lane products summed along each row, scaled, times the cutoff column, at `(r, 0)`. -/
theorem head_block_apply (A B C : FVec Ideal S5000x32 .f32) (cut : FVec Ideal S5000x1 .f32) (r : Fin 5000) :
    mulf (mulf (shapeCast S5000x1 (multiReduction (F := Ideal) .add [1] S5000 (mulf (mulf A B) C) 0x00000000#32
        reduces_S5000x32_S5000 (.inl rfl) rfl) shapeCasts_S5000_S5000x1)
      (broadcast S5000x1 (Scalar.ofBits .f32 0x3E3504F3#32))) cut (ix2 r (0 : Fin 1))
    = ((∑ j : Fin 32, A (ix2 r j) * B (ix2 r j) * C (ix2 r j)) * scale) * cut (ix2 r (0 : Fin 1)) := by
  have e1 : shapeCast S5000x1 (multiReduction (F := Ideal) .add [1] S5000 (mulf (mulf A B) C) 0x00000000#32
        reduces_S5000x32_S5000 (.inl rfl) rfl) shapeCasts_S5000_S5000x1 (ix2 r (0 : Fin 1))
      = ∑ j : Fin 32, A (ix2 r j) * B (ix2 r j) * C (ix2 r j) := by
    refine (shapeCast_a_a1_apply _ _ r 0).trans ?_
    refine (Ideal.multiReduction_add_single _ _ _ _ _ (ix1 r)).trans ?_
    show ∑ k : Fin 32, (mulf (mulf A B) C) (reduces_S5000x32_S5000.lift (ix1 r) k) = _
    refine Finset.sum_congr rfl fun k _ => ?_
    rw [lift_row]; rfl
  exact congrArg (fun z => z * scale * cut (ix2 r (0 : Fin 1))) e1

/-- One head from the three full-width blocks: lanes `32·h … 32·h + 31` of q, the filter and k multiplied, summed along
    the row, scaled, times the cutoff, at `(r, 0)`: the specification's weight of head `h` on row `r`. -/
theorem head_slice_apply (o : Nat) (hs : S5000x128.Slices ![0, o] S5000x32) (Q W K : FVec Ideal S5000x128 .f32)
    (cut : FVec Ideal S5000x1 .f32) (r : Fin 5000) (h : Fin 4) (ho : o = 32 * h.val) :
    mulf (mulf (shapeCast S5000x1 (multiReduction (F := Ideal) .add [1] S5000
        (mulf (mulf (extractStridedSlice S5000x32 ![0, o] Q hs) (extractStridedSlice S5000x32 ![0, o] W hs))
          (extractStridedSlice S5000x32 ![0, o] K hs)) 0x00000000#32
        reduces_S5000x32_S5000 (.inl rfl) rfl) shapeCasts_S5000_S5000x1)
      (broadcast S5000x1 (Scalar.ofBits .f32 0x3E3504F3#32))) cut (ix2 r (0 : Fin 1))
    = att (fun d => Q (ix2 r d)) (fun d => K (ix2 r d)) (fun d => W (ix2 r d)) (cut (ix2 r (0 : Fin 1))) h := by
  subst ho
  refine (head_block_apply _ _ _ cut r).trans ?_
  unfold att
  refine congrArg (fun z => z * scale * cut (ix2 r (0 : Fin 1))) ?_
  refine Finset.sum_congr rfl fun j _ => ?_
  rw [slice2_axis1_eq (32 * h.val) Q hs r j, slice2_axis1_eq (32 * h.val) W hs r j, slice2_axis1_eq (32 * h.val) K hs r j]
  rfl

/-- A same-shape cast of a loaded block is the block. -/
theorem pay5_eq (v : Vec Ideal S5000x128 .f32) : k0_pay5 (F := Ideal) v = v := shapeCast_self _ _
theorem pay6_eq (v : Vec Ideal S5000x128 .f32) : k0_pay6 (F := Ideal) v = v := shapeCast_self _ _
theorem pay7_eq (v : Vec Ideal S5000x1 .f32) : k0_pay7 (F := Ideal) v = v := shapeCast_self _ _

/-- Head 0's column at row `r`. -/
theorem pay8_apply (v24 v33 : FVec Ideal S5000x128 .f32) (v34 : Vec Ideal S1x128 .f32) (v39 v41 : Vec Ideal S5000x128 .f32)
    (v43 : Vec Ideal S5000x1 .f32) (r : Fin 5000) :
    k0_pay8 (F := Ideal) v24 v33 v34 v39 v41 v43 (ix2 r (0 : Fin 1))
      = att (fun d => v39 (ix2 r d)) (fun d => v41 (ix2 r d)) (fun d => k0_pay4 v24 v33 v34 (ix2 r d))
          (v43 (ix2 r (0 : Fin 1))) 0 := by
  unfold k0_pay8
  rw [pay5_eq, pay6_eq, pay7_eq]
  exact head_slice_apply 0 _ v39 (k0_pay4 v24 v33 v34) v41 v43 r 0 rfl

/-- Head 1's three columns at row `r`. -/
theorem pay9_apply (v24 v33 : FVec Ideal S5000x128 .f32) (v34 : Vec Ideal S1x128 .f32) (v39 v41 : Vec Ideal S5000x128 .f32)
    (v43 : Vec Ideal S5000x1 .f32) (r : Fin 5000) (c : Fin 3) :
    k0_pay9 (F := Ideal) v24 v33 v34 v39 v41 v43 (ix2 r c)
      = att (fun d => v39 (ix2 r d)) (fun d => v41 (ix2 r d)) (fun d => k0_pay4 v24 v33 v34 (ix2 r d))
          (v43 (ix2 r (0 : Fin 1))) 1 := by
  unfold k0_pay9
  rw [pay5_eq, pay6_eq, pay7_eq]
  refine (broadcastTo_a1_ab_apply _ _ r c).trans ?_
  rw [shapeCast_self]
  exact head_slice_apply 32 _ v39 (k0_pay4 v24 v33 v34) v41 v43 r 1 rfl

/-- Head 2's five columns at row `r`. -/
theorem pay10_apply (v24 v33 : FVec Ideal S5000x128 .f32) (v34 : Vec Ideal S1x128 .f32) (v39 v41 : Vec Ideal S5000x128 .f32)
    (v43 : Vec Ideal S5000x1 .f32) (r : Fin 5000) (c : Fin 5) :
    k0_pay10 (F := Ideal) v24 v33 v34 v39 v41 v43 (ix2 r c)
      = att (fun d => v39 (ix2 r d)) (fun d => v41 (ix2 r d)) (fun d => k0_pay4 v24 v33 v34 (ix2 r d))
          (v43 (ix2 r (0 : Fin 1))) 2 := by
  unfold k0_pay10
  rw [pay5_eq, pay6_eq, pay7_eq]
  refine (broadcastTo_a1_ab_apply _ _ r c).trans ?_
  rw [shapeCast_self]
  exact head_slice_apply 64 _ v39 (k0_pay4 v24 v33 v34) v41 v43 r 2 rfl

/-- Four blocks of 1, 3, 5 and 7 columns laid side by side, each constant along row `r`: column `col` of row `r` reads
    the value of the block that owns the column. -/
theorem concat4_apply (a : FVec Ideal S5000x1 .f32) (b : FVec Ideal S5000x3 .f32) (c : FVec Ideal S5000x5 .f32)
    (d : FVec Ideal S5000x7 .f32) (r : Fin 5000) (col : Fin 16) (w : Fin 4 → EReal)
    (ha : a (ix2 r (0 : Fin 1)) = w 0) (hb : ∀ c' : Fin 3, b (ix2 r c') = w 1) (hc : ∀ c' : Fin 5, c (ix2 r c') = w 2)
    (hd : ∀ c' : Fin 7, d (ix2 r c') = w 3) :
    concatenate S5000x16 1 [⟨S5000x1, a⟩, ⟨S5000x3, b⟩, ⟨S5000x5, c⟩, ⟨S5000x7, d⟩]
      concatenates_S5000x1_S5000x3_S5000x5_S5000x7_S5000x16_d1 (ix2 r col) = w (headOf col) := by
  unfold headOf
  by_cases h0 : col.val < 1
  · rw [if_pos h0]
    refine (concatenate_apply_piece (1 : Fin S5000x16.rank) _ _ (ix2 r col) 0 (by show (0 : ℕ) < 4; omega) S5000x1 a rfl rfl 0 rfl
      (ix2 r (0 : Fin 1)) (fun ax hax => ?_) ?_).trans ha
    · match ax with
      | ⟨0, _⟩ => rfl
      | ⟨1, _⟩ => exact absurd rfl hax
    · show 0 + 0 = col.val
      omega
  · rw [if_neg h0]
    by_cases h1 : col.val < 4
    · rw [if_pos h1]
      refine (concatenate_apply_piece (1 : Fin S5000x16.rank) _ _ (ix2 r col) 1 (by show (1 : ℕ) < 4; omega) S5000x3 b rfl rfl 1 rfl
        (ix2 r (⟨col.val - 1, by omega⟩ : Fin 3)) (fun ax hax => ?_) ?_).trans (hb _)
      · match ax with
        | ⟨0, _⟩ => rfl
        | ⟨1, _⟩ => exact absurd rfl hax
      · show 1 + (col.val - 1) = col.val
        omega
    · rw [if_neg h1]
      by_cases h2 : col.val < 9
      · rw [if_pos h2]
        refine (concatenate_apply_piece (1 : Fin S5000x16.rank) _ _ (ix2 r col) 2 (by show (2 : ℕ) < 4; omega) S5000x5 c rfl rfl 4 rfl
          (ix2 r (⟨col.val - 4, by omega⟩ : Fin 5)) (fun ax hax => ?_) ?_).trans (hc _)
        · match ax with
          | ⟨0, _⟩ => rfl
          | ⟨1, _⟩ => exact absurd rfl hax
        · show 4 + (col.val - 4) = col.val
          omega
      · rw [if_neg h2]
        refine (concatenate_apply_piece (1 : Fin S5000x16.rank) _ _ (ix2 r col) 3 (by show (3 : ℕ) < 4; omega) S5000x7 d rfl rfl 9 rfl
          (ix2 r (⟨col.val - 9, by have := col.isLt; omega⟩ : Fin 7)) (fun ax hax => ?_) ?_).trans (hd _)
        · match ax with
          | ⟨0, _⟩ => rfl
          | ⟨1, _⟩ => exact absurd rfl hax
        · show 9 + (col.val - 9) = col.val
          omega

/-- The stored block at `(r, c)`: the spherical-harmonic entry times the weight of the head that owns column `c`. -/
theorem pay1_apply (v24 v33 : FVec Ideal S5000x128 .f32) (v34 : Vec Ideal S1x128 .f32) (v39 v41 : Vec Ideal S5000x128 .f32)
    (v43 : Vec Ideal S5000x1 .f32) (v92 : Vec Ideal S5000x16 .f32) (r : Fin 5000) (c : Fin 16) :
    k0_pay1 (F := Ideal) (k0_pay7 v43) (k0_pay8 v24 v33 v34 v39 v41 v43) (k0_pay9 v24 v33 v34 v39 v41 v43)
        (k0_pay10 v24 v33 v34 v39 v41 v43) (k0_pay11 v41) (k0_pay12 v24 v33 v34 v39) v92 (ix2 r c)
      = v92 (ix2 r c) * att (fun d => v39 (ix2 r d)) (fun d => v41 (ix2 r d)) (fun d => k0_pay4 v24 v33 v34 (ix2 r d))
          (v43 (ix2 r (0 : Fin 1))) (headOf c) := by
  unfold k0_pay1
  refine congrArg (fun z => v92 (ix2 r c) * z) ?_
  refine concat4_apply _ _ _ _ r c
    (att (fun d => v39 (ix2 r d)) (fun d => v41 (ix2 r d)) (fun d => k0_pay4 v24 v33 v34 (ix2 r d)) (v43 (ix2 r (0 : Fin 1))))
    (pay8_apply v24 v33 v34 v39 v41 v43 r) (fun c' => pay9_apply v24 v33 v34 v39 v41 v43 r c')
    (fun c' => pay10_apply v24 v33 v34 v39 v41 v43 r c') (fun c' => ?_)
  unfold k0_pay11 k0_pay12
  rw [pay5_eq, pay6_eq, pay7_eq]
  refine (broadcastTo_a1_ab_apply _ _ r c').trans ?_
  rw [shapeCast_self]
  exact head_slice_apply 96 _ v39 (k0_pay4 v24 v33 v34) v41 v43 r 3 rfl

/-- The block the body leaves, at (r, c): the edge message of row r of the input blocks. -/
theorem out_block_apply (x0 x1 : Vec Ideal S5000x64 .f32) (x2 : Vec Ideal S5000x16 .f32) (x3 : Vec Ideal S5000x1 .f32)
    (x4 x5 : Vec Ideal S5000x128 .f32) (x6 : Vec Ideal S64x128 .bf16) (x7 : Vec Ideal S1x128 .f32) (x8 : Vec Ideal S128x128 .bf16)
    (x9 : Vec Ideal S1x128 .f32) (x10 : Vec Ideal S64x128 .bf16) (x11 : Vec Ideal S1x128 .f32) (x12 : Vec Ideal S128x128 .bf16)
    (x13 : Vec Ideal S1x128 .f32) (r : Fin 5000) (c : Fin 16) :
    out0_14 (F := Ideal) x0 x1 x2 x3 x4 x5 x6 x7 x8 x9 x10 x11 x12 x13 (ix2 r c)
      = edgeMsg (fun k => x0 (ix2 r k)) (fun k => x1 (ix2 r k)) (fun c' => x2 (ix2 r c')) (x3 (ix2 r 0))
          (fun d => x4 (ix2 r d)) (fun d => x5 (ix2 r d))
          (fun a b => x6 (ix2 a b)) (fun d => x7 (ix2 0 d)) (fun a b => x8 (ix2 a b)) (fun d => x9 (ix2 0 d))
          (fun a b => x10 (ix2 a b)) (fun d => x11 (ix2 0 d)) (fun a b => x12 (ix2 a b)) (fun d => x13 (ix2 0 d)) c := by
  have hz : (![0, 0] : Fin 2 → Nat) = fun _ => 0 := funext fun a => match a with | ⟨0, _⟩ => rfl | ⟨1, _⟩ => rfl
  unfold out0_14
  rw [View.canon_unit_zero hz]
  simp only [View.ld_unit_zero (S := S5000x64) hz, View.ld_unit_zero (S := S64x128) hz, View.ld_unit_zero (S := S128x128) hz,
    View.ld_unit_zero (S := S1x128) hz, View.ld_unit_zero (S := S5000x128) hz, View.ld_unit_zero (S := S5000x1) hz,
    View.ld_unit_zero (S := S5000x16) hz]
  refine (pay1_apply _ _ x13 x4 x5 x3 x2 r c).trans ?_
  unfold edgeMsg
  refine congrArg (fun w => x2 (ix2 r c) * att (fun d => x4 (ix2 r d)) (fun d => x5 (ix2 r d)) w (x3 (ix2 r (0 : Fin 1))) (headOf c)) ?_
  funext d
  exact filt_block_apply x0 x1 x6 x7 x8 x9 x10 x11 x12 x13 r d

end Cert.KernelIdeal.EdgeValue

end
-- ==== Proof.LibGather.lean ====
/-
  Row gathers read at an entry, for any dimension-numbers record whose lists are the stated ones.

  A gather that takes whole rows of a table along its first axis at one start index per result row reads, at result
  entry (e, …), the table's row number "start index e, read signed and clamped into the table"; one that takes whole
  columns along the second axis reads the column the start index of the result column names.
-/
import Idealize.ShloMosaic.Lib.ValueIdx

noncomputable section

open scoped BigOperators

namespace Cert.LibGather

open Idealize.ShloMosaic Idealize.ShloMosaic.ValueIdx

/-- Rows of an [N, D] table at start indices [E, 1]: entry (e, j) is the table at (clamped index e, j). -/
theorem gather_rows2_apply {N D E w : Nat} {α : Type} (hN : 0 < N)
    (d : GatherDims ⟨2, ![N, D]⟩ ⟨2, ![E, 1]⟩ ⟨2, ![E, D]⟩)
    (ho : d.offsetDims = [1]) (hc : d.collapsedSliceDims = [0]) (hob : d.operandBatchingDims = [])
    (hsb : d.startIndicesBatchingDims = []) (hm : d.startIndexMap = [0]) (hv : d.indexVectorDim = 1)
    (hs : d.sliceSizes = ![1, D])
    (x : (⟨2, ![N, D]⟩ : Shape).Idx → α) (idx : IVec ⟨2, ![E, 1]⟩ w) (e : Fin E) (j : Fin D) :
    Host.gather d x idx (ix2 e j) = x (ix2 (⟨min (idx (ix2 e 0)).toInt.toNat (N - 1), by omega⟩ : Fin N) j) := by
  obtain ⟨od, cd, ob, sb, sm, iv, ss, wf⟩ := d
  simp only at ho hc hob hsb hm hv hs
  subst ho hc hob hsb hm hv hs
  generalize hd : (⟨[1], [0], [], [], [0], 1, ![1, D], wf⟩ : GatherDims ⟨2, ![N, D]⟩ ⟨2, ![E, 1]⟩ ⟨2, ![E, D]⟩) = d
  have hcd : d.collapsedSliceDims = [0] := by rw [← hd]
  have hobd : d.operandBatchingDims = [] := by rw [← hd]
  have hmd : d.startIndexMap = [0] := by rw [← hd]
  unfold Host.gather
  congr 1
  funext a
  refine Fin.ext ?_
  match a with
  | ⟨0, _⟩ =>
    -- the collapsed axis: the clamped start index alone
    show d.start (ix2 e j) idx 0 + d.batchCoord (ix2 e j) 0 + d.offCoord (ix2 e j) 0 = _
    rw [GatherDims.batchCoord_eq_zero _ _ _ (by rw [hobd]; exact List.not_mem_nil),
      GatherDims.offCoord_eq_zero _ _ _ (fun h => ((GatherDims.mem_sKept _ _).mp h).1 (by rw [hcd]; exact List.mem_singleton.mpr rfl))]
    simp only [Nat.add_zero]
    unfold GatherDims.start
    rw [dif_pos (show (0 : Fin 2) ∈ d.startIndexMap by rw [hmd]; exact List.mem_singleton.mpr rfl)]
    subst hd
    have hsi : (⟨[1], [0], [], [], [0], 1, ![1, D], wf⟩ : GatherDims ⟨2, ![N, D]⟩ ⟨2, ![E, 1]⟩ ⟨2, ![E, D]⟩).siIdx (ix2 e j)
        ⟨List.idxOf (0 : Fin 2) [0], List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    -- the kept axis: start 0, the result's offset coordinate
    show d.start (ix2 e j) idx 1 + d.batchCoord (ix2 e j) 1 + d.offCoord (ix2 e j) 1 = j.val
    have hst : d.start (ix2 e j) idx 1 = 0 := by
      unfold GatherDims.start
      rw [dif_neg (by rw [hmd]; simp)]
    rw [hst, GatherDims.batchCoord_eq_zero _ _ _ (by rw [hobd]; exact List.not_mem_nil)]
    simp only [Nat.zero_add]
    have hk : d.sKept = [1] := by
      show (⟨2, ![N, D]⟩ : Shape).kept (d.collapsedSliceDims ++ d.operandBatchingDims) = [1]
      rw [hcd, hobd]; rfl
    unfold GatherDims.offCoord
    rw [dif_pos (by rw [hk]; exact List.mem_singleton.mpr rfl)]
    subst hd
    rfl

/-- Rows of an [N, A, B] table at start indices [E, 1]: entry (e, a, b) is the table at (clamped index e, a, b). -/
theorem gather_rows3_apply {N A B E w : Nat} {α : Type} (hN : 0 < N)
    (d : GatherDims ⟨3, ![N, A, B]⟩ ⟨2, ![E, 1]⟩ ⟨3, ![E, A, B]⟩)
    (ho : d.offsetDims = [1, 2]) (hc : d.collapsedSliceDims = [0]) (hob : d.operandBatchingDims = [])
    (hsb : d.startIndicesBatchingDims = []) (hm : d.startIndexMap = [0]) (hv : d.indexVectorDim = 1)
    (hs : d.sliceSizes = ![1, A, B])
    (x : (⟨3, ![N, A, B]⟩ : Shape).Idx → α) (idx : IVec ⟨2, ![E, 1]⟩ w) (e : Fin E) (a : Fin A) (b : Fin B) :
    Host.gather d x idx (ix3 e a b) = x (ix3 (⟨min (idx (ix2 e 0)).toInt.toNat (N - 1), by omega⟩ : Fin N) a b) := by
  obtain ⟨od, cd, ob, sb, sm, iv, ss, wf⟩ := d
  simp only at ho hc hob hsb hm hv hs
  subst ho hc hob hsb hm hv hs
  generalize hd : (⟨[1, 2], [0], [], [], [0], 1, ![1, A, B], wf⟩ :
    GatherDims ⟨3, ![N, A, B]⟩ ⟨2, ![E, 1]⟩ ⟨3, ![E, A, B]⟩) = d
  have hcd : d.collapsedSliceDims = [0] := by rw [← hd]
  have hobd : d.operandBatchingDims = [] := by rw [← hd]
  have hmd : d.startIndexMap = [0] := by rw [← hd]
  have hk : d.sKept = [1, 2] := by
    show (⟨3, ![N, A, B]⟩ : Shape).kept (d.collapsedSliceDims ++ d.operandBatchingDims) = [1, 2]
    rw [hcd, hobd]; rfl
  unfold Host.gather
  congr 1
  funext a'
  refine Fin.ext ?_
  match a' with
  | ⟨0, _⟩ =>
    -- the collapsed axis: the clamped start index alone
    show d.start (ix3 e a b) idx 0 + d.batchCoord (ix3 e a b) 0 + d.offCoord (ix3 e a b) 0 = _
    rw [GatherDims.batchCoord_eq_zero _ _ _ (by rw [hobd]; exact List.not_mem_nil),
      GatherDims.offCoord_eq_zero _ _ _ (fun h => ((GatherDims.mem_sKept _ _).mp h).1 (by rw [hcd]; exact List.mem_singleton.mpr rfl))]
    simp only [Nat.add_zero]
    unfold GatherDims.start
    rw [dif_pos (show (0 : Fin 3) ∈ d.startIndexMap by rw [hmd]; exact List.mem_singleton.mpr rfl)]
    subst hd
    have hsi : (⟨[1, 2], [0], [], [], [0], 1, ![1, A, B], wf⟩ :
        GatherDims ⟨3, ![N, A, B]⟩ ⟨2, ![E, 1]⟩ ⟨3, ![E, A, B]⟩).siIdx (ix3 e a b)
        ⟨List.idxOf (0 : Fin 3) [0], List.idxOf_lt_length_iff.2 (List.mem_singleton.mpr rfl)⟩ = ix2 e 0 := by
      funext c; refine Fin.ext ?_
      match c with
      | ⟨0, _⟩ => rfl
      | ⟨1, _⟩ => rfl
    rw [hsi]
    rfl
  | ⟨1, _⟩ =>
    -- the first kept axis: start 0, the result's first offset coordinate
    show d.start (ix3 e a b) idx 1 + d.batchCoord (ix3 e a b) 1 + d.offCoord (ix3 e a b) 1 = a.val
    have hst : d.start (ix3 e a b) idx 1 = 0 := by
      unfold GatherDims.start
      rw [dif_neg (by rw [hmd]; simp)]
    rw [hst, GatherDims.batchCoord_eq_zero _ _ _ (by rw [hobd]; exact List.not_mem_nil)]
    simp only [Nat.zero_add]
    unfold GatherDims.offCoord
    rw [dif_pos (by rw [hk]; simp)]
    subst hd
    rfl
  | ⟨2, _⟩ =>
    -- the second kept axis: start 0, the result's second offset coordinate
    show d.start (ix3 e a b) idx 2 + d.batchCoord (ix3 e a b) 2 + d.offCoord (ix3 e a b) 2 = b.val
    have hst : d.start (ix3 e a b) idx 2 = 0 := by
      unfold GatherDims.start
      rw [dif_neg (by rw [hmd]; simp)]
    rw [hst, GatherDims.batchCoord_eq_zero _ _ _ (by rw [hobd]; exact List.not_mem_nil)]
    simp only [Nat.zero_add]
    unfold GatherDims.offCoord
    rw [dif_pos (by rw [hk]; simp)]
    subst hd
    rfl

/-- Columns of an [E, K] table at start indices [C, 1]: entry (e, c) is the table at (e, clamped index c). -/
theorem gather_cols2_apply {E K C w : Nat} {α : Type} (hK : 0 < K)
    (d : GatherDims ⟨2, ![E, K]⟩ ⟨2, ![C, 1]⟩ ⟨2, ![E, C]⟩)
    (ho : d.offsetDims = [0]) (hc : d.collapsedSliceDims = [1]) (hob : d.operandBatchingDims = [])
    (hsb : d.startIndicesBatchingDims = []) (hm : d.startIndexMap = [1]) (hv : d.indexVectorDim = 1)
    (hs : d.sliceSizes = ![E, 1])
    (x : (⟨2, ![E, K]⟩ : Shape).Idx → α) (idx : IVec ⟨2, ![C, 1]⟩ w) (e : Fin E) (c : Fin C) :
    Host.gather d x idx (ix2 e c) = x (ix2 e (⟨min (idx (ix2 c 0)).toInt.toNat (K - 1), by omega⟩ : Fin K)) := by
  obtain ⟨od, cd, ob, sb, sm, iv, ss, wf⟩ := d
  simp only at ho hc hob hsb hm hv hs
  subst ho hc hob hsb hm hv hs
  generalize hd : (⟨[0], [1], [], [], [1], 1, ![E, 1], wf⟩ : GatherDims ⟨2, ![E, K]⟩ ⟨2, ![C, 1]⟩ ⟨2, ![E, C]⟩) = d
  have hcd : d.collapsedSliceDims = [1] := by rw [← hd]
  have hobd : d.operandBatchingDims = [] := by rw [← hd]
  have hmd : d.startIndexMap = [1] := by rw [← hd]
  unfold Host.gather
  congr 1
  funext a
  refine Fin.ext ?_
  match a with
  | ⟨0, _⟩ =>
    -- the kept axis: start 0, the result's offset coordinate
    show d.start (ix2 e c) idx 0 + d.batchCoord (ix2 e c) 0 + d.offCoord (ix2 e c) 0 = e.val
    have hst : d.start (ix2 e c) idx 0 = 0 := by
      unfold GatherDims.start
      rw [dif_neg (by rw [hmd]; simp)]
    rw [hst, GatherDims.batchCoord_eq_zero _ _ _ (by rw [hobd]; exact List.not_mem_nil)]
    simp only [Nat.zero_add]
    have hk : d.sKept = [0] := by
      show (⟨2, ![E, K]⟩ : Shape).kept (d.collapsedSliceDims ++ d.operandBatchingDims) = [0]
      rw [hcd, hobd]; rfl
    unfold GatherDims.offCoord
    rw [dif_pos (by rw [hk]; exact List.mem_singleton.mpr rfl)]
    subst hd
    rfl
  | ⟨1, _⟩ =>
    -- the collapsed axis: the clamped start index alone
    show d.start (ix2 e c) idx 1 + d.batchCoord (ix2 e c) 1 + d.offCoord (ix2 e c) 1 = _
    rw [GatherDims.batchCoord_eq_zero _ _ _ (by rw [hobd]; exact List.not_mem_nil),
      GatherDims.offCoord_eq_zero _ _ _ (fun h => ((GatherDims.mem_sKept _ _).mp h).1 (by rw [hcd]; exact List.mem_singleton.mpr rfl))]
    simp only [Nat.add_zero]
    unfold GatherDims.start
    rw [dif_pos (show (1 : Fin 2) ∈ d.startIndexMap by rw [hmd]; exact List.mem_singleton.mpr rfl)]
    subst hd
    have hsi : (⟨[0], [1], [], [], [1], 1, ![E, 1], wf⟩ : GatherDims ⟨2, ![E, K]⟩ ⟨2, ![C, 1]⟩ ⟨2, ![E, C]⟩).siIdx (ix2 e c)
        ⟨List.idxOf (1 : Fin 2) [1], List.idxOf_lt_length_iff.2 (List.mem_singleton.mpr rfl)⟩ = ix2 c 0 := by
      funext b; refine Fin.ext ?_
      match b with
      | ⟨0, _⟩ => rfl
      | ⟨1, _⟩ => rfl
    rw [hsi]
    rfl

end Cert.LibGather

end
-- ==== Proof.LibHostDot.lean ====
/-
  A host matrix product with one contracted axis and no batch axis, read at an entry at the ideal values, for any
  dimension-numbers record whose axis lists are the stated ones: rows by columns, the sum over the contracted
  coordinate of the left entry times the right entry.
-/
import Idealize.ShloMosaic.Lib.ValueIdx
import Idealize.ShloMosaic.PureOps.Ideal.Laws
import proofs.«169250_j73469710566102_1_alg».proof.Proof.LibDot

noncomputable section

open scoped BigOperators

namespace Cert.LibHostDot

open Idealize.ShloMosaic Idealize.ShloMosaic.ValueIdx

/-- An M × K by a K × N operand, the left contracted on its last axis and the right on its first. -/
theorem dotGeneral_10_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    Host.dotGeneral (F := Ideal) d prec A B (ix2 a b) = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.dotGeneral d prec .single A B (ix2 a b) = _
  rw [Ideal.dotGeneral_apply, ← Equiv.sum_comp (contrEquiv1 d K hr hs).symm]
  refine Finset.sum_congr rfl fun c _ => ?_
  have c2 := contrEquiv1_symm_val d K hr hs c
  have l0 := Cert.LibDot.lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := Cert.LibDot.rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibHostDot

end
-- ==== Proof.KerHost.lean ====
/-
  The arrays the region finds, read at an entry in terms of the launch memory. The host lines before the region turn the
  cutoffs into a column, gather the rows of node_feats·Wq and node_feats·Wk at each edge's receiving and sending node (a
  negative index counted from the end, then clamped into the table), change the four weight matrices' format (the
  identity on extended reals) and view each bias as one row.
-/
import proofs.«169250_j73469710566102_1_alg».proof.Proof.Gen.KernelIdeal.Frame
import proofs.«169250_j73469710566102_1_alg».proof.Proof.LibGather
import proofs.«169250_j73469710566102_1_alg».proof.Proof.LibHostDot
import proofs.«169250_j73469710566102_1_alg».proof.Proof.EdgeSpec
import Idealize.ShloMosaic.Lib.Pipeline.Value
import Idealize.ShloMosaic.Lib.ValueLayout
import Idealize.ShloMosaic.Lib.StableHlo.Run

noncomputable section

open scoped BigOperators

namespace Cert.KernelIdeal.EdgeValue

open Idealize.ShloMosaic Idealize.ShloMosaic.TcCoe Idealize.ShloMosaic.ValueIdx Idealize.SL.Sem Cert.KernelIdeal Cert.KernelIdeal.Gen Cert.EdgeSpec

variable (m : (ℓ : Loc nD τ sig) → Buf (Elt Ideal) ℓ) (c : Dev nD)

/-! ## The operations' terms read at an entry, over variable arrays -/

/-- A vector laid out as a column: row e of the column is entry e of the vector. -/
theorem column_apply {α : Type} (x : S640000.Idx → α) (hb : S640000.BroadcastsInDim S640000x1 ![0]) (e : Fin 640000) :
    broadcastInDim S640000x1 ![0] hb x (ix2 e 0) = x (ix1 e) :=
  broadcastInDim_apply ![0] hb x (ix2 e 0) (ix1 e) (fun a => match a with | ⟨0, _⟩ => rfl)

/-- A [128] vector seen as one row: entry (0, d) of the row is entry d of the vector. -/
theorem row_apply {α : Type} (x : S128.Idx → α) (hc : S128.ShapeCasts S1x128) (d : Fin 128) :
    shapeCast S1x128 x hc (ix2 0 d) = x (ix1 d) :=
  shapeCast_apply x hc (ix2 0 d) (ix1 d) (by
    rw [Shape.rowMajor_val_one, Shape.rowMajor_val_two]
    show d.val = 0 * 128 + d.val
    omega)

/-- The column of node indices at row e: the edge's index word, a negative one counted from the end. -/
theorem nodeCol_apply (i : IVec S640000 32) (hb : S640000.BroadcastsInDim S640000x1 ![0]) (h0 : S_.BroadcastsInDim S640000 ![])
    (e : Fin 640000) :
    broadcastInDim S640000x1 ![0] hb
        (select (cmpi .slt i (broadcastInDim S640000 ![] h0 (constantI S_ 32 0#32)))
          (addi i (broadcastInDim S640000 ![] h0 (constantI S_ 32 20000#32))) i) (ix2 e 0)
      = Scalar.select (IntOp.cmpi .slt (i (ix1 e)) 0#32) (IntOp.addi (i (ix1 e)) 20000#32) (i (ix1 e)) := by
  refine (column_apply _ hb e).trans ?_
  rfl

/-- Rows of node_feats·W gathered at a column of indices: entry (e, d) is the product's row "index e, read signed and
    clamped into the table" at feature d, that is that node's features against column d of W. -/
theorem gatherProj_apply (nf : FVec Ideal S20000x128 .f32) (W : FVec Ideal S128x128 .f32) (idx : IVec S640000x1 32) (w : BitVec 32)
    (e : Fin 640000) (d : Fin 128)
    (hw : idx (ix2 e 0) = Scalar.select (IntOp.cmpi .slt w 0#32) (IntOp.addi w 20000#32) w) :
    Host.gather gather_S20000x128_S640000x1_S640000x128_1_0_n_n_0_1_1128
        (Host.dotGeneral (F := Ideal) dot_S20000x128_S128x128_S20000x128_1_0_0_1_n_n none nf W) idx (ix2 e d)
      = proj nf W (rowOf w) d := by
  refine (Cert.LibGather.gather_rows2_apply (N := 20000) (by decide) _ rfl rfl rfl rfl rfl rfl rfl _ idx e d).trans ?_
  rw [Cert.LibHostDot.dotGeneral_10_apply _ rfl rfl rfl rfl rfl rfl]
  have hr : (⟨min (idx (ix2 e 0)).toInt.toNat (20000 - 1), by omega⟩ : Fin 20000) = rowOf w :=
    Fin.ext (by
      show min (idx (ix2 e 0)).toInt.toNat (20000 - 1)
        = min (Scalar.select (IntOp.cmpi .slt w 0#32) (IntOp.addi w 20000#32) w).toInt.toNat 19999
      rw [hw])
  rw [hr]
  rfl

/-! ## The arrays the region finds -/

/-- The cutoff column at row e is edge e's cutoff. -/
theorem V_cut (e : Fin 640000) : (V m c main_v16 : S640000x1.Idx → EReal) (ix2 e 0) = (m ((c.tc : Thread nD τ).loc main_arg4)) (ix1 e) := by
  have e0 : (V m c main_v16 : S640000x1.Idx → EReal)
      = broadcastInDim S640000x1 ![0] bcast_S640000_S640000x1_0 ((m ((c.tc : Thread nD τ).loc main_arg4)) : S640000.Idx → EReal) := by
    show StableHlo.after hostOps0 (fun b => m (c, b)) (Proc.devRef .tc main_v16) = _
    after_results <;> rfl
  rw [e0]
  exact column_apply _ _ e

/-- The gathered q at (e, d): the receiving node's row of node_feats·Wq at feature d. -/
theorem V_q (e : Fin 640000) (d : Fin 128) :
    (V m c main_v8 : S640000x128.Idx → EReal) (ix2 e d) = proj (m ((c.tc : Thread nD τ).loc main_arg1)) (m ((c.tc : Thread nD τ).loc main_arg15)) (rowOf ((m ((c.tc : Thread nD τ).loc main_arg6)) (ix1 e))) d := by
  have e0 : (V m c main_v8 : S640000x128.Idx → EReal)
      = Host.gather gather_S20000x128_S640000x1_S640000x128_1_0_n_n_0_1_1128
          (Host.dotGeneral (F := Ideal) (φ₁ := .f32) (φ₂ := .f32) dot_S20000x128_S128x128_S20000x128_1_0_0_1_n_n none
            ((m ((c.tc : Thread nD τ).loc main_arg1)) : FVec Ideal S20000x128 .f32) ((m ((c.tc : Thread nD τ).loc main_arg15)) : FVec Ideal S128x128 .f32))
          (broadcastInDim S640000x1 ![0] bcast_S640000_S640000x1_0
            (select (cmpi .slt ((m ((c.tc : Thread nD τ).loc main_arg6)) : IVec S640000 32) (broadcastInDim S640000 ![] bcast_S_S640000 (constantI S_ 32 0#32)))
              (addi ((m ((c.tc : Thread nD τ).loc main_arg6)) : IVec S640000 32) (broadcastInDim S640000 ![] bcast_S_S640000 (constantI S_ 32 20000#32)))
              ((m ((c.tc : Thread nD τ).loc main_arg6)) : IVec S640000 32))) := by
    show StableHlo.after hostOps0 (fun b => m (c, b)) (Proc.devRef .tc main_v8) = _
    after_results <;> rfl
  rw [e0]
  exact gatherProj_apply _ _ _ _ e d (nodeCol_apply _ _ _ e)

/-- The gathered k at (e, d): the sending node's row of node_feats·Wk at feature d. -/
theorem V_k (e : Fin 640000) (d : Fin 128) :
    (V m c main_v15 : S640000x128.Idx → EReal) (ix2 e d) = proj (m ((c.tc : Thread nD τ).loc main_arg1)) (m ((c.tc : Thread nD τ).loc main_arg16)) (rowOf ((m ((c.tc : Thread nD τ).loc main_arg5)) (ix1 e))) d := by
  have e0 : (V m c main_v15 : S640000x128.Idx → EReal)
      = Host.gather gather_S20000x128_S640000x1_S640000x128_1_0_n_n_0_1_1128
          (Host.dotGeneral (F := Ideal) (φ₁ := .f32) (φ₂ := .f32) dot_S20000x128_S128x128_S20000x128_1_0_0_1_n_n none
            ((m ((c.tc : Thread nD τ).loc main_arg1)) : FVec Ideal S20000x128 .f32) ((m ((c.tc : Thread nD τ).loc main_arg16)) : FVec Ideal S128x128 .f32))
          (broadcastInDim S640000x1 ![0] bcast_S640000_S640000x1_0
            (select (cmpi .slt ((m ((c.tc : Thread nD τ).loc main_arg5)) : IVec S640000 32) (broadcastInDim S640000 ![] bcast_S_S640000 (constantI S_ 32 0#32)))
              (addi ((m ((c.tc : Thread nD τ).loc main_arg5)) : IVec S640000 32) (broadcastInDim S640000 ![] bcast_S_S640000 (constantI S_ 32 20000#32)))
              ((m ((c.tc : Thread nD τ).loc main_arg5)) : IVec S640000 32))) := by
    show StableHlo.after hostOps0 (fun b => m (c, b)) (Proc.devRef .tc main_v15) = _
    after_results_simp <;> rfl
  rw [e0]
  exact gatherProj_apply _ _ _ _ e d (nodeCol_apply _ _ _ e)

/-- The four weight matrices after the format change are the arguments. -/
theorem V_Wr1 (a : Fin 64) (b : Fin 128) : (V m c main_v17 : S64x128.Idx → EReal) (ix2 a b) = (m ((c.tc : Thread nD τ).loc main_arg7)) (ix2 a b) := by
  have e0 : (V m c main_v17 : S64x128.Idx → EReal) = truncf (F := Ideal) .bf16 ((m ((c.tc : Thread nD τ).loc main_arg7)) : FVec Ideal S64x128 .f32) bitsLt_bf16_f32 := by
    show StableHlo.after hostOps0 (fun b => m (c, b)) (Proc.devRef .tc main_v17) = _
    after_results <;> rfl
  rw [e0]
  exact truncf_apply _ _ _
theorem V_Wr2 (a : Fin 128) (b : Fin 128) : (V m c main_v18 : S128x128.Idx → EReal) (ix2 a b) = (m ((c.tc : Thread nD τ).loc main_arg9)) (ix2 a b) := by
  have e0 : (V m c main_v18 : S128x128.Idx → EReal) = truncf (F := Ideal) .bf16 ((m ((c.tc : Thread nD τ).loc main_arg9)) : FVec Ideal S128x128 .f32) bitsLt_bf16_f32 := by
    show StableHlo.after hostOps0 (fun b => m (c, b)) (Proc.devRef .tc main_v18) = _
    after_results <;> rfl
  rw [e0]
  exact truncf_apply _ _ _
theorem V_Ws1 (a : Fin 64) (b : Fin 128) : (V m c main_v19 : S64x128.Idx → EReal) (ix2 a b) = (m ((c.tc : Thread nD τ).loc main_arg11)) (ix2 a b) := by
  have e0 : (V m c main_v19 : S64x128.Idx → EReal) = truncf (F := Ideal) .bf16 ((m ((c.tc : Thread nD τ).loc main_arg11)) : FVec Ideal S64x128 .f32) bitsLt_bf16_f32 := by
    show StableHlo.after hostOps0 (fun b => m (c, b)) (Proc.devRef .tc main_v19) = _
    after_results <;> rfl
  rw [e0]
  exact truncf_apply _ _ _
theorem V_Ws2 (a : Fin 128) (b : Fin 128) : (V m c main_v20 : S128x128.Idx → EReal) (ix2 a b) = (m ((c.tc : Thread nD τ).loc main_arg13)) (ix2 a b) := by
  have e0 : (V m c main_v20 : S128x128.Idx → EReal) = truncf (F := Ideal) .bf16 ((m ((c.tc : Thread nD τ).loc main_arg13)) : FVec Ideal S128x128 .f32) bitsLt_bf16_f32 := by
    show StableHlo.after hostOps0 (fun b => m (c, b)) (Proc.devRef .tc main_v20) = _
    after_results <;> rfl
  rw [e0]
  exact truncf_apply _ _ _

/-- The four biases as one row. -/
theorem V_br1 (d : Fin 128) : (V m c main_v21 : S1x128.Idx → EReal) (ix2 0 d) = (m ((c.tc : Thread nD τ).loc main_arg8)) (ix1 d) := by
  have e0 : (V m c main_v21 : S1x128.Idx → EReal) = shapeCast S1x128 ((m ((c.tc : Thread nD τ).loc main_arg8)) : S128.Idx → EReal) shapeCasts_S128_S1x128 := by
    show StableHlo.after hostOps0 (fun b => m (c, b)) (Proc.devRef .tc main_v21) = _
    after_results <;> rfl
  rw [e0]
  exact row_apply _ _ d
theorem V_br2 (d : Fin 128) : (V m c main_v22 : S1x128.Idx → EReal) (ix2 0 d) = (m ((c.tc : Thread nD τ).loc main_arg10)) (ix1 d) := by
  have e0 : (V m c main_v22 : S1x128.Idx → EReal) = shapeCast S1x128 ((m ((c.tc : Thread nD τ).loc main_arg10)) : S128.Idx → EReal) shapeCasts_S128_S1x128 := by
    show StableHlo.after hostOps0 (fun b => m (c, b)) (Proc.devRef .tc main_v22) = _
    after_results <;> rfl
  rw [e0]
  exact row_apply _ _ d
theorem V_bs1 (d : Fin 128) : (V m c main_v23 : S1x128.Idx → EReal) (ix2 0 d) = (m ((c.tc : Thread nD τ).loc main_arg12)) (ix1 d) := by
  have e0 : (V m c main_v23 : S1x128.Idx → EReal) = shapeCast S1x128 ((m ((c.tc : Thread nD τ).loc main_arg12)) : S128.Idx → EReal) shapeCasts_S128_S1x128 := by
    show StableHlo.after hostOps0 (fun b => m (c, b)) (Proc.devRef .tc main_v23) = _
    after_results <;> rfl
  rw [e0]
  exact row_apply _ _ d
theorem V_bs2 (d : Fin 128) : (V m c main_v24 : S1x128.Idx → EReal) (ix2 0 d) = (m ((c.tc : Thread nD τ).loc main_arg14)) (ix1 d) := by
  have e0 : (V m c main_v24 : S1x128.Idx → EReal) = shapeCast S1x128 ((m ((c.tc : Thread nD τ).loc main_arg14)) : S128.Idx → EReal) shapeCasts_S128_S1x128 := by
    show StableHlo.after hostOps0 (fun b => m (c, b)) (Proc.devRef .tc main_v24) = _
    after_results <;> rfl
  rw [e0]
  exact row_apply _ _ d

end Cert.KernelIdeal.EdgeValue

end
-- ==== Proof.KerArray.lean ====
/-
  The message array the region leaves: the 128 grid points write back disjoint blocks of 5000 rows that tile the
  [640000, 16] array, and row r of point t's block is row 5000·t + r of the array; each input window's block is the same
  rows of its array (the weights and biases whole). The arrays the region finds are the arguments themselves, or what the
  host lines before it made of them: the cutoffs as a column, the projected features gathered at each edge's end node,
  the weights after a format change (the identity on extended reals), the biases as one row. So the array is the
  specification's message array of the seventeen arguments.
-/
import proofs.«169250_j73469710566102_1_alg».proof.Proof.Gen.KernelIdeal.Frame
import proofs.«169250_j73469710566102_1_alg».proof.Proof.KerBlock
import proofs.«169250_j73469710566102_1_alg».proof.Proof.KerHost
import proofs.«169250_j73469710566102_1_alg».proof.Proof.LibGather
import proofs.«169250_j73469710566102_1_alg».proof.Proof.LibHostDot
import proofs.«169250_j73469710566102_1_alg».proof.Proof.EdgeSpec
import Idealize.ShloMosaic.Lib.Pipeline.Value
import Idealize.ShloMosaic.Lib.ValueLayout
import Idealize.ShloMosaic.Lib.StableHlo.Run

noncomputable section

open scoped BigOperators

namespace Cert.KernelIdeal.EdgeValue

open Idealize.ShloMosaic Idealize.ShloMosaic.TcCoe Idealize.ShloMosaic.ValueIdx Idealize.SL.Sem Cert.KernelIdeal Cert.KernelIdeal.Gen Cert.EdgeSpec

/-- The specification's message array of the launch memory's seventeen argument arrays. -/
abbrev msgArr (m : (ℓ : Loc nD τ sig) → Buf (Elt Ideal) ℓ) (c : Dev nD) : S640000x16.Idx → EReal := fun i =>
  msgAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (i 0) (i 1)

/-- The grid has 128 points, so row r of point t's block is a row of the 640000. -/
theorem blockRow_lt (t : Fin cfg0.N) (r : Fin 5000) : 5000 * t.val + r.val < 640000 := by
  have h : t.val < 128 := lt_of_lt_of_eq t.isLt (N_0 : cfg0.N = 128)
  have := r.isLt
  omega

/-- Row r of point t's block as a row of the array. -/
abbrev blockRow (t : Fin cfg0.N) (r : Fin 5000) : Fin 640000 := ⟨5000 * t.val + r.val, blockRow_lt t r⟩

/-- The moving windows' block index at point t is (t, 0). -/
theorem idx_move : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_14.index t (0 : Fin 2) = t.val ∧ win0_14.index t (1 : Fin 2) = 0) :=
  (by decide +kernel : ∀ t : Fin grid0.N, _)

/-- The weights' and biases' windows stay at block (0, 0). -/
theorem idx_still : ∀ t : Fin cfg0.N,
    (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0) :=
  (by decide +kernel : ∀ t : Fin grid0.N, _)

/-- The radial features' block at point t, with its literal type. -/
abbrev efBlk (m : (ℓ : Loc nD τ sig) → Buf (Elt Ideal) ℓ) (c : Dev nD) (t : Fin cfg0.N) : Vec Ideal S5000x64 .f32 := iblk m c 0 t

/-- The spherical scalars' block at point t, with its literal type. -/
abbrev csBlk (m : (ℓ : Loc nD τ sig) → Buf (Elt Ideal) ℓ) (c : Dev nD) (t : Fin cfg0.N) : Vec Ideal S5000x64 .f32 := iblk m c 1 t

/-- The spherical-harmonic components' block at point t, with its literal type. -/
abbrev eshBlk (m : (ℓ : Loc nD τ sig) → Buf (Elt Ideal) ℓ) (c : Dev nD) (t : Fin cfg0.N) : Vec Ideal S5000x16 .f32 := iblk m c 2 t

/-- The cutoff column's block at point t, with its literal type. -/
abbrev cutBlk (m : (ℓ : Loc nD τ sig) → Buf (Elt Ideal) ℓ) (c : Dev nD) (t : Fin cfg0.N) : Vec Ideal S5000x1 .f32 := iblk m c 3 t

/-- The gathered q's block at point t, with its literal type. -/
abbrev qBlk (m : (ℓ : Loc nD τ sig) → Buf (Elt Ideal) ℓ) (c : Dev nD) (t : Fin cfg0.N) : Vec Ideal S5000x128 .f32 := iblk m c 4 t

/-- The gathered k's block at point t, with its literal type. -/
abbrev kBlk (m : (ℓ : Loc nD τ sig) → Buf (Elt Ideal) ℓ) (c : Dev nD) (t : Fin cfg0.N) : Vec Ideal S5000x128 .f32 := iblk m c 5 t

/-- The first radial weights' block at point t, with its literal type. -/
abbrev wr1Blk (m : (ℓ : Loc nD τ sig) → Buf (Elt Ideal) ℓ) (c : Dev nD) (t : Fin cfg0.N) : Vec Ideal S64x128 .bf16 := iblk m c 6 t

/-- The first radial bias row's block at point t, with its literal type. -/
abbrev br1Blk (m : (ℓ : Loc nD τ sig) → Buf (Elt Ideal) ℓ) (c : Dev nD) (t : Fin cfg0.N) : Vec Ideal S1x128 .f32 := iblk m c 7 t

/-- The second radial weights' block at point t, with its literal type. -/
abbrev wr2Blk (m : (ℓ : Loc nD τ sig) → Buf (Elt Ideal) ℓ) (c : Dev nD) (t : Fin cfg0.N) : Vec Ideal S128x128 .bf16 := iblk m c 8 t

/-- The second radial bias row's block at point t, with its literal type. -/
abbrev br2Blk (m : (ℓ : Loc nD τ sig) → Buf (Elt Ideal) ℓ) (c : Dev nD) (t : Fin cfg0.N) : Vec Ideal S1x128 .f32 := iblk m c 9 t

/-- The first scalar weights' block at point t, with its literal type. -/
abbrev ws1Blk (m : (ℓ : Loc nD τ sig) → Buf (Elt Ideal) ℓ) (c : Dev nD) (t : Fin cfg0.N) : Vec Ideal S64x128 .bf16 := iblk m c 10 t

/-- The first scalar bias row's block at point t, with its literal type. -/
abbrev bs1Blk (m : (ℓ : Loc nD τ sig) → Buf (Elt Ideal) ℓ) (c : Dev nD) (t : Fin cfg0.N) : Vec Ideal S1x128 .f32 := iblk m c 11 t

/-- The second scalar weights' block at point t, with its literal type. -/
abbrev ws2Blk (m : (ℓ : Loc nD τ sig) → Buf (Elt Ideal) ℓ) (c : Dev nD) (t : Fin cfg0.N) : Vec Ideal S128x128 .bf16 := iblk m c 12 t

/-- The second scalar bias row's block at point t, with its literal type. -/
abbrev bs2Blk (m : (ℓ : Loc nD τ sig) → Buf (Elt Ideal) ℓ) (c : Dev nD) (t : Fin cfg0.N) : Vec Ideal S1x128 .f32 := iblk m c 13 t

/-- The radial features' block at point t reads rows 5000·t … 5000·t + 4999 of its array. -/
theorem efBlk_apply (m : (ℓ : Loc nD τ sig) → Buf (Elt Ideal) ℓ) (c : Dev nD) (t : Fin cfg0.N) (r : Fin 5000) (k : Fin 64) :
    efBlk m c t (ix2 r k) = (V m c main_arg2 : S640000x64.Idx → EReal) (ix2 (blockRow t r) k) := by
  obtain ⟨e0, e1⟩ := ((idx_move t).1)
  unfold efBlk iblk
  rw [View.read_apply]
  refine congrArg (V m c main_arg2 : S640000x64.Idx → EReal) (funext fun a => Fin.ext ?_)
  match a with
  | ⟨0, _⟩ => show win0_0.index t (0 : Fin 2) * 5000 + 1 * r.val = 5000 * t.val + r.val; omega
  | ⟨1, _⟩ => show win0_0.index t (1 : Fin 2) * 64 + 1 * k.val = k.val; omega

/-- The spherical scalars' block at point t reads rows 5000·t … 5000·t + 4999 of its array. -/
theorem csBlk_apply (m : (ℓ : Loc nD τ sig) → Buf (Elt Ideal) ℓ) (c : Dev nD) (t : Fin cfg0.N) (r : Fin 5000) (k : Fin 64) :
    csBlk m c t (ix2 r k) = (V m c main_arg3 : S640000x64.Idx → EReal) (ix2 (blockRow t r) k) := by
  obtain ⟨e0, e1⟩ := ((idx_move t).2.1)
  unfold csBlk iblk
  rw [View.read_apply]
  refine congrArg (V m c main_arg3 : S640000x64.Idx → EReal) (funext fun a => Fin.ext ?_)
  match a with
  | ⟨0, _⟩ => show win0_1.index t (0 : Fin 2) * 5000 + 1 * r.val = 5000 * t.val + r.val; omega
  | ⟨1, _⟩ => show win0_1.index t (1 : Fin 2) * 64 + 1 * k.val = k.val; omega

/-- The spherical-harmonic components' block at point t reads rows 5000·t … 5000·t + 4999 of its array. -/
theorem eshBlk_apply (m : (ℓ : Loc nD τ sig) → Buf (Elt Ideal) ℓ) (c : Dev nD) (t : Fin cfg0.N) (r : Fin 5000) (k : Fin 16) :
    eshBlk m c t (ix2 r k) = (V m c main_arg0 : S640000x16.Idx → EReal) (ix2 (blockRow t r) k) := by
  obtain ⟨e0, e1⟩ := ((idx_move t).2.2.1)
  unfold eshBlk iblk
  rw [View.read_apply]
  refine congrArg (V m c main_arg0 : S640000x16.Idx → EReal) (funext fun a => Fin.ext ?_)
  match a with
  | ⟨0, _⟩ => show win0_2.index t (0 : Fin 2) * 5000 + 1 * r.val = 5000 * t.val + r.val; omega
  | ⟨1, _⟩ => show win0_2.index t (1 : Fin 2) * 16 + 1 * k.val = k.val; omega

/-- The cutoff column's block at point t reads rows 5000·t … 5000·t + 4999 of its array. -/
theorem cutBlk_apply (m : (ℓ : Loc nD τ sig) → Buf (Elt Ideal) ℓ) (c : Dev nD) (t : Fin cfg0.N) (r : Fin 5000) (k : Fin 1) :
    cutBlk m c t (ix2 r k) = (V m c main_v16 : S640000x1.Idx → EReal) (ix2 (blockRow t r) k) := by
  obtain ⟨e0, e1⟩ := ((idx_move t).2.2.2.1)
  unfold cutBlk iblk
  rw [View.read_apply]
  refine congrArg (V m c main_v16 : S640000x1.Idx → EReal) (funext fun a => Fin.ext ?_)
  match a with
  | ⟨0, _⟩ => show win0_3.index t (0 : Fin 2) * 5000 + 1 * r.val = 5000 * t.val + r.val; omega
  | ⟨1, _⟩ => show win0_3.index t (1 : Fin 2) * 1 + 1 * k.val = k.val; omega

/-- The gathered q's block at point t reads rows 5000·t … 5000·t + 4999 of its array. -/
theorem qBlk_apply (m : (ℓ : Loc nD τ sig) → Buf (Elt Ideal) ℓ) (c : Dev nD) (t : Fin cfg0.N) (r : Fin 5000) (k : Fin 128) :
    qBlk m c t (ix2 r k) = (V m c main_v8 : S640000x128.Idx → EReal) (ix2 (blockRow t r) k) := by
  obtain ⟨e0, e1⟩ := ((idx_move t).2.2.2.2.1)
  unfold qBlk iblk
  rw [View.read_apply]
  refine congrArg (V m c main_v8 : S640000x128.Idx → EReal) (funext fun a => Fin.ext ?_)
  match a with
  | ⟨0, _⟩ => show win0_4.index t (0 : Fin 2) * 5000 + 1 * r.val = 5000 * t.val + r.val; omega
  | ⟨1, _⟩ => show win0_4.index t (1 : Fin 2) * 128 + 1 * k.val = k.val; omega

/-- The gathered k's block at point t reads rows 5000·t … 5000·t + 4999 of its array. -/
theorem kBlk_apply (m : (ℓ : Loc nD τ sig) → Buf (Elt Ideal) ℓ) (c : Dev nD) (t : Fin cfg0.N) (r : Fin 5000) (k : Fin 128) :
    kBlk m c t (ix2 r k) = (V m c main_v15 : S640000x128.Idx → EReal) (ix2 (blockRow t r) k) := by
  obtain ⟨e0, e1⟩ := ((idx_move t).2.2.2.2.2.1)
  unfold kBlk iblk
  rw [View.read_apply]
  refine congrArg (V m c main_v15 : S640000x128.Idx → EReal) (funext fun a => Fin.ext ?_)
  match a with
  | ⟨0, _⟩ => show win0_5.index t (0 : Fin 2) * 5000 + 1 * r.val = 5000 * t.val + r.val; omega
  | ⟨1, _⟩ => show win0_5.index t (1 : Fin 2) * 128 + 1 * k.val = k.val; omega

/-- The first radial weights' block at every point is its whole array. -/
theorem wr1Blk_apply (m : (ℓ : Loc nD τ sig) → Buf (Elt Ideal) ℓ) (c : Dev nD) (t : Fin cfg0.N) (r : Fin 64) (k : Fin 128) :
    wr1Blk m c t (ix2 r k) = (V m c main_v17 : S64x128.Idx → EReal) (ix2 r k) := by
  obtain ⟨e0, e1⟩ := ((idx_still t).1)
  unfold wr1Blk iblk
  rw [View.read_apply]
  refine congrArg (V m c main_v17 : S64x128.Idx → EReal) (funext fun a => Fin.ext ?_)
  match a with
  | ⟨0, _⟩ => show win0_6.index t (0 : Fin 2) * 64 + 1 * r.val = r.val; omega
  | ⟨1, _⟩ => show win0_6.index t (1 : Fin 2) * 128 + 1 * k.val = k.val; omega

/-- The first radial bias row's block at every point is its whole array. -/
theorem br1Blk_apply (m : (ℓ : Loc nD τ sig) → Buf (Elt Ideal) ℓ) (c : Dev nD) (t : Fin cfg0.N) (r : Fin 1) (k : Fin 128) :
    br1Blk m c t (ix2 r k) = (V m c main_v21 : S1x128.Idx → EReal) (ix2 r k) := by
  obtain ⟨e0, e1⟩ := ((idx_still t).2.1)
  unfold br1Blk iblk
  rw [View.read_apply]
  refine congrArg (V m c main_v21 : S1x128.Idx → EReal) (funext fun a => Fin.ext ?_)
  match a with
  | ⟨0, _⟩ => show win0_7.index t (0 : Fin 2) * 1 + 1 * r.val = r.val; omega
  | ⟨1, _⟩ => show win0_7.index t (1 : Fin 2) * 128 + 1 * k.val = k.val; omega

/-- The second radial weights' block at every point is its whole array. -/
theorem wr2Blk_apply (m : (ℓ : Loc nD τ sig) → Buf (Elt Ideal) ℓ) (c : Dev nD) (t : Fin cfg0.N) (r : Fin 128) (k : Fin 128) :
    wr2Blk m c t (ix2 r k) = (V m c main_v18 : S128x128.Idx → EReal) (ix2 r k) := by
  obtain ⟨e0, e1⟩ := ((idx_still t).2.2.1)
  unfold wr2Blk iblk
  rw [View.read_apply]
  refine congrArg (V m c main_v18 : S128x128.Idx → EReal) (funext fun a => Fin.ext ?_)
  match a with
  | ⟨0, _⟩ => show win0_8.index t (0 : Fin 2) * 128 + 1 * r.val = r.val; omega
  | ⟨1, _⟩ => show win0_8.index t (1 : Fin 2) * 128 + 1 * k.val = k.val; omega

/-- The second radial bias row's block at every point is its whole array. -/
theorem br2Blk_apply (m : (ℓ : Loc nD τ sig) → Buf (Elt Ideal) ℓ) (c : Dev nD) (t : Fin cfg0.N) (r : Fin 1) (k : Fin 128) :
    br2Blk m c t (ix2 r k) = (V m c main_v22 : S1x128.Idx → EReal) (ix2 r k) := by
  obtain ⟨e0, e1⟩ := ((idx_still t).2.2.2.1)
  unfold br2Blk iblk
  rw [View.read_apply]
  refine congrArg (V m c main_v22 : S1x128.Idx → EReal) (funext fun a => Fin.ext ?_)
  match a with
  | ⟨0, _⟩ => show win0_9.index t (0 : Fin 2) * 1 + 1 * r.val = r.val; omega
  | ⟨1, _⟩ => show win0_9.index t (1 : Fin 2) * 128 + 1 * k.val = k.val; omega

/-- The first scalar weights' block at every point is its whole array. -/
theorem ws1Blk_apply (m : (ℓ : Loc nD τ sig) → Buf (Elt Ideal) ℓ) (c : Dev nD) (t : Fin cfg0.N) (r : Fin 64) (k : Fin 128) :
    ws1Blk m c t (ix2 r k) = (V m c main_v19 : S64x128.Idx → EReal) (ix2 r k) := by
  obtain ⟨e0, e1⟩ := ((idx_still t).2.2.2.2.1)
  unfold ws1Blk iblk
  rw [View.read_apply]
  refine congrArg (V m c main_v19 : S64x128.Idx → EReal) (funext fun a => Fin.ext ?_)
  match a with
  | ⟨0, _⟩ => show win0_10.index t (0 : Fin 2) * 64 + 1 * r.val = r.val; omega
  | ⟨1, _⟩ => show win0_10.index t (1 : Fin 2) * 128 + 1 * k.val = k.val; omega

/-- The first scalar bias row's block at every point is its whole array. -/
theorem bs1Blk_apply (m : (ℓ : Loc nD τ sig) → Buf (Elt Ideal) ℓ) (c : Dev nD) (t : Fin cfg0.N) (r : Fin 1) (k : Fin 128) :
    bs1Blk m c t (ix2 r k) = (V m c main_v23 : S1x128.Idx → EReal) (ix2 r k) := by
  obtain ⟨e0, e1⟩ := ((idx_still t).2.2.2.2.2.1)
  unfold bs1Blk iblk
  rw [View.read_apply]
  refine congrArg (V m c main_v23 : S1x128.Idx → EReal) (funext fun a => Fin.ext ?_)
  match a with
  | ⟨0, _⟩ => show win0_11.index t (0 : Fin 2) * 1 + 1 * r.val = r.val; omega
  | ⟨1, _⟩ => show win0_11.index t (1 : Fin 2) * 128 + 1 * k.val = k.val; omega

/-- The second scalar weights' block at every point is its whole array. -/
theorem ws2Blk_apply (m : (ℓ : Loc nD τ sig) → Buf (Elt Ideal) ℓ) (c : Dev nD) (t : Fin cfg0.N) (r : Fin 128) (k : Fin 128) :
    ws2Blk m c t (ix2 r k) = (V m c main_v20 : S128x128.Idx → EReal) (ix2 r k) := by
  obtain ⟨e0, e1⟩ := ((idx_still t).2.2.2.2.2.2.1)
  unfold ws2Blk iblk
  rw [View.read_apply]
  refine congrArg (V m c main_v20 : S128x128.Idx → EReal) (funext fun a => Fin.ext ?_)
  match a with
  | ⟨0, _⟩ => show win0_12.index t (0 : Fin 2) * 128 + 1 * r.val = r.val; omega
  | ⟨1, _⟩ => show win0_12.index t (1 : Fin 2) * 128 + 1 * k.val = k.val; omega

/-- The second scalar bias row's block at every point is its whole array. -/
theorem bs2Blk_apply (m : (ℓ : Loc nD τ sig) → Buf (Elt Ideal) ℓ) (c : Dev nD) (t : Fin cfg0.N) (r : Fin 1) (k : Fin 128) :
    bs2Blk m c t (ix2 r k) = (V m c main_v24 : S1x128.Idx → EReal) (ix2 r k) := by
  obtain ⟨e0, e1⟩ := ((idx_still t).2.2.2.2.2.2.2)
  unfold bs2Blk iblk
  rw [View.read_apply]
  refine congrArg (V m c main_v24 : S1x128.Idx → EReal) (funext fun a => Fin.ext ?_)
  match a with
  | ⟨0, _⟩ => show win0_13.index t (0 : Fin 2) * 1 + 1 * r.val = r.val; omega
  | ⟨1, _⟩ => show win0_13.index t (1 : Fin 2) * 128 + 1 * k.val = k.val; omega

/-- Entry (r, k) of point t's output block is entry (5000·t + r, k) of the array. -/
theorem out_emb (t : Fin cfg0.N) (r : Fin 5000) (k : Fin 16) :
    ((cfg0.win 14).blk t).view.emb (ix2 r k) = (ix2 (blockRow t r) k : S640000x16.Idx) := by
  obtain ⟨e0, e1⟩ := ((idx_move t).2.2.2.2.2.2)
  funext a
  apply Fin.ext
  match a with
  | ⟨0, _⟩ => show win0_14.index t (0 : Fin 2) * 5000 + 1 * r.val = 5000 * t.val + r.val; omega
  | ⟨1, _⟩ => show win0_14.index t (1 : Fin 2) * 16 + 1 * k.val = k.val; omega

/-- Entry (r, k) of what point t leaves in the output block is entry (5000·t + r, k) of the message array: the block
    is the edge message of row r of the input blocks, and each input block's row r is row 5000·t + r of its array,
    which is the argument itself or what the host lines made of the arguments. -/
theorem out_block_msg (m : (ℓ : Loc nD τ sig) → Buf (Elt Ideal) ℓ) (c : Dev nD) (t : Fin cfg0.N) (r : Fin 5000) (k : Fin 16) :
    out0_14 (F := Ideal) (efBlk m c t) (csBlk m c t) (eshBlk m c t) (cutBlk m c t) (qBlk m c t) (kBlk m c t) (wr1Blk m c t) (br1Blk m c t) (wr2Blk m c t) (br2Blk m c t) (ws1Blk m c t) (bs1Blk m c t) (ws2Blk m c t) (bs2Blk m c t) (ix2 r k) = msgArr m c (ix2 (blockRow t r) k) := by
  refine (out_block_apply (efBlk m c t) (csBlk m c t) (eshBlk m c t) (cutBlk m c t) (qBlk m c t) (kBlk m c t) (wr1Blk m c t) (br1Blk m c t) (wr2Blk m c t) (br2Blk m c t) (ws1Blk m c t) (bs1Blk m c t) (ws2Blk m c t) (bs2Blk m c t) r k).trans ?_
  have h0 : (fun j => efBlk m c t (ix2 r j)) = fun j => (m ((c.tc : Thread nD τ).loc main_arg2)) (ix2 (blockRow t r) j) :=
    funext fun j => (efBlk_apply m c t r j).trans (congrFun (V_main_arg2 m c) _)
  have h1 : (fun j => csBlk m c t (ix2 r j)) = fun j => (m ((c.tc : Thread nD τ).loc main_arg3)) (ix2 (blockRow t r) j) :=
    funext fun j => (csBlk_apply m c t r j).trans (congrFun (V_main_arg3 m c) _)
  have h2 : (fun j => eshBlk m c t (ix2 r j)) = fun j => (m ((c.tc : Thread nD τ).loc main_arg0)) (ix2 (blockRow t r) j) :=
    funext fun j => (eshBlk_apply m c t r j).trans (congrFun (V_main_arg0 m c) _)
  have h3 : cutBlk m c t (ix2 r 0) = (m ((c.tc : Thread nD τ).loc main_arg4)) (ix1 (blockRow t r)) :=
    (cutBlk_apply m c t r 0).trans (V_cut m c (blockRow t r))
  have h4 : (fun d => qBlk m c t (ix2 r d))
      = fun d => proj (m ((c.tc : Thread nD τ).loc main_arg1)) (m ((c.tc : Thread nD τ).loc main_arg15)) (rowOf ((m ((c.tc : Thread nD τ).loc main_arg6)) (ix1 (blockRow t r)))) d :=
    funext fun d => (qBlk_apply m c t r d).trans (V_q m c (blockRow t r) d)
  have h5 : (fun d => kBlk m c t (ix2 r d))
      = fun d => proj (m ((c.tc : Thread nD τ).loc main_arg1)) (m ((c.tc : Thread nD τ).loc main_arg16)) (rowOf ((m ((c.tc : Thread nD τ).loc main_arg5)) (ix1 (blockRow t r)))) d :=
    funext fun d => (kBlk_apply m c t r d).trans (V_k m c (blockRow t r) d)
  have h6 : (fun a b => wr1Blk m c t (ix2 a b)) = fun a b => (m ((c.tc : Thread nD τ).loc main_arg7)) (ix2 a b) :=
    funext fun a => funext fun b => (wr1Blk_apply m c t a b).trans (V_Wr1 m c a b)
  have h7 : (fun d => br1Blk m c t (ix2 0 d)) = fun d => (m ((c.tc : Thread nD τ).loc main_arg8)) (ix1 d) :=
    funext fun d => (br1Blk_apply m c t 0 d).trans (V_br1 m c d)
  have h8 : (fun a b => wr2Blk m c t (ix2 a b)) = fun a b => (m ((c.tc : Thread nD τ).loc main_arg9)) (ix2 a b) :=
    funext fun a => funext fun b => (wr2Blk_apply m c t a b).trans (V_Wr2 m c a b)
  have h9 : (fun d => br2Blk m c t (ix2 0 d)) = fun d => (m ((c.tc : Thread nD τ).loc main_arg10)) (ix1 d) :=
    funext fun d => (br2Blk_apply m c t 0 d).trans (V_br2 m c d)
  have h10 : (fun a b => ws1Blk m c t (ix2 a b)) = fun a b => (m ((c.tc : Thread nD τ).loc main_arg11)) (ix2 a b) :=
    funext fun a => funext fun b => (ws1Blk_apply m c t a b).trans (V_Ws1 m c a b)
  have h11 : (fun d => bs1Blk m c t (ix2 0 d)) = fun d => (m ((c.tc : Thread nD τ).loc main_arg12)) (ix1 d) :=
    funext fun d => (bs1Blk_apply m c t 0 d).trans (V_bs1 m c d)
  have h12 : (fun a b => ws2Blk m c t (ix2 a b)) = fun a b => (m ((c.tc : Thread nD τ).loc main_arg13)) (ix2 a b) :=
    funext fun a => funext fun b => (ws2Blk_apply m c t a b).trans (V_Ws2 m c a b)
  have h13 : (fun d => bs2Blk m c t (ix2 0 d)) = fun d => (m ((c.tc : Thread nD τ).loc main_arg14)) (ix1 d) :=
    funext fun d => (bs2Blk_apply m c t 0 d).trans (V_bs2 m c d)
  rw [h0, h1, h2, h3, h4, h5, h6, h7, h8, h9, h10, h11, h12, h13]
  rfl

/-- The same at an index of the block: what point t leaves at j is the message array at j's place in the array. -/
theorem out_block_msg_idx (m : (ℓ : Loc nD τ sig) → Buf (Elt Ideal) ℓ) (c : Dev nD) (t : Fin cfg0.N) (j : S5000x16.Idx) :
    out0_14 (F := Ideal) (efBlk m c t) (csBlk m c t) (eshBlk m c t) (cutBlk m c t) (qBlk m c t) (kBlk m c t) (wr1Blk m c t) (br1Blk m c t) (wr2Blk m c t) (br2Blk m c t) (ws1Blk m c t) (bs1Blk m c t) (ws2Blk m c t) (bs2Blk m c t) j = msgArr m c (((cfg0.win 14).blk t).view.emb j) := by
  obtain ⟨r, k, rfl⟩ : ∃ (r : Fin 5000) (k : Fin 16), j = ix2 r k := ⟨j 0, j 1, eq_ix2 j⟩
  rw [out_emb]
  exact out_block_msg m c t r k

/-- What point t writes back is block t of the message array. -/
theorem flushed_eq (m : (ℓ : Loc nD τ sig) → Buf (Elt Ideal) ℓ) (c : Dev nD) (t : Fin cfg0.N) :
    (dats (F := Ideal) m 0 c).flushed 14 t = ((cfg0.win 14).blk t).view.read (Elt Ideal) (msgArr m c) := by
  show (cfg0.win 14).cut (grid0.coords t) ((dats (F := Ideal) m 0 c).after 14 t) = _
  rw [after0_14]
  funext j
  exact out_block_msg_idx m c t j

/-- An index of the array is in point t's block iff each coordinate is in the block's range on its axis. -/
theorem out_mem_blk (t : Fin cfg0.N) (i : S640000x16.Idx) :
    i ∈ ((cfg0.win 14).blk t).view.set ↔ ∀ a : Fin 2, win0_14.index t a * S5000x16.size a ≤ (i a).val
      ∧ (i a).val < win0_14.index t a * S5000x16.size a + S5000x16.size a := by
  show i ∈ ((View.whole main_v25).slice (win0_14.rect t)).set ↔ _
  rw [View.set_slice_whole, Rect.mem_set_unit]
  exact Iff.rfl

/-- Row e of the array lies in the block of point e / 5000, which writes back. -/
theorem out_cover (i : S640000x16.Idx) :
    ∃ t : Fin cfg0.N, (cfg0.win 14).flush t = true ∧ i ∈ ((cfg0.win 14).blk t).view.set := by
  have hi0 : (i 0).val < 640000 := (i 0).isLt
  have hi1 : (i 1).val < 16 := (i 1).isLt
  obtain ⟨t, ht⟩ : ∃ t : Fin cfg0.N, t.val = (i 0).val / 5000 :=
    ⟨⟨(i 0).val / 5000, lt_of_lt_of_eq (by omega) (N_0 : cfg0.N = 128).symm⟩, rfl⟩
  obtain ⟨e0, e1⟩ := ((idx_move t).2.2.2.2.2.2)
  refine ⟨t, flush0_14 t, ?_⟩
  rw [out_mem_blk]
  intro a
  match a with
  | ⟨0, _⟩ =>
    show win0_14.index t (0 : Fin 2) * 5000 ≤ (i 0).val ∧ (i 0).val < win0_14.index t (0 : Fin 2) * 5000 + 5000
    omega
  | ⟨1, _⟩ =>
    show win0_14.index t (1 : Fin 2) * 16 ≤ (i 1).val ∧ (i 1).val < win0_14.index t (1 : Fin 2) * 16 + 16
    omega

/-- After the region the output array is that message array. -/
theorem out_array (m : (ℓ : Loc nD τ sig) → Buf (Elt Ideal) ℓ) (c : Dev nD) :
    (dats (F := Ideal) m 0 c).arrAt 14 cfg0.N = msgArr m c :=
  (dats (F := Ideal) m 0 c).arrAt_eq_of_cover 14 (msgArr m c) (fun t _ => flushed_eq m c t) out_cover

end Cert.KernelIdeal.EdgeValue

end
-- ==== Proof.RefTerm.lean ====
/-
  The reference program's result as one term of its argument arrays, cut into named stretches.

  The filter: two networks x ↦ (x·W₁ + b₁) ↦ y·σ(y) ↦ (·W₂ + b₂), σ spelt 1 / (1 + e^(−y)), summed. The projected
  node features node_feats·W, seen as [20000, 4, 32], gathered at the edge's end node (a negative index counts from the
  end). Per edge and head the 32 products q·w·k are summed, times the fixed factor, times the edge's cutoff. The head
  weights [640000, 4] are then spread over the 16 columns by a table of column → head computed from the widths
  1, 3, 5, 7 (rotate, zero the first, running sum: the starts 0, 1, 4, 9; mark the starts; running sum minus one), read
  with a fill value where the table would leave the range (it never does). The message is the spherical-harmonic
  components times that; it is summed into the receiving nodes and divided by 32.
-/
import proofs.«169250_j73469710566102_1_alg».proof.Proof.Gen.ReferenceIdeal

noncomputable section

namespace Cert.ReferenceIdeal.Term

open Idealize.ShloMosaic Cert.ReferenceIdeal Cert.ReferenceIdeal.Facts₀

variable {F : FTy → Type} [FloatOps F]

/-- y ↦ y · (1 / (1 + e^(−y))), elementwise on a [640000, 128] array. -/
abbrev siluT (y : FVec F S640000x128 .f32) : FVec F S640000x128 .f32 :=
  mulf y (Host.divf (broadcastInDim S640000x128 ![] bcast_S_S640000x128 (constant S_ .f32 0x3F800000#32))
    (addf (broadcastInDim S640000x128 ![] bcast_S_S640000x128 (constant S_ .f32 0x3F800000#32)) (Host.exp (Host.negf y))))

/-- A bias [128] laid along the rows of a [640000, 128] array. -/
abbrev biasT (b : FVec F S128 .f32) : FVec F S640000x128 .f32 :=
  broadcastInDim S640000x128 ![0, 1] bcast_S1x128_S640000x128_0_1 (broadcastInDim S1x128 ![1] bcast_S128_S1x128_1 b)

/-- The first layer, 64 → 128. -/
abbrev layer1T (X : FVec F S640000x64 .f32) (W : FVec F S64x128 .f32) (b : FVec F S128 .f32) : FVec F S640000x128 .f32 :=
  addf (Host.dotGeneral dot_S640000x64_S64x128_S640000x128_1_0_0_1_n_n none X W) (biasT b)

/-- The second layer, 128 → 128. -/
abbrev layer2T (H : FVec F S640000x128 .f32) (W : FVec F S128x128 .f32) (b : FVec F S128 .f32) : FVec F S640000x128 .f32 :=
  addf (Host.dotGeneral dot_S640000x128_S128x128_S640000x128_1_0_0_1_n_n none H W) (biasT b)

/-- The edge filter [640000, 128], as [640000, 4, 32]. -/
abbrev filtT (ef cs : FVec F S640000x64 .f32) (Wr1 : FVec F S64x128 .f32) (br1 : FVec F S128 .f32) (Wr2 : FVec F S128x128 .f32)
    (br2 : FVec F S128 .f32) (Ws1 : FVec F S64x128 .f32) (bs1 : FVec F S128 .f32) (Ws2 : FVec F S128x128 .f32) (bs2 : FVec F S128 .f32) :
    FVec F S640000x4x32 .f32 :=
  shapeCast S640000x4x32 (addf (layer2T (siluT (layer1T ef Wr1 br1)) Wr2 br2) (layer2T (siluT (layer1T cs Ws1 bs1)) Ws2 bs2))
    shapeCasts_S640000x128_S640000x4x32

/-- The end-node index of every edge as a column [640000, 1], a negative one counted from the end. -/
abbrev nodeIdxT (i : IVec S640000 32) : IVec S640000x1 32 :=
  broadcastInDim S640000x1 ![0] bcast_S640000_S640000x1_0
    (select (cmpi .slt i (broadcastInDim S640000 ![] bcast_S_S640000 (constantI S_ 32 0#32)))
      (addi i (broadcastInDim S640000 ![] bcast_S_S640000 (constantI S_ 32 20000#32))) i)

/-- The projected node features of every edge's end node, [640000, 4, 32]. -/
abbrev endFeatT (nf : FVec F S20000x128 .f32) (W : FVec F S128x128 .f32) (i : IVec S640000 32) : FVec F S640000x4x32 .f32 :=
  Host.gather gather_S20000x4x32_S640000x1_S640000x4x32_12_0_n_n_0_1_1432
    (shapeCast S20000x4x32 (Host.dotGeneral dot_S20000x128_S128x128_S20000x128_1_0_0_1_n_n none nf W) shapeCasts_S20000x128_S20000x4x32)
    (nodeIdxT i)

/-- The head weights [640000, 4]. -/
abbrev headWT (q w k : FVec F S640000x4x32 .f32) (cut : FVec F S640000 .f32) : FVec F S640000x4 .f32 :=
  mulf (mulf (Host.reduceAdd (mulf (mulf q w) k) (constant S_ .f32 0x00000000#32) reducesTo_S640000x4x32_S640000x4_d2 h_S_)
      (broadcastInDim S640000x4 ![] bcast_S_S640000x4 (constant S_ .f32 0x3E3504F3#32)))
    (broadcastInDim S640000x4 ![0, 1] bcast_S640000x1_S640000x4_0_1 (broadcastInDim S640000x1 ![0] bcast_S640000_S640000x1_0 cut))

/-! ## The table column → head, from the widths -/

/-- The widths 1, 3, 5, 7. -/
abbrev widths : IVec S4 32 := fun i => lit0 (S4.rowMajor i)
/-- Rotated by one: 7, 1, 3, 5. -/
abbrev rolled : IVec S4 32 :=
  concatenate S4 0 [⟨S1, extractStridedSlice S1 ![3] widths slices_S4_S1_3⟩, ⟨S3, extractStridedSlice S3 ![0] widths slices_S4_S3_0⟩]
    concatenates_S1_S3_S4_d0
/-- Its first entry zeroed: 0, 1, 3, 5. -/
abbrev shifted : IVec S4 32 :=
  Host.scatter scatter_S4_S1_S__n_0_0_0 (fun _ b => b) rolled (broadcastInDim S1 ![] bcast_S_S1 (constantI S_ 32 0#32)) (constantI S_ 32 0#32)
/-- Running sum: where each head's columns start, 0, 1, 4, 9. -/
abbrev starts : IVec S4 32 :=
  Host.reduceWindow IntOp.addi ![4] ![1] ![3] ![0] shifted (broadcastInDim S_ ![] bcast_S_S_ (constantI S_ 32 0#32))
    reduceWindows_S4_S4_w4s1p3_0 h_S_
/-- The starts as a column of scatter indices (a negative one counted from 16). -/
abbrev startsCol : IVec S4x1 32 :=
  broadcastInDim S4x1 ![0] bcast_S4_S4x1_0
    (select (cmpi .slt starts (broadcastInDim S4 ![] bcast_S_S4 (constantI S_ 32 0#32)))
      (addi starts (broadcastInDim S4 ![] bcast_S_S4 (constantI S_ 32 16#32))) starts)
/-- A one at every start among 16 zeros. -/
abbrev marks : IVec S16 32 :=
  Host.scatter scatter_S16_S4x1_S4_n_0_0_1 IntOp.addi (broadcastInDim S16 ![] bcast_S_S16 (constantI S_ 32 0#32)) startsCol
    (broadcastInDim S4 ![] bcast_S_S4 (constantI S_ 32 1#32))
/-- Running sum of the marks minus one: the head of every column. -/
abbrev heads : IVec S16 32 :=
  subi (Host.reduceWindow IntOp.addi ![16] ![1] ![15] ![0] marks (broadcastInDim S_ ![] bcast_S_S_ (constantI S_ 32 0#32))
      reduceWindows_S16_S16_w16s1p15_0 h_S_)
    (broadcastInDim S16 ![] bcast_S_S16 (constantI S_ 32 1#32))
/-- The heads with a negative one counted from 4. -/
abbrev headsW : IVec S16 32 :=
  select (cmpi .slt heads (broadcastInDim S16 ![] bcast_S_S16 (constantI S_ 32 0#32)))
    (addi heads (broadcastInDim S16 ![] bcast_S_S16 (constantI S_ 32 4#32))) heads
/-- As a column [16, 1]. -/
abbrev headsCol : IVec S16x1 32 := broadcastInDim S16x1 ![0] bcast_S16_S16x1_0 headsW
/-- Which columns' head lies in 0 … 3. -/
abbrev headsOk : IVec S16 1 :=
  Host.reduce IntOp.andi
    (andi (cmpi .sge headsCol (broadcastInDim S16x1 ![] bcast_S_S16x1 (constantI S_ 32 0#32)))
      (cmpi .sle headsCol (broadcastInDim S16x1 ![0, 1] bcast_S1x1_S16x1_0_1 (broadcastInDim S1x1 ![1] bcast_S1_S1x1_1 (constantI S1 32 3#32)))))
    (constantI S_ 1 1#1) reducesTo_S16x1_S16_d1 h_S_

/-- The head weights spread over the 16 columns, the fill value where a column's head would be out of range. -/
abbrev spreadT (a : FVec F S640000x4 .f32) : FVec F S640000x16 .f32 :=
  select (broadcastInDim S640000x16 ![1] bcast_S16_S640000x16_1 headsOk)
    (Host.gather gather_S640000x4_S16x1_S640000x16_0_1_n_n_1_1_6400001 a headsCol)
    (broadcastInDim S640000x16 ![] bcast_S_S640000x16 (constant S_ .f32 0x7FC00000#32))

/-- The message array [640000, 16] of the seventeen arguments. -/
abbrev msgT (esh : FVec F S640000x16 .f32) (nf : FVec F S20000x128 .f32) (ef cs : FVec F S640000x64 .f32) (cut : FVec F S640000 .f32)
    (snd rcv : IVec S640000 32) (Wr1 : FVec F S64x128 .f32) (br1 : FVec F S128 .f32) (Wr2 : FVec F S128x128 .f32) (br2 : FVec F S128 .f32)
    (Ws1 : FVec F S64x128 .f32) (bs1 : FVec F S128 .f32) (Ws2 : FVec F S128x128 .f32) (bs2 : FVec F S128 .f32)
    (Wq Wk : FVec F S128x128 .f32) : FVec F S640000x16 .f32 :=
  mulf esh (spreadT (headWT (endFeatT nf Wq rcv) (filtT ef cs Wr1 br1 Wr2 br2 Ws1 bs1 Ws2 bs2) (endFeatT nf Wk snd) cut))

/-- Summed into the receiving nodes and divided by 32: the result [20000, 16]. -/
abbrev tailT (msg : FVec F S640000x16 .f32) (rcv : IVec S640000 32) : FVec F S20000x16 .f32 :=
  Host.divf
    (Host.scatterAdd scatter_S20000x16_S640000x1_S640000x16_1_0_0_1
      (broadcastInDim S20000x16 ![] bcast_S_S20000x16 (constant S_ .f32 0x00000000#32))
      (broadcastInDim S640000x1 ![0] bcast_S640000_S640000x1_0 rcv) msg)
    (broadcastInDim S20000x16 ![] bcast_S_S20000x16 (constant S_ .f32 0x42000000#32))

end Cert.ReferenceIdeal.Term

end
-- ==== Proof.RefRun.lean ====
/-
  The reference program run: its @main is a straight line of host operations (the outlined functions' bodies in place
  of their calls), so every weakly fair execution terminates with each buffer at the operations' composed term of the
  launch contents. Read at the result buffer that term is the message array summed into the receiving nodes and divided
  by 32; the argument arrays are written by no operation.
-/
import proofs.«169250_j73469710566102_1_alg».proof.Proof.Gen.ReferenceIdeal
import proofs.«169250_j73469710566102_1_alg».proof.Proof.RefTerm
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- @main's 129 operations in order, every outlined function's lines in place of its call, over that call's buffers:
    the two filter networks (each a first layer, the nine lines of y · (1 / (1 + e^(−y))), a second layer), their sum
    as [640000, 4, 32]; the two projections of the node features gathered at the edges' end nodes; the 32 products
    summed per head, scaled, times the cutoff; the table column → head from the widths (rotate: three lines; zero
    the first entry; running sum: three lines; wrap; mark the starts; running sum: three lines; minus one); the
    take along that table (twenty-three lines, the select of its wrapped index among them); the product with the
    spherical-harmonic components; the sum into the receiving nodes; the division by 32. -/
abbrev ops : List (HloOp τ sig (Elt F)) :=
  [ nullary main_c (fun i => lit0 (S4.rowMajor i)),
    binary main_arg2 main_arg7 main_v0 ((fun l r => Host.dotGeneral dot_S640000x64_S64x128_S640000x128_1_0_0_1_n_n none l r) : (⟨S640000x64, .f32⟩ : BufTy).Contents (Elt F) → (⟨S64x128, .f32⟩ : BufTy).Contents (Elt F) → (⟨S640000x128, .f32⟩ : BufTy).Contents (Elt F)),
    unary main_arg8 main_v1 (broadcastInDim S1x128 ![1] bcast_S128_S1x128_1 : (⟨S128, .f32⟩ : BufTy).Contents (Elt F) → (⟨S1x128, .f32⟩ : BufTy).Contents (Elt F)),
    unary main_v1 main_v2 (broadcastInDim S640000x128 ![0, 1] bcast_S1x128_S640000x128_0_1 : (⟨S1x128, .f32⟩ : BufTy).Contents (Elt F) → (⟨S640000x128, .f32⟩ : BufTy).Contents (Elt F)),
    binary main_v0 main_v2 main_v3 (addf : (⟨S640000x128, .f32⟩ : BufTy).Contents (Elt F) → (⟨S640000x128, .f32⟩ : BufTy).Contents (Elt F) → (⟨S640000x128, .f32⟩ : BufTy).Contents (Elt F)),
    TRef.unary (.of main_v3 : TRef sig ⟨S640000x128, .f32⟩) main_call0.v0 Host.negf,
    TRef.unary main_call0.v0 main_call0.v1 Host.exp,
    TRef.nullary main_call0.cst (constant S_ .f32 0x3F800000#32),
    TRef.unary main_call0.cst main_call0.v2 (broadcastInDim S640000x128 ![] bcast_S_S640000x128),
    TRef.binary main_call0.v2 main_call0.v1 main_call0.v3 addf,
    TRef.nullary main_call0.cst_0 (constant S_ .f32 0x3F800000#32),
    TRef.unary main_call0.cst_0 main_call0.v4 (broadcastInDim S640000x128 ![] bcast_S_S640000x128),
    TRef.binary main_call0.v4 main_call0.v3 main_call0.v5 Host.divf,
    TRef.binary (.of main_v3 : TRef sig ⟨S640000x128, .f32⟩) main_call0.v5 main_call0.v6 mulf,
    binary main_v4 main_arg9 main_v5 ((fun l r => Host.dotGeneral dot_S640000x128_S128x128_S640000x128_1_0_0_1_n_n none l r) : (⟨S640000x128, .f32⟩ : BufTy).Contents (Elt F) → (⟨S128x128, .f32⟩ : BufTy).Contents (Elt F) → (⟨S640000x128, .f32⟩ : BufTy).Contents (Elt F)),
    unary main_arg10 main_v6 (broadcastInDim S1x128 ![1] bcast_S128_S1x128_1 : (⟨S128, .f32⟩ : BufTy).Contents (Elt F) → (⟨S1x128, .f32⟩ : BufTy).Contents (Elt F)),
    unary main_v6 main_v7 (broadcastInDim S640000x128 ![0, 1] bcast_S1x128_S640000x128_0_1 : (⟨S1x128, .f32⟩ : BufTy).Contents (Elt F) → (⟨S640000x128, .f32⟩ : BufTy).Contents (Elt F)),
    binary main_v5 main_v7 main_v8 (addf : (⟨S640000x128, .f32⟩ : BufTy).Contents (Elt F) → (⟨S640000x128, .f32⟩ : BufTy).Contents (Elt F) → (⟨S640000x128, .f32⟩ : BufTy).Contents (Elt F)),
    binary main_arg3 main_arg11 main_v9 ((fun l r => Host.dotGeneral dot_S640000x64_S64x128_S640000x128_1_0_0_1_n_n none l r) : (⟨S640000x64, .f32⟩ : BufTy).Contents (Elt F) → (⟨S64x128, .f32⟩ : BufTy).Contents (Elt F) → (⟨S640000x128, .f32⟩ : BufTy).Contents (Elt F)),
    unary main_arg12 main_v10 (broadcastInDim S1x128 ![1] bcast_S128_S1x128_1 : (⟨S128, .f32⟩ : BufTy).Contents (Elt F) → (⟨S1x128, .f32⟩ : BufTy).Contents (Elt F)),
    unary main_v10 main_v11 (broadcastInDim S640000x128 ![0, 1] bcast_S1x128_S640000x128_0_1 : (⟨S1x128, .f32⟩ : BufTy).Contents (Elt F) → (⟨S640000x128, .f32⟩ : BufTy).Contents (Elt F)),
    binary main_v9 main_v11 main_v12 (addf : (⟨S640000x128, .f32⟩ : BufTy).Contents (Elt F) → (⟨S640000x128, .f32⟩ : BufTy).Contents (Elt F) → (⟨S640000x128, .f32⟩ : BufTy).Contents (Elt F)),
    TRef.unary (.of main_v12 : TRef sig ⟨S640000x128, .f32⟩) main_call1.v0 Host.negf,
    TRef.unary main_call1.v0 main_call1.v1 Host.exp,
    TRef.nullary main_call1.cst (constant S_ .f32 0x3F800000#32),
    TRef.unary main_call1.cst main_call1.v2 (broadcastInDim S640000x128 ![] bcast_S_S640000x128),
    TRef.binary main_call1.v2 main_call1.v1 main_call1.v3 addf,
    TRef.nullary main_call1.cst_0 (constant S_ .f32 0x3F800000#32),
    TRef.unary main_call1.cst_0 main_call1.v4 (broadcastInDim S640000x128 ![] bcast_S_S640000x128),
    TRef.binary main_call1.v4 main_call1.v3 main_call1.v5 Host.divf,
    TRef.binary (.of main_v12 : TRef sig ⟨S640000x128, .f32⟩) main_call1.v5 main_call1.v6 mulf,
    binary main_v13 main_arg13 main_v14 ((fun l r => Host.dotGeneral dot_S640000x128_S128x128_S640000x128_1_0_0_1_n_n none l r) : (⟨S640000x128, .f32⟩ : BufTy).Contents (Elt F) → (⟨S128x128, .f32⟩ : BufTy).Contents (Elt F) → (⟨S640000x128, .f32⟩ : BufTy).Contents (Elt F)),
    unary main_arg14 main_v15 (broadcastInDim S1x128 ![1] bcast_S128_S1x128_1 : (⟨S128, .f32⟩ : BufTy).Contents (Elt F) → (⟨S1x128, .f32⟩ : BufTy).Contents (Elt F)),
    unary main_v15 main_v16 (broadcastInDim S640000x128 ![0, 1] bcast_S1x128_S640000x128_0_1 : (⟨S1x128, .f32⟩ : BufTy).Contents (Elt F) → (⟨S640000x128, .f32⟩ : BufTy).Contents (Elt F)),
    binary main_v14 main_v16 main_v17 (addf : (⟨S640000x128, .f32⟩ : BufTy).Contents (Elt F) → (⟨S640000x128, .f32⟩ : BufTy).Contents (Elt F) → (⟨S640000x128, .f32⟩ : BufTy).Contents (Elt F)),
    binary main_v8 main_v17 main_v18 (addf : (⟨S640000x128, .f32⟩ : BufTy).Contents (Elt F) → (⟨S640000x128, .f32⟩ : BufTy).Contents (Elt F) → (⟨S640000x128, .f32⟩ : BufTy).Contents (Elt F)),
    reshape main_v18 main_v19 rfl shapeCasts_S640000x128_S640000x4x32,
    binary main_arg1 main_arg15 main_v20 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    reshape main_v20 main_v21 rfl shapeCasts_S20000x128_S20000x4x32,
    nullary main_c_0 (constantI S_ 32 0#32),
    unary main_c_0 main_v22 (broadcastInDim S640000 ![] bcast_S_S640000 : (⟨S_, .i32⟩ : BufTy).Contents (Elt F) → (⟨S640000, .i32⟩ : BufTy).Contents (Elt F)),
    binary main_arg6 main_v22 main_v23 (cmpi .slt : (⟨S640000, .i32⟩ : BufTy).Contents (Elt F) → (⟨S640000, .i32⟩ : BufTy).Contents (Elt F) → (⟨S640000, .i1⟩ : BufTy).Contents (Elt F)),
    nullary main_c_1 (constantI S_ 32 20000#32),
    unary main_c_1 main_v24 (broadcastInDim S640000 ![] bcast_S_S640000 : (⟨S_, .i32⟩ : BufTy).Contents (Elt F) → (⟨S640000, .i32⟩ : BufTy).Contents (Elt F)),
    binary main_arg6 main_v24 main_v25 (addi : (⟨S640000, .i32⟩ : BufTy).Contents (Elt F) → (⟨S640000, .i32⟩ : BufTy).Contents (Elt F) → (⟨S640000, .i32⟩ : BufTy).Contents (Elt F)),
    ternary main_v23 main_v25 main_arg6 main_v26 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v26 main_v27 (broadcastInDim S640000x1 ![0] bcast_S640000_S640000x1_0 : (⟨S640000, .i32⟩ : BufTy).Contents (Elt F) → (⟨S640000x1, .i32⟩ : BufTy).Contents (Elt F)),
    binary main_v21 main_v27 main_v28 ((fun x i => Host.gather gather_S20000x4x32_S640000x1_S640000x4x32_12_0_n_n_0_1_1432 x i) : (⟨S20000x4x32, .f32⟩ : BufTy).Contents (Elt F) → (⟨S640000x1, .i32⟩ : BufTy).Contents (Elt F) → (⟨S640000x4x32, .f32⟩ : BufTy).Contents (Elt F)),
    binary main_arg1 main_arg16 main_v29 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    reshape main_v29 main_v30 rfl shapeCasts_S20000x128_S20000x4x32,
    nullary main_c_2 (constantI S_ 32 0#32),
    unary main_c_2 main_v31 (broadcastInDim S640000 ![] bcast_S_S640000 : (⟨S_, .i32⟩ : BufTy).Contents (Elt F) → (⟨S640000, .i32⟩ : BufTy).Contents (Elt F)),
    binary main_arg5 main_v31 main_v32 (cmpi .slt : (⟨S640000, .i32⟩ : BufTy).Contents (Elt F) → (⟨S640000, .i32⟩ : BufTy).Contents (Elt F) → (⟨S640000, .i1⟩ : BufTy).Contents (Elt F)),
    nullary main_c_3 (constantI S_ 32 20000#32),
    unary main_c_3 main_v33 (broadcastInDim S640000 ![] bcast_S_S640000 : (⟨S_, .i32⟩ : BufTy).Contents (Elt F) → (⟨S640000, .i32⟩ : BufTy).Contents (Elt F)),
    binary main_arg5 main_v33 main_v34 (addi : (⟨S640000, .i32⟩ : BufTy).Contents (Elt F) → (⟨S640000, .i32⟩ : BufTy).Contents (Elt F) → (⟨S640000, .i32⟩ : BufTy).Contents (Elt F)),
    ternary main_v32 main_v34 main_arg5 main_v35 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v35 main_v36 (broadcastInDim S640000x1 ![0] bcast_S640000_S640000x1_0 : (⟨S640000, .i32⟩ : BufTy).Contents (Elt F) → (⟨S640000x1, .i32⟩ : BufTy).Contents (Elt F)),
    binary main_v30 main_v36 main_v37 ((fun x i => Host.gather gather_S20000x4x32_S640000x1_S640000x4x32_12_0_n_n_0_1_1432 x i) : (⟨S20000x4x32, .f32⟩ : BufTy).Contents (Elt F) → (⟨S640000x1, .i32⟩ : BufTy).Contents (Elt F) → (⟨S640000x4x32, .f32⟩ : BufTy).Contents (Elt F)),
    binary main_v28 main_v19 main_v38 (mulf : (⟨S640000x4x32, .f32⟩ : BufTy).Contents (Elt F) → (⟨S640000x4x32, .f32⟩ : BufTy).Contents (Elt F) → (⟨S640000x4x32, .f32⟩ : BufTy).Contents (Elt F)),
    binary main_v38 main_v37 main_v39 (mulf : (⟨S640000x4x32, .f32⟩ : BufTy).Contents (Elt F) → (⟨S640000x4x32, .f32⟩ : BufTy).Contents (Elt F) → (⟨S640000x4x32, .f32⟩ : BufTy).Contents (Elt F)),
    nullary main_cst (constant S_ .f32 0x00000000#32),
    binary main_v39 main_cst main_v40 ((fun x v => Host.reduceAdd x v reducesTo_S640000x4x32_S640000x4_d2 h_S_) : (⟨S640000x4x32, .f32⟩ : BufTy).Contents (Elt F) → (⟨S_, .f32⟩ : BufTy).Contents (Elt F) → (⟨S640000x4, .f32⟩ : BufTy).Contents (Elt F)),
    nullary main_cst_4 (constant S_ .f32 0x3E3504F3#32),
    unary main_cst_4 main_v41 (broadcastInDim S640000x4 ![] bcast_S_S640000x4 : (⟨S_, .f32⟩ : BufTy).Contents (Elt F) → (⟨S640000x4, .f32⟩ : BufTy).Contents (Elt F)),
    binary main_v40 main_v41 main_v42 (mulf : (⟨S640000x4, .f32⟩ : BufTy).Contents (Elt F) → (⟨S640000x4, .f32⟩ : BufTy).Contents (Elt F) → (⟨S640000x4, .f32⟩ : BufTy).Contents (Elt F)),
    unary main_arg4 main_v43 (broadcastInDim S640000x1 ![0] bcast_S640000_S640000x1_0 : (⟨S640000, .f32⟩ : BufTy).Contents (Elt F) → (⟨S640000x1, .f32⟩ : BufTy).Contents (Elt F)),
    unary main_v43 main_v44 (broadcastInDim S640000x4 ![0, 1] bcast_S640000x1_S640000x4_0_1 : (⟨S640000x1, .f32⟩ : BufTy).Contents (Elt F) → (⟨S640000x4, .f32⟩ : BufTy).Contents (Elt F)),
    binary main_v42 main_v44 main_v45 (mulf : (⟨S640000x4, .f32⟩ : BufTy).Contents (Elt F) → (⟨S640000x4, .f32⟩ : BufTy).Contents (Elt F) → (⟨S640000x4, .f32⟩ : BufTy).Contents (Elt F)),
    TRef.unary (.of main_c : TRef sig ⟨S4, .i32⟩) main_call2.v0 (extractStridedSlice S1 ![3] · slices_S4_S1_3),
    TRef.unary (.of main_c : TRef sig ⟨S4, .i32⟩) main_call2.v1 (extractStridedSlice S3 ![0] · slices_S4_S3_0),
    TRef.binary main_call2.v0 main_call2.v1 main_call2.v2 (fun a b => concatenate S4 0 [⟨S1, a⟩, ⟨S3, b⟩] concatenates_S1_S3_S4_d0),
    nullary main_c_5 (constantI S_ 32 0#32),
    unary main_c_5 main_v47 (broadcastInDim S1 ![] bcast_S_S1 : (⟨S_, .i32⟩ : BufTy).Contents (Elt F) → (⟨S1, .i32⟩ : BufTy).Contents (Elt F)),
    nullary main_c_6 (constantI S_ 32 0#32),
    ternary main_v46 main_v47 main_c_6 main_v48 ((fun x i u => Host.scatter scatter_S4_S1_S__n_0_0_0 (fun _ b => b) x i u) : (⟨S4, .i32⟩ : BufTy).Contents (Elt F) → (⟨S1, .i32⟩ : BufTy).Contents (Elt F) → (⟨S_, .i32⟩ : BufTy).Contents (Elt F) → (⟨S4, .i32⟩ : BufTy).Contents (Elt F)),
    TRef.nullary main_call3.call0.c (constantI S_ 32 0#32),
    TRef.unary main_call3.call0.c main_call3.call0.v0 (broadcastInDim S_ ![] bcast_S_S_),
    TRef.binary (.of main_v48 : TRef sig ⟨S4, .i32⟩) main_call3.call0.v0 main_call3.call0.v1 (fun x v => Host.reduceWindow IntOp.addi ![4] ![1] ![3] ![0] x v reduceWindows_S4_S4_w4s1p3_0 h_S_),
    nullary main_c_7 (constantI S_ 32 0#32),
    unary main_c_7 main_v50 (broadcastInDim S16 ![] bcast_S_S16 : (⟨S_, .i32⟩ : BufTy).Contents (Elt F) → (⟨S16, .i32⟩ : BufTy).Contents (Elt F)),
    nullary main_c_8 (constantI S_ 32 0#32),
    unary main_c_8 main_v51 (broadcastInDim S4 ![] bcast_S_S4 : (⟨S_, .i32⟩ : BufTy).Contents (Elt F) → (⟨S4, .i32⟩ : BufTy).Contents (Elt F)),
    binary main_v49 main_v51 main_v52 (cmpi .slt : (⟨S4, .i32⟩ : BufTy).Contents (Elt F) → (⟨S4, .i32⟩ : BufTy).Contents (Elt F) → (⟨S4, .i1⟩ : BufTy).Contents (Elt F)),
    nullary main_c_9 (constantI S_ 32 16#32),
    unary main_c_9 main_v53 (broadcastInDim S4 ![] bcast_S_S4 : (⟨S_, .i32⟩ : BufTy).Contents (Elt F) → (⟨S4, .i32⟩ : BufTy).Contents (Elt F)),
    binary main_v49 main_v53 main_v54 (addi : (⟨S4, .i32⟩ : BufTy).Contents (Elt F) → (⟨S4, .i32⟩ : BufTy).Contents (Elt F) → (⟨S4, .i32⟩ : BufTy).Contents (Elt F)),
    ternary main_v52 main_v54 main_v49 main_v55 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    unary main_v55 main_v56 (broadcastInDim S4x1 ![0] bcast_S4_S4x1_0 : (⟨S4, .i32⟩ : BufTy).Contents (Elt F) → (⟨S4x1, .i32⟩ : BufTy).Contents (Elt F)),
    nullary main_c_10 (constantI S_ 32 1#32),
    unary main_c_10 main_v57 (broadcastInDim S4 ![] bcast_S_S4 : (⟨S_, .i32⟩ : BufTy).Contents (Elt F) → (⟨S4, .i32⟩ : BufTy).Contents (Elt F)),
    ternary main_v50 main_v56 main_v57 main_v58 ((fun x i u => Host.scatter scatter_S16_S4x1_S4_n_0_0_1 IntOp.addi x i u) : (⟨S16, .i32⟩ : BufTy).Contents (Elt F) → (⟨S4x1, .i32⟩ : BufTy).Contents (Elt F) → (⟨S4, .i32⟩ : BufTy).Contents (Elt F) → (⟨S16, .i32⟩ : BufTy).Contents (Elt F)),
    TRef.nullary main_call4.call0.c (constantI S_ 32 0#32),
    TRef.unary main_call4.call0.c main_call4.call0.v0 (broadcastInDim S_ ![] bcast_S_S_),
    TRef.binary (.of main_v58 : TRef sig ⟨S16, .i32⟩) main_call4.call0.v0 main_call4.call0.v1 (fun x v => Host.reduceWindow IntOp.addi ![16] ![1] ![15] ![0] x v reduceWindows_S16_S16_w16s1p15_0 h_S_),
    nullary main_c_11 (constantI S_ 32 1#32),
    unary main_c_11 main_v60 (broadcastInDim S16 ![] bcast_S_S16 : (⟨S_, .i32⟩ : BufTy).Contents (Elt F) → (⟨S16, .i32⟩ : BufTy).Contents (Elt F)),
    binary main_v59 main_v60 main_v61 (subi : (⟨S16, .i32⟩ : BufTy).Contents (Elt F) → (⟨S16, .i32⟩ : BufTy).Contents (Elt F) → (⟨S16, .i32⟩ : BufTy).Contents (Elt F)),
    TRef.nullary main_call5.c (constantI S_ 32 0#32),
    TRef.unary main_call5.c main_call5.v0 (broadcastInDim S16 ![] bcast_S_S16),
    TRef.binary (.of main_v61 : TRef sig ⟨S16, .i32⟩) main_call5.v0 main_call5.v1 (cmpi .slt),
    TRef.nullary main_call5.c_0 (constantI S_ 32 4#32),
    TRef.unary main_call5.c_0 main_call5.v2 (broadcastInDim S16 ![] bcast_S_S16),
    TRef.binary (.of main_v61 : TRef sig ⟨S16, .i32⟩) main_call5.v2 main_call5.v3 addi,
    TRef.ternary main_call5.v1 main_call5.v3 (.of main_v61 : TRef sig ⟨S16, .i32⟩) main_call5.call0.v0 select,
    TRef.unary main_call5.call0.v0 main_call5.v5 (broadcastInDim S16x1 ![0] bcast_S16_S16x1_0),
    TRef.nullary main_call5.c_1 (constantI S1 32 3#32),
    TRef.nullary main_call5.c_2 (constantI S_ 32 0#32),
    TRef.unary main_call5.c_2 main_call5.v6 (broadcastInDim S16x1 ![] bcast_S_S16x1),
    TRef.binary main_call5.v5 main_call5.v6 main_call5.v7 (cmpi .sge),
    TRef.unary main_call5.c_1 main_call5.v8 (broadcastInDim S1x1 ![1] bcast_S1_S1x1_1),
    TRef.unary main_call5.v8 main_call5.v9 (broadcastInDim S16x1 ![0, 1] bcast_S1x1_S16x1_0_1),
    TRef.binary main_call5.v5 main_call5.v9 main_call5.v10 (cmpi .sle),
    TRef.binary main_call5.v7 main_call5.v10 main_call5.v11 andi,
    TRef.nullary main_call5.c_3 (constantI S_ 1 1#1),
    TRef.binary main_call5.v11 main_call5.c_3 main_call5.v12 (fun x v => Host.reduce IntOp.andi x v reducesTo_S16x1_S16_d1 h_S_),
    TRef.binary (.of main_v45 : TRef sig ⟨S640000x4, .f32⟩) main_call5.v5 main_call5.v13 (fun x i => Host.gather gather_S640000x4_S16x1_S640000x16_0_1_n_n_1_1_6400001 x i),
    TRef.unary main_call5.v12 main_call5.v14 (broadcastInDim S640000x16 ![1] bcast_S16_S640000x16_1),
    TRef.nullary main_call5.cst (constant S_ .f32 0x7FC00000#32),
    TRef.unary main_call5.cst main_call5.v15 (broadcastInDim S640000x16 ![] bcast_S_S640000x16),
    TRef.ternary main_call5.v14 main_call5.v13 main_call5.v15 main_call5.v16 select,
    binary main_arg0 main_v62 main_v63 (mulf : (⟨S640000x16, .f32⟩ : BufTy).Contents (Elt F) → (⟨S640000x16, .f32⟩ : BufTy).Contents (Elt F) → (⟨S640000x16, .f32⟩ : BufTy).Contents (Elt F)),
    nullary main_cst_12 (constant S_ .f32 0x00000000#32),
    unary main_cst_12 main_v64 (broadcastInDim S20000x16 ![] bcast_S_S20000x16 : (⟨S_, .f32⟩ : BufTy).Contents (Elt F) → (⟨S20000x16, .f32⟩ : BufTy).Contents (Elt F)),
    unary main_arg6 main_v65 (broadcastInDim S640000x1 ![0] bcast_S640000_S640000x1_0 : (⟨S640000, .i32⟩ : BufTy).Contents (Elt F) → (⟨S640000x1, .i32⟩ : BufTy).Contents (Elt F)),
    ternary main_v64 main_v65 main_v63 main_v66 ((fun x i u => Host.scatterAdd scatter_S20000x16_S640000x1_S640000x16_1_0_0_1 x i u) : (⟨S20000x16, .f32⟩ : BufTy).Contents (Elt F) → (⟨S640000x1, .i32⟩ : BufTy).Contents (Elt F) → (⟨S640000x16, .f32⟩ : BufTy).Contents (Elt F) → (⟨S20000x16, .f32⟩ : BufTy).Contents (Elt F)),
    nullary main_cst_13 (constant S_ .f32 0x42000000#32),
    unary main_cst_13 main_v67 (broadcastInDim S20000x16 ![] bcast_S_S20000x16 : (⟨S_, .f32⟩ : BufTy).Contents (Elt F) → (⟨S20000x16, .f32⟩ : BufTy).Contents (Elt F)),
    binary main_v66 main_v67 main_v68 (Host.divf : (⟨S20000x16, .f32⟩ : BufTy).Contents (Elt F) → (⟨S20000x16, .f32⟩ : BufTy).Contents (Elt F) → (⟨S20000x16, .f32⟩ : BufTy).Contents (Elt F)) ]

-- one hundred and twenty-nine binds re-associated: the rewrite under the chain recurses once per statement
set_option maxRecDepth 4096 in
/-- @main is that straight line: the two windows in order, the functions' definitions unfolded at their calls and the
    records at their fields; both sides are one chain of steps once sequencing is reassociated. -/
theorem main_eq (c : Dev nD) : main (F := F) c = seq ops := by
  simp only [main, main_part0, main_part1, fn_silu.body, fn_roll_static.body, fn_cumsum.body, fn_cumsum_0.body,
    fn_cumsum_1.body, fn_cumsum_2.body, fn_take.body, fn_where.body, seq, bind_assoc, pure_bind]

/-! ## The result buffer's contents

@main's operations again as six consecutive stretches. -/

/-- The widths; the two filter networks (each a first layer, the nine lines of y · (1 / (1 + e^(−y))), a second layer),
    their sum, as [640000, 4, 32]: 37 operations. -/
abbrev opsA : List (HloOp τ sig (Elt F)) :=
  [ nullary main_c (fun i => lit0 (S4.rowMajor i)),
    binary main_arg2 main_arg7 main_v0 ((fun l r => Host.dotGeneral dot_S640000x64_S64x128_S640000x128_1_0_0_1_n_n none l r) : (⟨S640000x64, .f32⟩ : BufTy).Contents (Elt F) → (⟨S64x128, .f32⟩ : BufTy).Contents (Elt F) → (⟨S640000x128, .f32⟩ : BufTy).Contents (Elt F)),
    unary main_arg8 main_v1 (broadcastInDim S1x128 ![1] bcast_S128_S1x128_1 : (⟨S128, .f32⟩ : BufTy).Contents (Elt F) → (⟨S1x128, .f32⟩ : BufTy).Contents (Elt F)),
    unary main_v1 main_v2 (broadcastInDim S640000x128 ![0, 1] bcast_S1x128_S640000x128_0_1 : (⟨S1x128, .f32⟩ : BufTy).Contents (Elt F) → (⟨S640000x128, .f32⟩ : BufTy).Contents (Elt F)),
    binary main_v0 main_v2 main_v3 (addf : (⟨S640000x128, .f32⟩ : BufTy).Contents (Elt F) → (⟨S640000x128, .f32⟩ : BufTy).Contents (Elt F) → (⟨S640000x128, .f32⟩ : BufTy).Contents (Elt F)),
    TRef.unary (.of main_v3 : TRef sig ⟨S640000x128, .f32⟩) main_call0.v0 Host.negf,
    TRef.unary main_call0.v0 main_call0.v1 Host.exp,
    TRef.nullary main_call0.cst (constant S_ .f32 0x3F800000#32),
    TRef.unary main_call0.cst main_call0.v2 (broadcastInDim S640000x128 ![] bcast_S_S640000x128),
    TRef.binary main_call0.v2 main_call0.v1 main_call0.v3 addf,
    TRef.nullary main_call0.cst_0 (constant S_ .f32 0x3F800000#32),
    TRef.unary main_call0.cst_0 main_call0.v4 (broadcastInDim S640000x128 ![] bcast_S_S640000x128),
    TRef.binary main_call0.v4 main_call0.v3 main_call0.v5 Host.divf,
    TRef.binary (.of main_v3 : TRef sig ⟨S640000x128, .f32⟩) main_call0.v5 main_call0.v6 mulf,
    binary main_v4 main_arg9 main_v5 ((fun l r => Host.dotGeneral dot_S640000x128_S128x128_S640000x128_1_0_0_1_n_n none l r) : (⟨S640000x128, .f32⟩ : BufTy).Contents (Elt F) → (⟨S128x128, .f32⟩ : BufTy).Contents (Elt F) → (⟨S640000x128, .f32⟩ : BufTy).Contents (Elt F)),
    unary main_arg10 main_v6 (broadcastInDim S1x128 ![1] bcast_S128_S1x128_1 : (⟨S128, .f32⟩ : BufTy).Contents (Elt F) → (⟨S1x128, .f32⟩ : BufTy).Contents (Elt F)),
    unary main_v6 main_v7 (broadcastInDim S640000x128 ![0, 1] bcast_S1x128_S640000x128_0_1 : (⟨S1x128, .f32⟩ : BufTy).Contents (Elt F) → (⟨S640000x128, .f32⟩ : BufTy).Contents (Elt F)),
    binary main_v5 main_v7 main_v8 (addf : (⟨S640000x128, .f32⟩ : BufTy).Contents (Elt F) → (⟨S640000x128, .f32⟩ : BufTy).Contents (Elt F) → (⟨S640000x128, .f32⟩ : BufTy).Contents (Elt F)),
    binary main_arg3 main_arg11 main_v9 ((fun l r => Host.dotGeneral dot_S640000x64_S64x128_S640000x128_1_0_0_1_n_n none l r) : (⟨S640000x64, .f32⟩ : BufTy).Contents (Elt F) → (⟨S64x128, .f32⟩ : BufTy).Contents (Elt F) → (⟨S640000x128, .f32⟩ : BufTy).Contents (Elt F)),
    unary main_arg12 main_v10 (broadcastInDim S1x128 ![1] bcast_S128_S1x128_1 : (⟨S128, .f32⟩ : BufTy).Contents (Elt F) → (⟨S1x128, .f32⟩ : BufTy).Contents (Elt F)),
    unary main_v10 main_v11 (broadcastInDim S640000x128 ![0, 1] bcast_S1x128_S640000x128_0_1 : (⟨S1x128, .f32⟩ : BufTy).Contents (Elt F) → (⟨S640000x128, .f32⟩ : BufTy).Contents (Elt F)),
    binary main_v9 main_v11 main_v12 (addf : (⟨S640000x128, .f32⟩ : BufTy).Contents (Elt F) → (⟨S640000x128, .f32⟩ : BufTy).Contents (Elt F) → (⟨S640000x128, .f32⟩ : BufTy).Contents (Elt F)),
    TRef.unary (.of main_v12 : TRef sig ⟨S640000x128, .f32⟩) main_call1.v0 Host.negf,
    TRef.unary main_call1.v0 main_call1.v1 Host.exp,
    TRef.nullary main_call1.cst (constant S_ .f32 0x3F800000#32),
    TRef.unary main_call1.cst main_call1.v2 (broadcastInDim S640000x128 ![] bcast_S_S640000x128),
    TRef.binary main_call1.v2 main_call1.v1 main_call1.v3 addf,
    TRef.nullary main_call1.cst_0 (constant S_ .f32 0x3F800000#32),
    TRef.unary main_call1.cst_0 main_call1.v4 (broadcastInDim S640000x128 ![] bcast_S_S640000x128),
    TRef.binary main_call1.v4 main_call1.v3 main_call1.v5 Host.divf,
    TRef.binary (.of main_v12 : TRef sig ⟨S640000x128, .f32⟩) main_call1.v5 main_call1.v6 mulf,
    binary main_v13 main_arg13 main_v14 ((fun l r => Host.dotGeneral dot_S640000x128_S128x128_S640000x128_1_0_0_1_n_n none l r) : (⟨S640000x128, .f32⟩ : BufTy).Contents (Elt F) → (⟨S128x128, .f32⟩ : BufTy).Contents (Elt F) → (⟨S640000x128, .f32⟩ : BufTy).Contents (Elt F)),
    unary main_arg14 main_v15 (broadcastInDim S1x128 ![1] bcast_S128_S1x128_1 : (⟨S128, .f32⟩ : BufTy).Contents (Elt F) → (⟨S1x128, .f32⟩ : BufTy).Contents (Elt F)),
    unary main_v15 main_v16 (broadcastInDim S640000x128 ![0, 1] bcast_S1x128_S640000x128_0_1 : (⟨S1x128, .f32⟩ : BufTy).Contents (Elt F) → (⟨S640000x128, .f32⟩ : BufTy).Contents (Elt F)),
    binary main_v14 main_v16 main_v17 (addf : (⟨S640000x128, .f32⟩ : BufTy).Contents (Elt F) → (⟨S640000x128, .f32⟩ : BufTy).Contents (Elt F) → (⟨S640000x128, .f32⟩ : BufTy).Contents (Elt F)),
    binary main_v8 main_v17 main_v18 (addf : (⟨S640000x128, .f32⟩ : BufTy).Contents (Elt F) → (⟨S640000x128, .f32⟩ : BufTy).Contents (Elt F) → (⟨S640000x128, .f32⟩ : BufTy).Contents (Elt F)),
    reshape main_v18 main_v19 rfl shapeCasts_S640000x128_S640000x4x32 ]

/-- The two projections of the node features gathered at the edges' end nodes; the 32 products summed per head,
    scaled, times the cutoff: 32 operations. -/
abbrev opsB : List (HloOp τ sig (Elt F)) :=
  [ binary main_arg1 main_arg15 main_v20 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    reshape main_v20 main_v21 rfl shapeCasts_S20000x128_S20000x4x32,
    nullary main_c_0 (constantI S_ 32 0#32),
    unary main_c_0 main_v22 (broadcastInDim S640000 ![] bcast_S_S640000 : (⟨S_, .i32⟩ : BufTy).Contents (Elt F) → (⟨S640000, .i32⟩ : BufTy).Contents (Elt F)),
    binary main_arg6 main_v22 main_v23 (cmpi .slt : (⟨S640000, .i32⟩ : BufTy).Contents (Elt F) → (⟨S640000, .i32⟩ : BufTy).Contents (Elt F) → (⟨S640000, .i1⟩ : BufTy).Contents (Elt F)),
    nullary main_c_1 (constantI S_ 32 20000#32),
    unary main_c_1 main_v24 (broadcastInDim S640000 ![] bcast_S_S640000 : (⟨S_, .i32⟩ : BufTy).Contents (Elt F) → (⟨S640000, .i32⟩ : BufTy).Contents (Elt F)),
    binary main_arg6 main_v24 main_v25 (addi : (⟨S640000, .i32⟩ : BufTy).Contents (Elt F) → (⟨S640000, .i32⟩ : BufTy).Contents (Elt F) → (⟨S640000, .i32⟩ : BufTy).Contents (Elt F)),
    ternary main_v23 main_v25 main_arg6 main_v26 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v26 main_v27 (broadcastInDim S640000x1 ![0] bcast_S640000_S640000x1_0 : (⟨S640000, .i32⟩ : BufTy).Contents (Elt F) → (⟨S640000x1, .i32⟩ : BufTy).Contents (Elt F)),
    binary main_v21 main_v27 main_v28 ((fun x i => Host.gather gather_S20000x4x32_S640000x1_S640000x4x32_12_0_n_n_0_1_1432 x i) : (⟨S20000x4x32, .f32⟩ : BufTy).Contents (Elt F) → (⟨S640000x1, .i32⟩ : BufTy).Contents (Elt F) → (⟨S640000x4x32, .f32⟩ : BufTy).Contents (Elt F)),
    binary main_arg1 main_arg16 main_v29 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    reshape main_v29 main_v30 rfl shapeCasts_S20000x128_S20000x4x32,
    nullary main_c_2 (constantI S_ 32 0#32),
    unary main_c_2 main_v31 (broadcastInDim S640000 ![] bcast_S_S640000 : (⟨S_, .i32⟩ : BufTy).Contents (Elt F) → (⟨S640000, .i32⟩ : BufTy).Contents (Elt F)),
    binary main_arg5 main_v31 main_v32 (cmpi .slt : (⟨S640000, .i32⟩ : BufTy).Contents (Elt F) → (⟨S640000, .i32⟩ : BufTy).Contents (Elt F) → (⟨S640000, .i1⟩ : BufTy).Contents (Elt F)),
    nullary main_c_3 (constantI S_ 32 20000#32),
    unary main_c_3 main_v33 (broadcastInDim S640000 ![] bcast_S_S640000 : (⟨S_, .i32⟩ : BufTy).Contents (Elt F) → (⟨S640000, .i32⟩ : BufTy).Contents (Elt F)),
    binary main_arg5 main_v33 main_v34 (addi : (⟨S640000, .i32⟩ : BufTy).Contents (Elt F) → (⟨S640000, .i32⟩ : BufTy).Contents (Elt F) → (⟨S640000, .i32⟩ : BufTy).Contents (Elt F)),
    ternary main_v32 main_v34 main_arg5 main_v35 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v35 main_v36 (broadcastInDim S640000x1 ![0] bcast_S640000_S640000x1_0 : (⟨S640000, .i32⟩ : BufTy).Contents (Elt F) → (⟨S640000x1, .i32⟩ : BufTy).Contents (Elt F)),
    binary main_v30 main_v36 main_v37 ((fun x i => Host.gather gather_S20000x4x32_S640000x1_S640000x4x32_12_0_n_n_0_1_1432 x i) : (⟨S20000x4x32, .f32⟩ : BufTy).Contents (Elt F) → (⟨S640000x1, .i32⟩ : BufTy).Contents (Elt F) → (⟨S640000x4x32, .f32⟩ : BufTy).Contents (Elt F)),
    binary main_v28 main_v19 main_v38 (mulf : (⟨S640000x4x32, .f32⟩ : BufTy).Contents (Elt F) → (⟨S640000x4x32, .f32⟩ : BufTy).Contents (Elt F) → (⟨S640000x4x32, .f32⟩ : BufTy).Contents (Elt F)),
    binary main_v38 main_v37 main_v39 (mulf : (⟨S640000x4x32, .f32⟩ : BufTy).Contents (Elt F) → (⟨S640000x4x32, .f32⟩ : BufTy).Contents (Elt F) → (⟨S640000x4x32, .f32⟩ : BufTy).Contents (Elt F)),
    nullary main_cst (constant S_ .f32 0x00000000#32),
    binary main_v39 main_cst main_v40 ((fun x v => Host.reduceAdd x v reducesTo_S640000x4x32_S640000x4_d2 h_S_) : (⟨S640000x4x32, .f32⟩ : BufTy).Contents (Elt F) → (⟨S_, .f32⟩ : BufTy).Contents (Elt F) → (⟨S640000x4, .f32⟩ : BufTy).Contents (Elt F)),
    nullary main_cst_4 (constant S_ .f32 0x3E3504F3#32),
    unary main_cst_4 main_v41 (broadcastInDim S640000x4 ![] bcast_S_S640000x4 : (⟨S_, .f32⟩ : BufTy).Contents (Elt F) → (⟨S640000x4, .f32⟩ : BufTy).Contents (Elt F)),
    binary main_v40 main_v41 main_v42 (mulf : (⟨S640000x4, .f32⟩ : BufTy).Contents (Elt F) → (⟨S640000x4, .f32⟩ : BufTy).Contents (Elt F) → (⟨S640000x4, .f32⟩ : BufTy).Contents (Elt F)),
    unary main_arg4 main_v43 (broadcastInDim S640000x1 ![0] bcast_S640000_S640000x1_0 : (⟨S640000, .f32⟩ : BufTy).Contents (Elt F) → (⟨S640000x1, .f32⟩ : BufTy).Contents (Elt F)),
    unary main_v43 main_v44 (broadcastInDim S640000x4 ![0, 1] bcast_S640000x1_S640000x4_0_1 : (⟨S640000x1, .f32⟩ : BufTy).Contents (Elt F) → (⟨S640000x4, .f32⟩ : BufTy).Contents (Elt F)),
    binary main_v42 main_v44 main_v45 (mulf : (⟨S640000x4, .f32⟩ : BufTy).Contents (Elt F) → (⟨S640000x4, .f32⟩ : BufTy).Contents (Elt F) → (⟨S640000x4, .f32⟩ : BufTy).Contents (Elt F)) ]

/-- The last width and the first three, sliced off: 2 operations. -/
abbrev opsC1 : List (HloOp τ sig (Elt F)) :=
  [ TRef.unary (.of main_c : TRef sig ⟨S4, .i32⟩) main_call2.v0 (extractStridedSlice S1 ![3] · slices_S4_S1_3),
    TRef.unary (.of main_c : TRef sig ⟨S4, .i32⟩) main_call2.v1 (extractStridedSlice S3 ![0] · slices_S4_S3_0) ]

/-- The table column → head from those two slices (joined: the widths rotated; the first entry zeroed; running sum:
    three lines; wrap; mark the starts; running sum: three lines; minus one): 27 operations. -/
abbrev opsC2 : List (HloOp τ sig (Elt F)) :=
  [ TRef.binary main_call2.v0 main_call2.v1 main_call2.v2 (fun a b => concatenate S4 0 [⟨S1, a⟩, ⟨S3, b⟩] concatenates_S1_S3_S4_d0),
    nullary main_c_5 (constantI S_ 32 0#32),
    unary main_c_5 main_v47 (broadcastInDim S1 ![] bcast_S_S1 : (⟨S_, .i32⟩ : BufTy).Contents (Elt F) → (⟨S1, .i32⟩ : BufTy).Contents (Elt F)),
    nullary main_c_6 (constantI S_ 32 0#32),
    ternary main_v46 main_v47 main_c_6 main_v48 ((fun x i u => Host.scatter scatter_S4_S1_S__n_0_0_0 (fun _ b => b) x i u) : (⟨S4, .i32⟩ : BufTy).Contents (Elt F) → (⟨S1, .i32⟩ : BufTy).Contents (Elt F) → (⟨S_, .i32⟩ : BufTy).Contents (Elt F) → (⟨S4, .i32⟩ : BufTy).Contents (Elt F)),
    TRef.nullary main_call3.call0.c (constantI S_ 32 0#32),
    TRef.unary main_call3.call0.c main_call3.call0.v0 (broadcastInDim S_ ![] bcast_S_S_),
    TRef.binary (.of main_v48 : TRef sig ⟨S4, .i32⟩) main_call3.call0.v0 main_call3.call0.v1 (fun x v => Host.reduceWindow IntOp.addi ![4] ![1] ![3] ![0] x v reduceWindows_S4_S4_w4s1p3_0 h_S_),
    nullary main_c_7 (constantI S_ 32 0#32),
    unary main_c_7 main_v50 (broadcastInDim S16 ![] bcast_S_S16 : (⟨S_, .i32⟩ : BufTy).Contents (Elt F) → (⟨S16, .i32⟩ : BufTy).Contents (Elt F)),
    nullary main_c_8 (constantI S_ 32 0#32),
    unary main_c_8 main_v51 (broadcastInDim S4 ![] bcast_S_S4 : (⟨S_, .i32⟩ : BufTy).Contents (Elt F) → (⟨S4, .i32⟩ : BufTy).Contents (Elt F)),
    binary main_v49 main_v51 main_v52 (cmpi .slt : (⟨S4, .i32⟩ : BufTy).Contents (Elt F) → (⟨S4, .i32⟩ : BufTy).Contents (Elt F) → (⟨S4, .i1⟩ : BufTy).Contents (Elt F)),
    nullary main_c_9 (constantI S_ 32 16#32),
    unary main_c_9 main_v53 (broadcastInDim S4 ![] bcast_S_S4 : (⟨S_, .i32⟩ : BufTy).Contents (Elt F) → (⟨S4, .i32⟩ : BufTy).Contents (Elt F)),
    binary main_v49 main_v53 main_v54 (addi : (⟨S4, .i32⟩ : BufTy).Contents (Elt F) → (⟨S4, .i32⟩ : BufTy).Contents (Elt F) → (⟨S4, .i32⟩ : BufTy).Contents (Elt F)),
    ternary main_v52 main_v54 main_v49 main_v55 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    unary main_v55 main_v56 (broadcastInDim S4x1 ![0] bcast_S4_S4x1_0 : (⟨S4, .i32⟩ : BufTy).Contents (Elt F) → (⟨S4x1, .i32⟩ : BufTy).Contents (Elt F)),
    nullary main_c_10 (constantI S_ 32 1#32),
    unary main_c_10 main_v57 (broadcastInDim S4 ![] bcast_S_S4 : (⟨S_, .i32⟩ : BufTy).Contents (Elt F) → (⟨S4, .i32⟩ : BufTy).Contents (Elt F)),
    ternary main_v50 main_v56 main_v57 main_v58 ((fun x i u => Host.scatter scatter_S16_S4x1_S4_n_0_0_1 IntOp.addi x i u) : (⟨S16, .i32⟩ : BufTy).Contents (Elt F) → (⟨S4x1, .i32⟩ : BufTy).Contents (Elt F) → (⟨S4, .i32⟩ : BufTy).Contents (Elt F) → (⟨S16, .i32⟩ : BufTy).Contents (Elt F)),
    TRef.nullary main_call4.call0.c (constantI S_ 32 0#32),
    TRef.unary main_call4.call0.c main_call4.call0.v0 (broadcastInDim S_ ![] bcast_S_S_),
    TRef.binary (.of main_v58 : TRef sig ⟨S16, .i32⟩) main_call4.call0.v0 main_call4.call0.v1 (fun x v => Host.reduceWindow IntOp.addi ![16] ![1] ![15] ![0] x v reduceWindows_S16_S16_w16s1p15_0 h_S_),
    nullary main_c_11 (constantI S_ 32 1#32),
    unary main_c_11 main_v60 (broadcastInDim S16 ![] bcast_S_S16 : (⟨S_, .i32⟩ : BufTy).Contents (Elt F) → (⟨S16, .i32⟩ : BufTy).Contents (Elt F)),
    binary main_v59 main_v60 main_v61 (subi : (⟨S16, .i32⟩ : BufTy).Contents (Elt F) → (⟨S16, .i32⟩ : BufTy).Contents (Elt F) → (⟨S16, .i32⟩ : BufTy).Contents (Elt F)) ]

/-- The take along that table (the select of its wrapped index among its lines): 23 operations. -/
abbrev opsD : List (HloOp τ sig (Elt F)) :=
  [ TRef.nullary main_call5.c (constantI S_ 32 0#32),
    TRef.unary main_call5.c main_call5.v0 (broadcastInDim S16 ![] bcast_S_S16),
    TRef.binary (.of main_v61 : TRef sig ⟨S16, .i32⟩) main_call5.v0 main_call5.v1 (cmpi .slt),
    TRef.nullary main_call5.c_0 (constantI S_ 32 4#32),
    TRef.unary main_call5.c_0 main_call5.v2 (broadcastInDim S16 ![] bcast_S_S16),
    TRef.binary (.of main_v61 : TRef sig ⟨S16, .i32⟩) main_call5.v2 main_call5.v3 addi,
    TRef.ternary main_call5.v1 main_call5.v3 (.of main_v61 : TRef sig ⟨S16, .i32⟩) main_call5.call0.v0 select,
    TRef.unary main_call5.call0.v0 main_call5.v5 (broadcastInDim S16x1 ![0] bcast_S16_S16x1_0),
    TRef.nullary main_call5.c_1 (constantI S1 32 3#32),
    TRef.nullary main_call5.c_2 (constantI S_ 32 0#32),
    TRef.unary main_call5.c_2 main_call5.v6 (broadcastInDim S16x1 ![] bcast_S_S16x1),
    TRef.binary main_call5.v5 main_call5.v6 main_call5.v7 (cmpi .sge),
    TRef.unary main_call5.c_1 main_call5.v8 (broadcastInDim S1x1 ![1] bcast_S1_S1x1_1),
    TRef.unary main_call5.v8 main_call5.v9 (broadcastInDim S16x1 ![0, 1] bcast_S1x1_S16x1_0_1),
    TRef.binary main_call5.v5 main_call5.v9 main_call5.v10 (cmpi .sle),
    TRef.binary main_call5.v7 main_call5.v10 main_call5.v11 andi,
    TRef.nullary main_call5.c_3 (constantI S_ 1 1#1),
    TRef.binary main_call5.v11 main_call5.c_3 main_call5.v12 (fun x v => Host.reduce IntOp.andi x v reducesTo_S16x1_S16_d1 h_S_),
    TRef.binary (.of main_v45 : TRef sig ⟨S640000x4, .f32⟩) main_call5.v5 main_call5.v13 (fun x i => Host.gather gather_S640000x4_S16x1_S640000x16_0_1_n_n_1_1_6400001 x i),
    TRef.unary main_call5.v12 main_call5.v14 (broadcastInDim S640000x16 ![1] bcast_S16_S640000x16_1),
    TRef.nullary main_call5.cst (constant S_ .f32 0x7FC00000#32),
    TRef.unary main_call5.cst main_call5.v15 (broadcastInDim S640000x16 ![] bcast_S_S640000x16),
    TRef.ternary main_call5.v14 main_call5.v13 main_call5.v15 main_call5.v16 select ]

/-- The product with the spherical-harmonic components, the sum into the receiving nodes, the division by 32:
    8 operations. -/
abbrev opsE : List (HloOp τ sig (Elt F)) :=
  [ binary main_arg0 main_v62 main_v63 (mulf : (⟨S640000x16, .f32⟩ : BufTy).Contents (Elt F) → (⟨S640000x16, .f32⟩ : BufTy).Contents (Elt F) → (⟨S640000x16, .f32⟩ : BufTy).Contents (Elt F)),
    nullary main_cst_12 (constant S_ .f32 0x00000000#32),
    unary main_cst_12 main_v64 (broadcastInDim S20000x16 ![] bcast_S_S20000x16 : (⟨S_, .f32⟩ : BufTy).Contents (Elt F) → (⟨S20000x16, .f32⟩ : BufTy).Contents (Elt F)),
    unary main_arg6 main_v65 (broadcastInDim S640000x1 ![0] bcast_S640000_S640000x1_0 : (⟨S640000, .i32⟩ : BufTy).Contents (Elt F) → (⟨S640000x1, .i32⟩ : BufTy).Contents (Elt F)),
    ternary main_v64 main_v65 main_v63 main_v66 ((fun x i u => Host.scatterAdd scatter_S20000x16_S640000x1_S640000x16_1_0_0_1 x i u) : (⟨S20000x16, .f32⟩ : BufTy).Contents (Elt F) → (⟨S640000x1, .i32⟩ : BufTy).Contents (Elt F) → (⟨S640000x16, .f32⟩ : BufTy).Contents (Elt F) → (⟨S20000x16, .f32⟩ : BufTy).Contents (Elt F)),
    nullary main_cst_13 (constant S_ .f32 0x42000000#32),
    unary main_cst_13 main_v67 (broadcastInDim S20000x16 ![] bcast_S_S20000x16 : (⟨S_, .f32⟩ : BufTy).Contents (Elt F) → (⟨S20000x16, .f32⟩ : BufTy).Contents (Elt F)),
    binary main_v66 main_v67 main_v68 (Host.divf : (⟨S20000x16, .f32⟩ : BufTy).Contents (Elt F) → (⟨S20000x16, .f32⟩ : BufTy).Contents (Elt F) → (⟨S20000x16, .f32⟩ : BufTy).Contents (Elt F)) ]

/-- The stretches end to end are @main's operations. -/
theorem ops_split : (ops : List (HloOp τ sig (Elt F))) = opsA ++ (opsB ++ (opsC1 ++ (opsC2 ++ (opsD ++ opsE)))) := rfl

/-- The fold over a concatenation is the second list's fold from the first's. -/
theorem after_cat : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_cat l₁ l₂]

/-! ## Each stretch read at the buffers the next ones use

Each operation's result at the buffer it writes is its function of its operands' contents, at any other buffer what
was there; the typed references' transports are the identity at these literal references. The gathers, scatters and
reductions are kept folded meanwhile: no equation here looks inside them. -/

section Stretches

attribute [local irreducible] Host.reduce Host.gather Host.scatter Host.scatterAdd Host.reduceWindow Host.reduceAdd

set_option maxRecDepth 8192 in
/-- The first stretch leaves the edge filter in its last buffer. -/
theorem A_v19 (V : Valuation τ sig (Elt F)) :
    after opsA V (main_v19 : DevRef τ sig)
      = Term.filtT (V (main_arg2 : DevRef τ sig)) (V (main_arg3 : DevRef τ sig)) (V (main_arg7 : DevRef τ sig))
          (V (main_arg8 : DevRef τ sig)) (V (main_arg9 : DevRef τ sig)) (V (main_arg10 : DevRef τ sig))
          (V (main_arg11 : DevRef τ sig)) (V (main_arg12 : DevRef τ sig)) (V (main_arg13 : DevRef τ sig))
          (V (main_arg14 : DevRef τ sig)) := by
  after_results_simp
  rfl

/-- … and the widths in its first. -/
theorem A_c (V : Valuation τ sig (Elt F)) : after opsA V (main_c : DevRef τ sig) = Term.widths := by
  after_results_simp <;> rfl

theorem A_arg0 (V : Valuation τ sig (Elt F)) : after opsA V (main_arg0 : DevRef τ sig) = V (main_arg0 : DevRef τ sig) := by
  after_results_simp
theorem A_arg1 (V : Valuation τ sig (Elt F)) : after opsA V (main_arg1 : DevRef τ sig) = V (main_arg1 : DevRef τ sig) := by
  after_results_simp
theorem A_arg4 (V : Valuation τ sig (Elt F)) : after opsA V (main_arg4 : DevRef τ sig) = V (main_arg4 : DevRef τ sig) := by
  after_results_simp
theorem A_arg5 (V : Valuation τ sig (Elt F)) : after opsA V (main_arg5 : DevRef τ sig) = V (main_arg5 : DevRef τ sig) := by
  after_results_simp
theorem A_arg6 (V : Valuation τ sig (Elt F)) : after opsA V (main_arg6 : DevRef τ sig) = V (main_arg6 : DevRef τ sig) := by
  after_results_simp
theorem A_arg15 (V : Valuation τ sig (Elt F)) : after opsA V (main_arg15 : DevRef τ sig) = V (main_arg15 : DevRef τ sig) := by
  after_results_simp
theorem A_arg16 (V : Valuation τ sig (Elt F)) : after opsA V (main_arg16 : DevRef τ sig) = V (main_arg16 : DevRef τ sig) := by
  after_results_simp

set_option maxRecDepth 8192 in
/-- The second stretch leaves the head weights, of the filter it finds and the arguments. -/
theorem B_v45 (W : Valuation τ sig (Elt F)) :
    after opsB W (main_v45 : DevRef τ sig)
      = Term.headWT (Term.endFeatT (W (main_arg1 : DevRef τ sig)) (W (main_arg15 : DevRef τ sig)) (W (main_arg6 : DevRef τ sig)))
          (W (main_v19 : DevRef τ sig))
          (Term.endFeatT (W (main_arg1 : DevRef τ sig)) (W (main_arg16 : DevRef τ sig)) (W (main_arg5 : DevRef τ sig)))
          (W (main_arg4 : DevRef τ sig)) := by
  after_results_simp
  rfl

theorem B_c (W : Valuation τ sig (Elt F)) : after opsB W (main_c : DevRef τ sig) = W (main_c : DevRef τ sig) := by
  after_results_simp
theorem B_arg0 (W : Valuation τ sig (Elt F)) : after opsB W (main_arg0 : DevRef τ sig) = W (main_arg0 : DevRef τ sig) := by
  after_results_simp
theorem B_arg6 (W : Valuation τ sig (Elt F)) : after opsB W (main_arg6 : DevRef τ sig) = W (main_arg6 : DevRef τ sig) := by
  after_results_simp

/-- The third stretch, from the widths, leaves their last entry … -/
theorem C1_v0 (W : Valuation τ sig (Elt F)) (hc : W (main_c : DevRef τ sig) = Term.widths) :
    after opsC1 W (main_call2_v0 : DevRef τ sig) = extractStridedSlice S1 ![3] Term.widths slices_S4_S1_3 := by
  after_results_simp
  rw [hc]
  rfl

/-- … and their first three. -/
theorem C1_v1 (W : Valuation τ sig (Elt F)) (hc : W (main_c : DevRef τ sig) = Term.widths) :
    after opsC1 W (main_call2_v1 : DevRef τ sig) = extractStridedSlice S3 ![0] Term.widths slices_S4_S3_0 := by
  after_results_simp
  rw [hc]
  rfl

theorem C1_v45 (W : Valuation τ sig (Elt F)) : after opsC1 W (main_v45 : DevRef τ sig) = W (main_v45 : DevRef τ sig) := by
  after_results_simp
theorem C1_arg0 (W : Valuation τ sig (Elt F)) : after opsC1 W (main_arg0 : DevRef τ sig) = W (main_arg0 : DevRef τ sig) := by
  after_results_simp
theorem C1_arg6 (W : Valuation τ sig (Elt F)) : after opsC1 W (main_arg6 : DevRef τ sig) = W (main_arg6 : DevRef τ sig) := by
  after_results_simp

set_option maxRecDepth 8192 in
/-- The fourth stretch, from those two slices, leaves the table column → head. -/
theorem C2_v61 (W : Valuation τ sig (Elt F))
    (h0 : W (main_call2_v0 : DevRef τ sig) = extractStridedSlice S1 ![3] Term.widths slices_S4_S1_3)
    (h1 : W (main_call2_v1 : DevRef τ sig) = extractStridedSlice S3 ![0] Term.widths slices_S4_S3_0) :
    after opsC2 W (main_v61 : DevRef τ sig) = Term.heads := by
  after_results_simp
  rw [h0, h1]
  rfl

theorem C2_v45 (W : Valuation τ sig (Elt F)) : after opsC2 W (main_v45 : DevRef τ sig) = W (main_v45 : DevRef τ sig) := by
  after_results_simp
theorem C2_arg0 (W : Valuation τ sig (Elt F)) : after opsC2 W (main_arg0 : DevRef τ sig) = W (main_arg0 : DevRef τ sig) := by
  after_results_simp
theorem C2_arg6 (W : Valuation τ sig (Elt F)) : after opsC2 W (main_arg6 : DevRef τ sig) = W (main_arg6 : DevRef τ sig) := by
  after_results_simp

set_option maxRecDepth 8192 in
/-- The fifth stretch, from that table, spreads the head weights it finds over the 16 columns. -/
theorem D_v62 (W : Valuation τ sig (Elt F)) (h61 : W (main_v61 : DevRef τ sig) = Term.heads) :
    after opsD W (main_v62 : DevRef τ sig) = Term.spreadT (W (main_v45 : DevRef τ sig)) := by
  after_results_simp
  rw [h61]
  rfl

theorem D_arg0 (W : Valuation τ sig (Elt F)) : after opsD W (main_arg0 : DevRef τ sig) = W (main_arg0 : DevRef τ sig) := by
  after_results_simp
theorem D_arg6 (W : Valuation τ sig (Elt F)) : after opsD W (main_arg6 : DevRef τ sig) = W (main_arg6 : DevRef τ sig) := by
  after_results_simp

/-- The last stretch: the product with the components, summed into the receiving nodes, divided by 32. -/
theorem E_v68 (W : Valuation τ sig (Elt F)) :
    after opsE W (main_v68 : DevRef τ sig)
      = Term.tailT (mulf (W (main_arg0 : DevRef τ sig)) (W (main_v62 : DevRef τ sig))) (W (main_arg6 : DevRef τ sig)) := by
  after_results_simp

end Stretches

/-- The fold read at the result buffer is the named term of the arguments: the six stretches in turn, each read at
    what the next ones use. -/
theorem out_eq (V : Valuation τ sig (Elt F)) :
    after ops V (main_v68 : DevRef τ sig)
      = Term.tailT (Term.msgT (V (main_arg0 : DevRef τ sig)) (V (main_arg1 : DevRef τ sig)) (V (main_arg2 : DevRef τ sig))
          (V (main_arg3 : DevRef τ sig)) (V (main_arg4 : DevRef τ sig)) (V (main_arg5 : DevRef τ sig)) (V (main_arg6 : DevRef τ sig))
          (V (main_arg7 : DevRef τ sig)) (V (main_arg8 : DevRef τ sig)) (V (main_arg9 : DevRef τ sig)) (V (main_arg10 : DevRef τ sig))
          (V (main_arg11 : DevRef τ sig)) (V (main_arg12 : DevRef τ sig)) (V (main_arg13 : DevRef τ sig)) (V (main_arg14 : DevRef τ sig))
          (V (main_arg15 : DevRef τ sig)) (V (main_arg16 : DevRef τ sig))) (V (main_arg6 : DevRef τ sig)) := by
  rw [ops_split]
  simp only [after_cat]
  rw [E_v68, D_arg0, C2_arg0, C1_arg0, B_arg0, A_arg0, D_arg6, C2_arg6, C1_arg6, B_arg6, A_arg6,
    D_v62 _ (C2_v61 _ (C1_v0 _ ((B_c _).trans (A_c _))) (C1_v1 _ ((B_c _).trans (A_c _)))), C2_v45, C1_v45, B_v45, A_v19,
    A_arg1, A_arg15, A_arg6, A_arg16, A_arg5, A_arg4]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., binary_bufs_sub .., reshape_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., nullary_bufs_sub .., ternary_bufs_sub .., nullary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., nullary_bufs_sub .., unary_bufs_sub .., unary_bufs_sub .., ternary_bufs_sub .., nullary_bufs_sub .., unary_bufs_sub .., binary_bufs_sub ..⟩

/-- Every weakly fair execution of @main terminates, each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp
theorem arg5_eq (V : Valuation τ sig (Elt F)) : after ops V (main_arg5 : DevRef τ sig) = V (main_arg5 : DevRef τ sig) := by
  after_results_simp
theorem arg6_eq (V : Valuation τ sig (Elt F)) : after ops V (main_arg6 : DevRef τ sig) = V (main_arg6 : DevRef τ sig) := by
  after_results_simp
theorem arg7_eq (V : Valuation τ sig (Elt F)) : after ops V (main_arg7 : DevRef τ sig) = V (main_arg7 : DevRef τ sig) := by
  after_results_simp
theorem arg8_eq (V : Valuation τ sig (Elt F)) : after ops V (main_arg8 : DevRef τ sig) = V (main_arg8 : DevRef τ sig) := by
  after_results_simp
theorem arg9_eq (V : Valuation τ sig (Elt F)) : after ops V (main_arg9 : DevRef τ sig) = V (main_arg9 : DevRef τ sig) := by
  after_results_simp
theorem arg10_eq (V : Valuation τ sig (Elt F)) : after ops V (main_arg10 : DevRef τ sig) = V (main_arg10 : DevRef τ sig) := by
  after_results_simp
theorem arg11_eq (V : Valuation τ sig (Elt F)) : after ops V (main_arg11 : DevRef τ sig) = V (main_arg11 : DevRef τ sig) := by
  after_results_simp
theorem arg12_eq (V : Valuation τ sig (Elt F)) : after ops V (main_arg12 : DevRef τ sig) = V (main_arg12 : DevRef τ sig) := by
  after_results_simp
theorem arg13_eq (V : Valuation τ sig (Elt F)) : after ops V (main_arg13 : DevRef τ sig) = V (main_arg13 : DevRef τ sig) := by
  after_results_simp
theorem arg14_eq (V : Valuation τ sig (Elt F)) : after ops V (main_arg14 : DevRef τ sig) = V (main_arg14 : DevRef τ sig) := by
  after_results_simp
theorem arg15_eq (V : Valuation τ sig (Elt F)) : after ops V (main_arg15 : DevRef τ sig) = V (main_arg15 : DevRef τ sig) := by
  after_results_simp
theorem arg16_eq (V : Valuation τ sig (Elt F)) : after ops V (main_arg16 : DevRef τ sig) = V (main_arg16 : DevRef τ sig) := by
  after_results_simp

/-- On every device, for any float values, from any memory with zero counters: every weakly fair execution of @main
    terminates with the result at the composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v68)
        = Term.tailT (Term.msgT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c main_v68).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _),
      (h c main_arg14).trans (arg14_eq _),
      (h c main_arg15).trans (arg15_eq _),
      (h c main_arg16).trans (arg16_eq _)⟩) (run_main m ρ)

end Cert.ReferenceIdeal.Run

end
-- ==== Proof.RefIdx.lean ====
/-
  The table column → head that the reference computes from the widths 1, 3, 5, 7 is 0, 1, 1, 1, 2, 2, 2, 2, 2, 3, 3, 3,
  3, 3, 3, 3: every entry lies in 0 … 3, so the spread of the head weights over the 16 columns never takes the fill
  value, and column c reads the weight of the head that owns it.
-/
import proofs.«169250_j73469710566102_1_alg».proof.Proof.RefTerm
import proofs.«169250_j73469710566102_1_alg».proof.Proof.LibGather
import proofs.«169250_j73469710566102_1_alg».proof.Proof.EdgeSpec

noncomputable section

namespace Cert.ReferenceIdeal.Idx

open Idealize.ShloMosaic Idealize.ShloMosaic.ValueIdx Cert.ReferenceIdeal

/-- The table column → head as a literal. -/
def headTable : Fin 16 → BitVec 32 :=
  ![0#32, 1#32, 1#32, 1#32, 2#32, 2#32, 2#32, 2#32, 2#32, 3#32, 3#32, 3#32, 3#32, 3#32, 3#32, 3#32]

/-- The widths are 1, 3, 5, 7. -/
theorem widths_eq : Term.widths = fun i => (![1#32, 3#32, 5#32, 7#32] : Fin 4 → BitVec 32) (i 0) := by decide

/-- Rotated by one they are 7, 1, 3, 5. -/
theorem rolled_eq : Term.rolled = fun i => (![7#32, 1#32, 3#32, 5#32] : Fin 4 → BitVec 32) (i 0) := by decide

/-- With the first entry zeroed: 0, 1, 3, 5. -/
theorem shifted_eq : Term.shifted = fun i => (![0#32, 1#32, 3#32, 5#32] : Fin 4 → BitVec 32) (i 0) := by decide

/-- The running sum: the starts 0, 1, 4, 9. -/
theorem starts_eq : Term.starts = fun i => (![0#32, 1#32, 4#32, 9#32] : Fin 4 → BitVec 32) (i 0) := by decide

/-- A one at each of the columns 0, 1, 4, 9. -/
theorem marks_eq : Term.marks = fun i =>
    (![1#32, 1#32, 0#32, 0#32, 1#32, 0#32, 0#32, 0#32, 0#32, 1#32, 0#32, 0#32, 0#32, 0#32, 0#32, 0#32] : Fin 16 → BitVec 32) (i 0) := by
  decide

/-- The running sum of the marks minus one is the table. -/
theorem heads_eq : Term.heads = fun i => headTable (i 0) := by
  unfold Term.heads
  rw [marks_eq]
  decide

/-- No entry of the table is negative, so counting from the end changes nothing. -/
theorem headsW_eq : Term.headsW = fun i => headTable (i 0) := by
  unfold Term.headsW
  rw [heads_eq]
  decide

/-- The table as a column. -/
theorem headsCol_eq : Term.headsCol = fun i => headTable (i 0) := by
  unfold Term.headsCol
  rw [headsW_eq]
  decide

/-- Every entry of the table lies in 0 … 3. -/
theorem headsOk_eq : Term.headsOk = fun _ => 1#1 := by
  unfold Term.headsOk
  rw [headsCol_eq]
  decide

/-- Entry c of the table, read signed and clamped into 0 … 3, is the head that owns column c. -/
theorem headTable_head (c : Fin 16) : min (headTable c).toInt.toNat (4 - 1) = (Cert.EdgeSpec.headOf c).val := by
  revert c; decide

/-- Column c of the spread head weights is the weight of the head that owns column c. -/
theorem spreadT_apply (a : FVec Ideal S640000x4 .f32) (e : Fin 640000) (c : Fin 16) :
    Term.spreadT (F := Ideal) a (ix2 e c) = a (ix2 e (Cert.EdgeSpec.headOf c)) := by
  unfold Term.spreadT
  rw [select_apply, headsOk_eq]
  have hm : broadcastInDim S640000x16 ![1] Facts₀.bcast_S16_S640000x16_1 (fun _ => 1#1 : IVec S16 1) (ix2 e c) = 1#1 := rfl
  rw [hm, select_one,
    Cert.LibGather.gather_cols2_apply (E := 640000) (K := 4) (C := 16) (by decide)
      gather_S640000x4_S16x1_S640000x16_0_1_n_n_1_1_6400001 rfl rfl rfl rfl rfl rfl rfl a Term.headsCol e c]
  refine congrArg (fun k => a (ix2 e k)) (Fin.ext ?_)
  show min (Term.headsCol (ix2 c 0)).toInt.toNat (4 - 1) = _
  rw [headsCol_eq]
  exact headTable_head c

end Cert.ReferenceIdeal.Idx

end
-- ==== Proof.RefFilt.lean ====
/-
  The reference's edge filter read at an entry: entry (e, h, j) of the [640000, 4, 32] view is feature 32·h + j of edge e,
  and that feature is the two networks' outputs added. A matrix product read at an entry is the sum over the contracted
  coordinate, the bias is laid along the rows, and y ↦ y · (1 / (1 + e^(−y))) is y · σ(y).
-/
import proofs.«169250_j73469710566102_1_alg».proof.Proof.RefTerm
import proofs.«169250_j73469710566102_1_alg».proof.Proof.LibHostDot
import proofs.«169250_j73469710566102_1_alg».proof.Proof.EdgeSpec
import Idealize.ShloMosaic.Lib.Pipeline.Value
import Idealize.ShloMosaic.Lib.ValueLayout
import Idealize.ShloMosaic.Lib.IdealHost

noncomputable section

open scoped BigOperators

namespace Cert.ReferenceIdeal.Value

open Idealize.ShloMosaic Idealize.ShloMosaic.ValueIdx Cert.ReferenceIdeal Cert.EdgeSpec

/-- The [640000, 128] array seen as [640000, 4, 32]: entry (e, h, j) is entry (e, 32·h + j), both at row-major
    position 128·e + 32·h + j. -/
theorem cast_apply (x : FVec Ideal S640000x128 .f32) (hc : S640000x128.ShapeCasts S640000x4x32) (e : Fin 640000) (h : Fin 4)
    (j : Fin 32) : shapeCast S640000x4x32 x hc (ix3 e h j) = x (ix2 e (lane h j)) :=
  shapeCast_apply x hc (ix3 e h j) (ix2 e (lane h j)) (by
    rw [Shape.rowMajor_val_two, Shape.rowMajor_val_three]
    show e.val * 128 + (32 * h.val + j.val) = (e.val * 4 + h.val) * 32 + j.val
    omega)

/-- y · (1 / (1 + e^(−y))) at an entry is y · σ(y): the constant's pattern is the number one. -/
theorem siluT_apply (y : FVec Ideal S640000x128 .f32) (i : S640000x128.Idx) : Term.siluT (F := Ideal) y i = silu (y i) := by
  show y i * Ideal.div (broadcastInDim S640000x128 ![] _ (constant (F := Ideal) S_ .f32 0x3F800000#32) i)
      (broadcastInDim S640000x128 ![] _ (constant (F := Ideal) S_ .f32 0x3F800000#32) i + Ideal.exp (-(y i))) = _
  rw [broadcastInDim_scalar_apply, constant_apply, Ideal.ofBits_one_f32]
  rfl

/-- The bias laid along the rows: entry (e, k) is the bias's entry k. -/
theorem biasT_apply (b : FVec Ideal S128 .f32) (e : Fin 640000) (k : Fin 128) : Term.biasT (F := Ideal) b (ix2 e k) = b (ix1 k) := by
  refine (broadcastInDim_apply ![0, 1] _ _ (ix2 e k) (ix2 (0 : Fin 1) k) ?_).trans ?_
  · intro a
    match a with
    | ⟨0, _⟩ => rfl
    | ⟨1, _⟩ => rfl
  · exact broadcastInDim_apply ![1] _ b (ix2 (0 : Fin 1) k) (ix1 k) (fun a => match a with | ⟨0, _⟩ => rfl)

/-- The first layer at (e, k): row e of the input against column k of the weights, plus the bias's entry k. -/
theorem layer1T_apply (X : FVec Ideal S640000x64 .f32) (W : FVec Ideal S64x128 .f32) (b : FVec Ideal S128 .f32) (e : Fin 640000)
    (k : Fin 128) :
    Term.layer1T (F := Ideal) X W b (ix2 e k) = lin (fun c => X (ix2 e c)) (fun a b' => W (ix2 a b')) (fun d => b (ix1 d)) k := by
  show Host.dotGeneral (F := Ideal) _ none X W (ix2 e k) + Term.biasT (F := Ideal) b (ix2 e k) = _
  rw [biasT_apply, Cert.LibHostDot.dotGeneral_10_apply _ rfl rfl rfl rfl rfl rfl]
  rfl

/-- The second layer at (e, k), likewise. -/
theorem layer2T_apply (H : FVec Ideal S640000x128 .f32) (W : FVec Ideal S128x128 .f32) (b : FVec Ideal S128 .f32) (e : Fin 640000)
    (k : Fin 128) :
    Term.layer2T (F := Ideal) H W b (ix2 e k) = lin (fun c => H (ix2 e c)) (fun a b' => W (ix2 a b')) (fun d => b (ix1 d)) k := by
  show Host.dotGeneral (F := Ideal) _ none H W (ix2 e k) + Term.biasT (F := Ideal) b (ix2 e k) = _
  rw [biasT_apply, Cert.LibHostDot.dotGeneral_10_apply _ rfl rfl rfl rfl rfl rfl]
  rfl

/-- One network at (e, k): the two layers with y · σ(y) between them. -/
theorem mlpT_apply (X : FVec Ideal S640000x64 .f32) (W1 : FVec Ideal S64x128 .f32) (b1 : FVec Ideal S128 .f32)
    (W2 : FVec Ideal S128x128 .f32) (b2 : FVec Ideal S128 .f32) (e : Fin 640000) (k : Fin 128) :
    Term.layer2T (F := Ideal) (Term.siluT (Term.layer1T X W1 b1)) W2 b2 (ix2 e k)
      = mlp (fun c => X (ix2 e c)) (fun a b' => W1 (ix2 a b')) (fun d => b1 (ix1 d)) (fun a b' => W2 (ix2 a b')) (fun d => b2 (ix1 d)) k := by
  rw [layer2T_apply]
  unfold mlp
  congr 1
  funext c
  rw [siluT_apply, layer1T_apply]

/-- The filter at (e, h, j): the two networks on edge e at feature 32·h + j, added. -/
theorem filtT_apply (ef cs : FVec Ideal S640000x64 .f32) (Wr1 : FVec Ideal S64x128 .f32) (br1 : FVec Ideal S128 .f32)
    (Wr2 : FVec Ideal S128x128 .f32) (br2 : FVec Ideal S128 .f32) (Ws1 : FVec Ideal S64x128 .f32) (bs1 : FVec Ideal S128 .f32)
    (Ws2 : FVec Ideal S128x128 .f32) (bs2 : FVec Ideal S128 .f32) (e : Fin 640000) (h : Fin 4) (j : Fin 32) :
    Term.filtT (F := Ideal) ef cs Wr1 br1 Wr2 br2 Ws1 bs1 Ws2 bs2 (ix3 e h j)
      = mlp (fun k => ef (ix2 e k)) (fun a b => Wr1 (ix2 a b)) (fun d => br1 (ix1 d)) (fun a b => Wr2 (ix2 a b)) (fun d => br2 (ix1 d)) (lane h j)
        + mlp (fun k => cs (ix2 e k)) (fun a b => Ws1 (ix2 a b)) (fun d => bs1 (ix1 d)) (fun a b => Ws2 (ix2 a b)) (fun d => bs2 (ix1 d)) (lane h j) := by
  refine (cast_apply _ _ e h j).trans ?_
  rw [addf_apply, mlpT_apply, mlpT_apply]

end Cert.ReferenceIdeal.Value

end
-- ==== Proof.RefHead.lean ====
/-
  The reference's gathered node features and head weights read at an entry: entry (e, h, j) of an end node's projected
  features is row "that node" of node_feats·W at feature 32·h + j (a row gather reads the clamped, end-counted index),
  and the head weight at (e, h) sums the head's 32 lanes, times the fixed factor, times the edge's cutoff.
-/
import proofs.«169250_j73469710566102_1_alg».proof.Proof.RefTerm
import proofs.«169250_j73469710566102_1_alg».proof.Proof.LibGather
import proofs.«169250_j73469710566102_1_alg».proof.Proof.LibHostDot
import proofs.«169250_j73469710566102_1_alg».proof.Proof.EdgeSpec
import Idealize.ShloMosaic.Lib.Pipeline.Value
import Idealize.ShloMosaic.Lib.ValueLayout

noncomputable section

open scoped BigOperators

namespace Cert.ReferenceIdeal.Value

open Idealize.ShloMosaic Idealize.ShloMosaic.ValueIdx Cert.ReferenceIdeal Cert.EdgeSpec

/-- A [20000, 128] array seen as [20000, 4, 32]: entry (ρ, a, b) is the operand at (ρ, 32·a + b). -/
theorem reshape_heads_apply {α : Type} (x : (⟨2, ![20000, 128]⟩ : Shape).Idx → α)
    (hc : (⟨2, ![20000, 128]⟩ : Shape).ShapeCasts ⟨3, ![20000, 4, 32]⟩) (ρ : Fin 20000) (a : Fin 4) (b : Fin 32) :
    shapeCast ⟨3, ![20000, 4, 32]⟩ x hc (ix3 ρ a b) = x (ix2 ρ (lane a b)) :=
  shapeCast_apply x hc _ _ (by
    rw [Shape.rowMajor_val_two, Shape.rowMajor_val_three]
    show ρ.val * 128 + (32 * a.val + b.val) = (ρ.val * 4 + a.val) * 32 + b.val
    omega)

/-- The end-node index column at row e: the edge's index word, a negative one moved up by 20000. -/
theorem nodeIdxT_apply (i : IVec S640000 32) (e : Fin 640000) :
    Term.nodeIdxT i (ix2 e 0)
      = Scalar.select (IntOp.cmpi .slt (i (ix1 e)) 0#32) (IntOp.addi (i (ix1 e)) 20000#32) (i (ix1 e)) := by
  refine (broadcastInDim_apply ![0] _ _ (ix2 e (0 : Fin 1)) (ix1 e) ?_).trans ?_
  · intro a
    match a with
    | ⟨0, _⟩ => rfl
  · rfl

/-- An end node's projected features at (e, h, j): the node's row of node_feats·W at feature 32·h + j. -/
theorem endFeatT_apply (nf : FVec Ideal S20000x128 .f32) (W : FVec Ideal S128x128 .f32) (i : IVec S640000 32)
    (e : Fin 640000) (h : Fin 4) (j : Fin 32) :
    Term.endFeatT (F := Ideal) nf W i (ix3 e h j) = proj nf W (rowOf (i (ix1 e))) (lane h j) := by
  have hrow : ∀ pf, (⟨min (Term.nodeIdxT i (ix2 e 0)).toInt.toNat (20000 - 1), pf⟩ : Fin 20000) = rowOf (i (ix1 e)) := by
    intro pf
    refine Fin.ext ?_
    show min (Term.nodeIdxT i (ix2 e 0)).toInt.toNat (20000 - 1) = _
    rw [nodeIdxT_apply]
    rfl
  refine (Cert.LibGather.gather_rows3_apply (by decide) _ rfl rfl rfl rfl rfl rfl rfl _ _ e h j).trans ?_
  rw [hrow, reshape_heads_apply]
  refine (Cert.LibHostDot.dotGeneral_10_apply _ rfl rfl rfl rfl rfl rfl _ _ _ _ _).trans ?_
  rfl

/-- The sum along the last axis of a [640000, 4, 32] array from a start value, at (e, h): the start value plus the 32
    entries (e, h, ·). -/
theorem reduceLast_apply (x : FVec Ideal S640000x4x32 .f32) (init : FVec Ideal S_ .f32)
    (hr : S640000x4x32.ReducesTo [2] S640000x4) (hu : 0 < S_.numel) (e : Fin 640000) (h : Fin 4) :
    Host.reduceAdd (F := Ideal) x init hr hu (ix2 e h) = init (Shape.Idx.first hu) + ∑ j : Fin 32, x (ix3 e h j) := by
  have hR : S640000x4x32.Reduces [2] S640000x4 := by decide
  show Ideal.hostReduceAdd hr x (init (Shape.Idx.first hu)) (ix2 e h) = _
  refine (Ideal.hostReduceAdd_single hr hR x _ (ix2 e h)).trans ?_
  refine congrArg _ (Finset.sum_congr rfl fun j _ => congrArg x ?_)
  funext a
  refine Fin.ext ?_
  match a with
  | ⟨0, _⟩ => rfl
  | ⟨1, _⟩ => rfl
  | ⟨2, _⟩ => rfl

/-- A cutoff [640000] laid as a column and then along the 4 heads, at (e, h): the edge's cutoff. -/
theorem cutCols_apply {α : Type} (cut : S640000.Idx → α) (h1 : S640000.BroadcastsInDim S640000x1 ![0])
    (h2 : S640000x1.BroadcastsInDim S640000x4 ![0, 1]) (e : Fin 640000) (h : Fin 4) :
    broadcastInDim S640000x4 ![0, 1] h2 (broadcastInDim S640000x1 ![0] h1 cut) (ix2 e h) = cut (ix1 e) := by
  refine (broadcastInDim_apply ![0, 1] h2 _ (ix2 e h) (ix2 e (0 : Fin 1)) ?_).trans ?_
  · intro a
    match a with
    | ⟨0, _⟩ => rfl
    | ⟨1, _⟩ => rfl
  · refine broadcastInDim_apply ![0] h1 cut (ix2 e (0 : Fin 1)) (ix1 e) ?_
    intro a
    match a with
    | ⟨0, _⟩ => rfl

/-- A head weight at (e, h): the 32 lanes' products summed, times the fixed factor, times the edge's cutoff. -/
theorem headWT_apply (q w k : FVec Ideal S640000x4x32 .f32) (cut : FVec Ideal S640000 .f32) (e : Fin 640000) (h : Fin 4) :
    Term.headWT (F := Ideal) q w k cut (ix2 e h)
      = ((∑ j : Fin 32, q (ix3 e h j) * w (ix3 e h j) * k (ix3 e h j)) * scale) * cut (ix1 e) := by
  show Host.reduceAdd (F := Ideal) (mulf (mulf q w) k) (constant S_ .f32 0x00000000#32) _ _ (ix2 e h)
      * broadcastInDim S640000x4 ![] _ (constant (F := Ideal) S_ .f32 0x3E3504F3#32) (ix2 e h)
      * broadcastInDim S640000x4 ![0, 1] _ (broadcastInDim S640000x1 ![0] _ cut) (ix2 e h) = _
  rw [reduceLast_apply, cutCols_apply]
  have h0 : constant (F := Ideal) S_ .f32 0x00000000#32 (Shape.Idx.first Facts₀.h_S_) = 0 := Ideal.ofBits_zero_f32
  rw [h0, zero_add]
  rfl

end Cert.ReferenceIdeal.Value

end
-- ==== Proof.RefValue.lean ====
/-
  The reference's message array, read at row e and column c, is the edge message of the specification: the spherical
  harmonic component times the weight of the head that owns the column, the weight read through the filter and the two
  end nodes' projected features.
-/
import proofs.«169250_j73469710566102_1_alg».proof.Proof.RefTerm
import proofs.«169250_j73469710566102_1_alg».proof.Proof.RefIdx
import proofs.«169250_j73469710566102_1_alg».proof.Proof.RefFilt
import proofs.«169250_j73469710566102_1_alg».proof.Proof.RefHead
import proofs.«169250_j73469710566102_1_alg».proof.Proof.EdgeSpec
import Idealize.ShloMosaic.Lib.Pipeline.Value
import Idealize.ShloMosaic.Lib.ValueLayout

noncomputable section

open scoped BigOperators

namespace Cert.ReferenceIdeal.Value

open Idealize.ShloMosaic Idealize.ShloMosaic.ValueIdx Cert.ReferenceIdeal Cert.EdgeSpec

/-- The message array at (e, c) is the specification's edge message. -/
theorem msgT_apply (esh : FVec Ideal S640000x16 .f32) (nf : FVec Ideal S20000x128 .f32) (ef cs : FVec Ideal S640000x64 .f32) (cut : FVec Ideal S640000 .f32)
    (snd rcv : IVec S640000 32) (Wr1 : FVec Ideal S64x128 .f32) (br1 : FVec Ideal S128 .f32) (Wr2 : FVec Ideal S128x128 .f32) (br2 : FVec Ideal S128 .f32)
    (Ws1 : FVec Ideal S64x128 .f32) (bs1 : FVec Ideal S128 .f32) (Ws2 : FVec Ideal S128x128 .f32) (bs2 : FVec Ideal S128 .f32)
    (Wq Wk : FVec Ideal S128x128 .f32) (e : Fin 640000) (c : Fin 16) :
    Term.msgT (F := Ideal) esh nf ef cs cut snd rcv Wr1 br1 Wr2 br2 Ws1 bs1 Ws2 bs2 Wq Wk (ix2 e c)
      = msgAt esh nf ef cs cut snd rcv Wr1 br1 Wr2 br2 Ws1 bs1 Ws2 bs2 Wq Wk e c := by
  show esh (ix2 e c) * Term.spreadT (Term.headWT (Term.endFeatT nf Wq rcv)
      (Term.filtT ef cs Wr1 br1 Wr2 br2 Ws1 bs1 Ws2 bs2) (Term.endFeatT nf Wk snd) cut) (ix2 e c) = _
  rw [Cert.ReferenceIdeal.Idx.spreadT_apply, headWT_apply]
  simp only [endFeatT_apply, filtT_apply]
  rfl

end Cert.ReferenceIdeal.Value

end
-- ==== Proof.lean ====
/-
  The kernel and its reference compute one function of the seventeen arguments.

  Both programs build, for every edge, a message of 16 numbers — the edge's spherical-harmonic components, each times the
  weight of the head that owns its column, the weight made from the edge filter (two small networks on the edge's
  features) and the projected features of the edge's two end nodes — then add each edge's message into its receiving
  node's row and divide by 32. The kernel forms the messages 5000 edges at a time on a grid of 128 points; the
  reference forms them with whole-array host operations. Read at one entry, both message arrays are the specification's
  edge message, the same sums in the same order, so no algebraic law beyond reading a sum at an index is needed and the
  precondition is never opened; the final sum into the nodes and the division are the same operations applied to equal
  arrays.

  The three frame claims: the kernel's and the idealized kernel's are the generated frame certificates; the
  reference's is its run with the result dropped. The idealization rewrote nothing, so its claim is trivial.
-/
import proofs.«169250_j73469710566102_1_alg».proof.Defs
import proofs.«169250_j73469710566102_1_alg».proof.Proof.Gen.Kernel
import proofs.«169250_j73469710566102_1_alg».proof.Proof.Gen.Kernel.Frame
import proofs.«169250_j73469710566102_1_alg».proof.Proof.Gen.KernelIdeal
import proofs.«169250_j73469710566102_1_alg».proof.Proof.Gen.KernelIdeal.Frame
import proofs.«169250_j73469710566102_1_alg».proof.Proof.Gen.ReferenceIdeal
import proofs.«169250_j73469710566102_1_alg».proof.Proof.Gen.Pre_finite_inputs
import proofs.«169250_j73469710566102_1_alg».proof.Proof.KerRun
import proofs.«169250_j73469710566102_1_alg».proof.Proof.KerArray
import proofs.«169250_j73469710566102_1_alg».proof.Proof.RefRun
import proofs.«169250_j73469710566102_1_alg».proof.Proof.RefValue
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result's value forgotten. -/
theorem frame_ri : Cert.frame_ReferenceIdeal := fun m ρ _ =>
  (θ_run Cert.ReferenceIdeal.defs _ _).mono (fun _ h c => (h c).2) (Cert.ReferenceIdeal.Run.run (F := Ideal) m ρ)

theorem preserves : Cert.preserves_Kernel_KernelIdeal := trivial

/-- Both programs end with the specification's message array summed into the receiving nodes and divided by 32. -/
theorem algebraic : Cert.algebraic_KernelIdeal_ReferenceIdeal := by
  intro m ρ m' ρ' _ hagree
  refine ⟨fun c => Cert.KernelIdeal.EdgeValue.tailK (F := Ideal) (Cert.KernelIdeal.EdgeValue.msgArr m c) (m ((c.tc : Thread Cert.KernelIdeal.nD Cert.KernelIdeal.τ).loc Cert.KernelIdeal.main_arg6)), ?_, ?_⟩
  · refine (θ_run Cert.KernelIdeal.defs _ _).mono (fun _ h c => ⟨(h c).1.trans ?_, (h c).2⟩)
      (Cert.KernelIdeal.EdgeValue.run (F := Ideal) m ρ)
    rw [Cert.KernelIdeal.EdgeValue.out_array]
  · refine (θ_run Cert.ReferenceIdeal.defs _ _).mono (fun _ h c => ⟨(h c).1.trans ?_, (h c).2⟩)
      (Cert.ReferenceIdeal.Run.run (F := Ideal) m' ρ')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2.1,
      (hagree c).2.2.2.2.2.2.2.2.2.2.1, (hagree c).2.2.2.2.2.2.2.2.2.2.2.1, (hagree c).2.2.2.2.2.2.2.2.2.2.2.2.1,
      (hagree c).2.2.2.2.2.2.2.2.2.2.2.2.2.1, (hagree c).2.2.2.2.2.2.2.2.2.2.2.2.2.2.1, (hagree c).2.2.2.2.2.2.2.2.2.2.2.2.2.2.2.1,
      (hagree c).2.2.2.2.2.2.2.2.2.2.2.2.2.2.2.2]
    have hmsg : Cert.ReferenceIdeal.Term.msgT (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))
        = Cert.KernelIdeal.EdgeValue.msgArr m c := by
      funext i
      obtain ⟨e, col, rfl⟩ : ∃ (e : Fin 640000) (col : Fin 16), i = ix2 e col := ⟨i 0, i 1, eq_ix2 i⟩
      exact Cert.ReferenceIdeal.Value.msgT_apply _ _ _ _ _ _ _ _ _ _ _ _ _ _ _ _ _ e col
    rw [hmsg]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
